-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x256 : Shape := ⟨2, ![4, 256]⟩
abbrev S4x4096 : Shape := ⟨2, ![4, 4096]⟩
abbrev S256 : Shape := ⟨1, ![256]⟩
abbrev S4096x256 : Shape := ⟨2, ![4096, 256]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg6 : FVec F S4096x256 .f32) (main_arg7 : FVec F S4096 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4096x256 .f32 := Host.absf main_arg6
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096 .f32 := Host.absf main_arg7
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x4096x4096 .f32) (main_arg1 : FVec F S4x256 .f32) (main_arg2 : IVec S4x4096 32) (main_arg3 : IVec S4x4096 32) (main_arg4 : FVec F S256 .f32) (main_arg5 : FVec F S256 .f32) (main_arg6 : FVec F S4096x256 .f32) (main_arg7 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S4x4096x4096 : Shape := ⟨3, ![4, 4096, 4096]⟩
abbrev S4x256 : Shape := ⟨2, ![4, 256]⟩
abbrev S4x4096 : Shape := ⟨2, ![4, 4096]⟩
abbrev S256 : Shape := ⟨1, ![256]⟩
abbrev S4096x256 : Shape := ⟨2, ![4096, 256]⟩
abbrev S4096 : Shape := ⟨1, ![4096]⟩
abbrev S_ : Shape := ⟨0, ![]⟩
abbrev S4 : Shape := ⟨1, ![4]⟩
abbrev S4x1 : Shape := ⟨2, ![4, 1]⟩
abbrev S1x256 : Shape := ⟨2, ![1, 256]⟩
abbrev S1x4096 : Shape := ⟨2, ![1, 4096]⟩
abbrev S1x256x4096 : Shape := ⟨3, ![1, 256, 4096]⟩
abbrev S1 : Shape := ⟨1, ![1]⟩
abbrev S256x1 : Shape := ⟨2, ![256, 1]⟩
abbrev S256x4096 : Shape := ⟨2, ![256, 4096]⟩

abbrev nBuf : Space → Nat
  | .hbm => 34
  | .vmem => 12
  | .smem => 1
  | _ => 0

abbrev bufTy : (tb : Table) → Fin (tcTables nBuf tb) → BufTy
  | .hbm, ⟨0, _⟩ => ⟨S4x4096x4096, .f32⟩
  | .hbm, ⟨1, _⟩ => ⟨S4x256, .f32⟩
  | .hbm, ⟨2, _⟩ => ⟨S4x4096, .i32⟩
  | .hbm, ⟨3, _⟩ => ⟨S4x4096, .i32⟩
  | .hbm, ⟨4, _⟩ => ⟨S256, .f32⟩
  | .hbm, ⟨5, _⟩ => ⟨S256, .f32⟩
  | .hbm, ⟨6, _⟩ => ⟨S4096x256, .f32⟩
  | .hbm, ⟨7, _⟩ => ⟨S4096, .f32⟩
  | .hbm, ⟨8, _⟩ => ⟨S_, .i1⟩
  | .hbm, ⟨9, _⟩ => ⟨S4, .i1⟩
  | .hbm, ⟨10, _⟩ => ⟨S_, .i32⟩
  | .hbm, ⟨11, _⟩ => ⟨S4x4096, .i32⟩
  | .hbm, ⟨12, _⟩ => ⟨S4x4096, .i1⟩
  | .hbm, ⟨13, _⟩ => ⟨S_, .i1⟩
  | .hbm, ⟨14, _⟩ => ⟨S4, .i1⟩
  | .hbm, ⟨15, _⟩ => ⟨S4, .i1⟩
  | .hbm, ⟨16, _⟩ => ⟨S_, .i32⟩
  | .hbm, ⟨17, _⟩ => ⟨S4x4096, .i32⟩
  | .hbm, ⟨18, _⟩ => ⟨S4x4096, .i1⟩
  | .hbm, ⟨19, _⟩ => ⟨S_, .i1⟩
  | .hbm, ⟨20, _⟩ => ⟨S4, .i1⟩
  | .hbm, ⟨21, _⟩ => ⟨S4, .i1⟩
  | .hbm, ⟨22, _⟩ => ⟨S4, .f32⟩
  | .hbm, ⟨23, _⟩ => ⟨S4x1, .f32⟩
  | .hbm, ⟨24, _⟩ => ⟨S_, .i32⟩
  | .hbm, ⟨25, _⟩ => ⟨S4, .i32⟩
  | .hbm, ⟨26, _⟩ => ⟨S_, .i32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4x4096, .f32⟩
  | .hbm, ⟨33, _⟩ => ⟨S4x4096x4096, .f32⟩
  | .local _ .vmem, ⟨0, _⟩ => ⟨S4x256, .f32⟩
  | .local _ .vmem, ⟨1, _⟩ => ⟨S256, .f32⟩
  | .local _ .vmem, ⟨2, _⟩ => ⟨S256, .f32⟩
  | .local _ .vmem, ⟨3, _⟩ => ⟨S4096x256, .f32⟩
  | .local _ .vmem, ⟨4, _⟩ => ⟨S4096, .f32⟩
  | .local _ .vmem, ⟨5, _⟩ => ⟨S4x1, .f32⟩
  | .local _ .vmem, ⟨6, _⟩ => ⟨S4x4096, .f32⟩
  | .local _ .vmem, ⟨7, _⟩ => ⟨S1x256x4096, .f32⟩
  | .local _ .vmem, ⟨8, _⟩ => ⟨S1x256x4096, .f32⟩
  | .local _ .vmem, ⟨9, _⟩ => ⟨S4x4096, .f32⟩
  | .local _ .vmem, ⟨10, _⟩ => ⟨S1x256x4096, .f32⟩
  | .local _ .vmem, ⟨11, _⟩ => ⟨S1x256x4096, .f32⟩
  | .local _ .smem, ⟨0, _⟩ => ⟨S4, .i32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_c_5 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c_6 : Ref sig .tc := ⟨.hbm, 30, rfl⟩
abbrev main_v13 : Ref sig .tc := ⟨.hbm, 31, rfl⟩
abbrev main_v15 : Ref sig .tc := ⟨.hbm, 32, rfl⟩
abbrev main_v16 : Ref sig .tc := ⟨.hbm, 33, rfl⟩
abbrev main_v14 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![4, 16], ![false, false]⟩

abbrev pre1 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 2 → Nat :=
  let arg0 : BitVec 32 := BitVec.ofNat 32 (i 0).val
  let v9 : Index := Scalar.indexCast arg0
  let c0 : Index := 0#32
  ![v9.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S4 : S_.BroadcastsInDim S4 (![] : Fin 0 → Fin S4.rank)
  bcast_S_S4x4096 : S_.BroadcastsInDim S4x4096 (![] : Fin 0 → Fin S4x4096.rank)
  reducesTo_S4x4096_S4_d1 : S4x4096.ReducesTo [1] S4
  h_S_ : 0 < S_.numel
  bcast_S4_S4x1_0 : S4.BroadcastsInDim S4x1 (![0] : Fin 1 → Fin S4x1.rank)
  inb_S4x256_S4x256_0_0 : ∀ a, (![0, 0] : Fin 2 → Nat) a + S4x256.size a ≤ S4x256.size a
  h_S4x256 : 0 < S4x256.numel
  reduces_S4x256_S4 : S4x256.Reduces [1] S4
  shapeCasts_S4_S4x1 : S4.ShapeCasts S4x1
  broadcasts_S4x1_S4x256 : S4x1.Broadcasts S4x256
  inb_S256_S256_0 : ∀ a, (![0] : Fin 1 → Nat) a + S256.size a ≤ S256.size a
  h_S256 : 0 < S256.numel
  shapeCasts_S256_S1x256 : S256.ShapeCasts S1x256
  broadcasts_S1x256_S4x256 : S1x256.Broadcasts S4x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S4x4096 : S1x4096.Broadcasts S4x4096
  inb_S4x1_S4x1_0_0 : ∀ a, (![0, 0] : Fin 2 → Nat) a + S4x1.size a ≤ S4x1.size a
  h_S4x1 : 0 < S4x1.numel
  shapeCasts_S4x1_S4x1 : S4x1.ShapeCasts S4x1
  broadcasts_S4x1_S4x4096 : S4x1.Broadcasts S4x4096
  inb_S4x4096_S4x4096_0_0 : ∀ a, (![0, 0] : Fin 2 → Nat) a + S4x4096.size a ≤ S4x4096.size a
  h_S4x4096 : 0 < S4x4096.numel
  numel1_S1 : S1.numel = 1
  iota_S256x1_d0_w32 : S256x1.Iotas .tc 32 [0]
  natLt_1_32 : 1 < 32
  h_S1x4096 : 0 < S1x4096.numel
  shapeCasts_S1x4096_S4096 : S1x4096.ShapeCasts S4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  broadcasts_S256x1_S256x4096 : S256x1.Broadcasts S256x4096
  broadcasts_S1x4096_S256x4096 : S1x4096.Broadcasts S256x4096
  shapeCasts_S256x4096_S1x256x4096 : S256x4096.ShapeCasts S1x256x4096
  dot_S4x256_S4096x256_S4x4096_1_1_0_0_n_n_wf : DotDims.WF S4x256 S4096x256 S4x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x256.size a ≤ S4x256.size a
  hwx0_0 : ∀ i : grid0.Coords, EltTy.bits .f32 = 32 ∨ (Rect.block (s := S4x256) S4x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .f32 = 32 ∨ (Rect.block (s := S4096x256) S4096x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1.size a ≤ S4x1.size a
  hwx0_5 : ∀ i : grid0.Coords, EltTy.bits .f32 = 32 ∨ (Rect.block (s := S4x1) S4x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x4096.size a ≤ S4x4096.size a
  hwx0_6 : ∀ i : grid0.Coords, EltTy.bits .f32 = 32 ∨ (Rect.block (s := S4x4096) S4x4096.size (cc0_transform_6 i) (hinb0_6 i)).WholeWords (EltTy.packing .f32)
  hrank1 : 0 < grid1.rank
  k1_off1_inb : ∀ i : grid1.Coords, ∀ a, (k1_off1 i) a + S1.size a ≤ S4.size a
  k1_off2_inb : ∀ i : grid1.Coords, ∀ a, (k1_off2 i) a + S1x4096.size a ≤ S4x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S4x4096x4096.size a
  hwx1_0 : ∀ i : grid1.Coords, EltTy.bits .f32 = 32 ∨ (Rect.block (s := S4x4096x4096) S1x256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4096.size a ≤ S4x4096.size a
  hwx1_1 : ∀ i : grid1.Coords, EltTy.bits .f32 = 32 ∨ (Rect.block (s := S4x4096) S4x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x4096.size a ≤ S4x4096x4096.size a
  hwx1_2 : ∀ i : grid1.Coords, EltTy.bits .f32 = 32 ∨ (Rect.block (s := S4x4096x4096) S1x256x4096.size (cc1_transform_2 i) (hinb1_2 i)).WholeWords (EltTy.packing .f32)

variable [Facts₀]

def dot_S4x256_S4096x256_S4x4096_1_1_0_0_n_n : DotDims S4x256 S4096x256 S4x4096 where
  lhsContracting := [1]
  rhsContracting := [1]
  lhsNonContracting := [0]
  rhsNonContracting := [0]
  lhsBatch := []
  rhsBatch := []
  wf := dot_S4x256_S4096x256_S4x4096_1_1_0_0_n_n_wf

abbrev win0_0 : Pipeline.Window sig grid0 :=
  Pipeline.Window.ofSpec (Memref.whole main_arg1) S4x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4x4096.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_arg0) S1x256x4096.size reads1_0 false false 2 stage1_0 sem1_0 nbuf1_0 hstage1_0

abbrev spec1_1 : Pipeline.WinSpec sig grid1.rank :=
  Pipeline.WinSpec.ofSpec (Memref.whole main_v15) S4x4096.size reads1_1 false true 1 stage1_1 sem1_1 nbuf1_1 hstage1_1

abbrev spec1_2 : Pipeline.WinSpec sig grid1.rank :=
  Pipeline.WinSpec.ofSpec (Memref.whole main_v16) S1x256x4096.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S4x4096x4096 : Shape := ⟨3, ![4, 4096, 4096]⟩
abbrev S4x256 : Shape := ⟨2, ![4, 256]⟩
abbrev S4x4096 : Shape := ⟨2, ![4, 4096]⟩
abbrev S256 : Shape := ⟨1, ![256]⟩
abbrev S4096x256 : Shape := ⟨2, ![4096, 256]⟩
abbrev S4096 : Shape := ⟨1, ![4096]⟩
abbrev S_ : Shape := ⟨0, ![]⟩
abbrev S4 : Shape := ⟨1, ![4]⟩
abbrev S4x1 : Shape := ⟨2, ![4, 1]⟩
abbrev S1x256 : Shape := ⟨2, ![1, 256]⟩
abbrev S1x4096 : Shape := ⟨2, ![1, 4096]⟩
abbrev S4x2 : Shape := ⟨2, ![4, 2]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x256, .f32⟩
  | .hbm, ⟨2, _⟩ => ⟨S4x4096, .i32⟩
  | .hbm, ⟨3, _⟩ => ⟨S4x4096, .i32⟩
  | .hbm, ⟨4, _⟩ => ⟨S256, .f32⟩
  | .hbm, ⟨5, _⟩ => ⟨S256, .f32⟩
  | .hbm, ⟨6, _⟩ => ⟨S4096x256, .f32⟩
  | .hbm, ⟨7, _⟩ => ⟨S4096, .f32⟩
  | .hbm, ⟨8, _⟩ => ⟨S_, .f32⟩
  | .hbm, ⟨9, _⟩ => ⟨S4, .f32⟩
  | .hbm, ⟨10, _⟩ => ⟨S4x1, .f32⟩
  | .hbm, ⟨11, _⟩ => ⟨S_, .f32⟩
  | .hbm, ⟨12, _⟩ => ⟨S4x1, .f32⟩
  | .hbm, ⟨13, _⟩ => ⟨S4x1, .f32⟩
  | .hbm, ⟨14, _⟩ => ⟨S4x256, .f32⟩
  | .hbm, ⟨15, _⟩ => ⟨S4x256, .f32⟩
  | .hbm, ⟨16, _⟩ => ⟨S4x256, .f32⟩
  | .hbm, ⟨17, _⟩ => ⟨S_, .f32⟩
  | .hbm, ⟨18, _⟩ => ⟨S4, .f32⟩
  | .hbm, ⟨19, _⟩ => ⟨S4x1, .f32⟩
  | .hbm, ⟨20, _⟩ => ⟨S_, .f32⟩
  | .hbm, ⟨21, _⟩ => ⟨S4x1, .f32⟩
  | .hbm, ⟨22, _⟩ => ⟨S4x1, .f32⟩
  | .hbm, ⟨23, _⟩ => ⟨S4x256, .f32⟩
  | .hbm, ⟨24, _⟩ => ⟨S4x256, .f32⟩
  | .hbm, ⟨25, _⟩ => ⟨S_, .f32⟩
  | .hbm, ⟨26, _⟩ => ⟨S4x1, .f32⟩
  | .hbm, ⟨27, _⟩ => ⟨S4x1, .f32⟩
  | .hbm, ⟨28, _⟩ => ⟨S4x1, .f32⟩
  | .hbm, ⟨29, _⟩ => ⟨S4x256, .f32⟩
  | .hbm, ⟨30, _⟩ => ⟨S4x256, .f32⟩
  | .hbm, ⟨31, _⟩ => ⟨S1x256, .f32⟩
  | .hbm, ⟨32, _⟩ => ⟨S4x256, .f32⟩
  | .hbm, ⟨33, _⟩ => ⟨S4x256, .f32⟩
  | .hbm, ⟨34, _⟩ => ⟨S1x256, .f32⟩
  | .hbm, ⟨35, _⟩ => ⟨S4x256, .f32⟩
  | .hbm, ⟨36, _⟩ => ⟨S4x256, .f32⟩
  | .hbm, ⟨37, _⟩ => ⟨S4x4096, .f32⟩
  | .hbm, ⟨38, _⟩ => ⟨S1x4096, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .f32⟩
  | .hbm, ⟨44, _⟩ => ⟨S_, .i1⟩
  | .hbm, ⟨45, _⟩ => ⟨S4, .i1⟩
  | .hbm, ⟨46, _⟩ => ⟨S_, .i32⟩
  | .hbm, ⟨47, _⟩ => ⟨S4x4096, .i32⟩
  | .hbm, ⟨48, _⟩ => ⟨S4x4096, .i1⟩
  | .hbm, ⟨49, _⟩ => ⟨S_, .i1⟩
  | .hbm, ⟨50, _⟩ => ⟨S4, .i1⟩
  | .hbm, ⟨51, _⟩ => ⟨S4, .i1⟩
  | .hbm, ⟨52, _⟩ => ⟨S_, .i32⟩
  | .hbm, ⟨53, _⟩ => ⟨S4x4096, .i32⟩
  | .hbm, ⟨54, _⟩ => ⟨S4x4096, .i1⟩
  | .hbm, ⟨55, _⟩ => ⟨S_, .i1⟩
  | .hbm, ⟨56, _⟩ => ⟨S4, .i1⟩
  | .hbm, ⟨57, _⟩ => ⟨S4, .i1⟩
  | .hbm, ⟨58, _⟩ => ⟨S_, .i32⟩
  | .hbm, ⟨59, _⟩ => ⟨S4, .i32⟩
  | .hbm, ⟨60, _⟩ => ⟨S_, .i32⟩
  | .hbm, ⟨61, _⟩ => ⟨S_, .i32⟩
  | .hbm, ⟨62, _⟩ => ⟨S4, .i32⟩
  | .hbm, ⟨63, _⟩ => ⟨S4, .i32⟩
  | .hbm, ⟨64, _⟩ => ⟨S_, .i32⟩
  | .hbm, ⟨65, _⟩ => ⟨S4, .i32⟩
  | .hbm, ⟨66, _⟩ => ⟨S4, .i32⟩
  | .hbm, ⟨67, _⟩ => ⟨S4, .i32⟩
  | .hbm, ⟨68, _⟩ => ⟨S4x1, .i1⟩
  | .hbm, ⟨69, _⟩ => ⟨S4x1, .f32⟩
  | .hbm, ⟨70, _⟩ => ⟨S4x4096, .f32⟩
  | .hbm, ⟨71, _⟩ => ⟨S4x4096, .f32⟩
  | .hbm, ⟨72, _⟩ => ⟨S_, .i32⟩
  | .hbm, ⟨73, _⟩ => ⟨S4, .i32⟩
  | .hbm, ⟨74, _⟩ => ⟨S4, .i1⟩
  | .hbm, ⟨75, _⟩ => ⟨S_, .i32⟩
  | .hbm, ⟨76, _⟩ => ⟨S4, .i32⟩
  | .hbm, ⟨77, _⟩ => ⟨S4, .i32⟩
  | .hbm, ⟨78, _⟩ => ⟨S4, .i32⟩
  | .hbm, ⟨79, _⟩ => ⟨S_, .i32⟩
  | .hbm, ⟨80, _⟩ => ⟨S4, .i32⟩
  | .hbm, ⟨81, _⟩ => ⟨S4, .i1⟩
  | .hbm, ⟨82, _⟩ => ⟨S_, .i32⟩
  | .hbm, ⟨83, _⟩ => ⟨S4, .i32⟩
  | .hbm, ⟨84, _⟩ => ⟨S4, .i32⟩
  | .hbm, ⟨85, _⟩ => ⟨S4, .i32⟩
  | .hbm, ⟨86, _⟩ => ⟨S4x1, .i32⟩
  | .hbm, ⟨87, _⟩ => ⟨S4x1, .i32⟩
  | .hbm, ⟨88, _⟩ => ⟨S4x2, .i32⟩
  | .hbm, ⟨89, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_c_10 : Ref sig .tc := ⟨.hbm, 60, rfl⟩
abbrev main_call0_v0 : Ref sig .tc := ⟨.hbm, 61, rfl⟩
abbrev main_call0_v1 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_c_15 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]

class Facts₀ : Prop where
  reducesTo_S4x256_S4_d1 : S4x256.ReducesTo [1] S4
  h_S_ : 0 < S_.numel
  bcast_S4_S4x1_0 : S4.BroadcastsInDim S4x1 (![0] : Fin 1 → Fin S4x1.rank)
  bcast_S_S4x1 : S_.BroadcastsInDim S4x1 (![] : Fin 0 → Fin S4x1.rank)
  bcast_S4x1_S4x256_0_1 : S4x1.BroadcastsInDim S4x256 (![0, 1] : Fin 2 → Fin S4x256.rank)
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S4096_S1x4096_1 : S4096.BroadcastsInDim S1x4096 (![1] : Fin 1 → Fin S1x4096.rank)
  bcast_S1x4096_S4x4096_0_1 : S1x4096.BroadcastsInDim S4x4096 (![0, 1] : Fin 2 → Fin S4x4096.rank)
  bcast_S_S4x4096 : S_.BroadcastsInDim S4x4096 (![] : Fin 0 → Fin S4x4096.rank)
  bcast_S_S4 : S_.BroadcastsInDim S4 (![] : Fin 0 → Fin S4.rank)
  reducesTo_S4x4096_S4_d1 : S4x4096.ReducesTo [1] S4
  bcast_S4x1_S4x4096_0_1 : S4x1.BroadcastsInDim S4x4096 (![0, 1] : Fin 2 → Fin S4x4096.rank)
  concatenates_S4x1_S4x1_S4x2_d1 : Shape.Concatenates [S4x1, S4x1] S4x2 1
  dot_S4x256_S4096x256_S4x4096_1_1_0_0_n_n_wf : DotDims.WF S4x256 S4096x256 S4x4096 [1] [1] [0] [0] [] []
  scatter_S4x4096x4096_S4x2_S4x4096_1_01_01_1_wf : ScatterDims.WF S4x4096x4096 S4x2 S4x4096 [1] [0, 1] [0, 1] 1

variable [Facts₀]

def dot_S4x256_S4096x256_S4x4096_1_1_0_0_n_n : DotDims S4x256 S4096x256 S4x4096 where
  lhsContracting := [1]
  rhsContracting := [1]
  lhsNonContracting := [0]
  rhsNonContracting := [0]
  lhsBatch := []
  rhsBatch := []
  wf := dot_S4x256_S4096x256_S4x4096_1_1_0_0_n_n_wf
def scatter_S4x4096x4096_S4x2_S4x4096_1_01_01_1 : ScatterDims S4x4096x4096 S4x2 S4x4096 where
  updateWindowDims := [1]
  insertedWindowDims := [0, 1]
  scatterDimsToOperandDims := [0, 1]
  indexVectorDim := 1
  wf := scatter_S4x4096x4096_S4x2_S4x4096_1_01_01_1_wf

class Facts : Prop extends Facts₀ where

variable [Facts]
-- ==== Proof.Kernel.Region0.lean ====
/-
  The first launch: layer norm of the feature rows, their projection through W plus the bias, times the
  trigger mask. One grid point; six windows fetched whole, one written back whole. Stated here at any float
  instance and at any contents V of the core's buffers when the launch is entered: each window's block at the
  point, what the body leaves in the written-back window's buffer as a function of the six input blocks (its one
  store, read back through the canonical form of a piece list), the body's run, the pipeline's proof data
  (the class of kernels whose invariant is only the scoped rest and the generator register) and the body obligation.
-/
import proofs.«402860_j88510686036004_2_alg».proof.Proof.Gen.Kernel.Launch
import proofs.«402860_j88510686036004_2_alg».proof.Proof.Gen.Kernel.Skeleton
import proofs.«402860_j88510686036004_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at the point -/

/-- Window `w`'s block at point `t`, read off its array as the launch finds it. -/
def lnBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A fetched window's current staging buffer holds its block at the point, whatever the proof data, as long as its
    array is `V`'s and the body leaves the block in place. -/
theorem lnBefore0_of {c : Dev nD} (dat : Dat τ (Elt F) Unit ℕ (UR sig nD τ) ℕ cfg0 c) (hA : dat.A 0 = V c (Pipeline.arrRef spec0 0))
    (hafter : ∀ t, dat.after 0 t = lnBlk V c 0 t) (t : Fin cfg0.N) (d) : dat.before 0 t d = lnBlk V c 0 t :=
  (dat.before_in_eq_fetched 0 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore1_of {c : Dev nD} (dat : Dat τ (Elt F) Unit ℕ (UR sig nD τ) ℕ cfg0 c) (hA : dat.A 1 = V c (Pipeline.arrRef spec0 1))
    (hafter : ∀ t, dat.after 1 t = lnBlk V c 1 t) (t : Fin cfg0.N) (d) : dat.before 1 t d = lnBlk V c 1 t :=
  (dat.before_in_eq_fetched 1 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore2_of {c : Dev nD} (dat : Dat τ (Elt F) Unit ℕ (UR sig nD τ) ℕ cfg0 c) (hA : dat.A 2 = V c (Pipeline.arrRef spec0 2))
    (hafter : ∀ t, dat.after 2 t = lnBlk V c 2 t) (t : Fin cfg0.N) (d) : dat.before 2 t d = lnBlk V c 2 t :=
  (dat.before_in_eq_fetched 2 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore3_of {c : Dev nD} (dat : Dat τ (Elt F) Unit ℕ (UR sig nD τ) ℕ cfg0 c) (hA : dat.A 3 = V c (Pipeline.arrRef spec0 3))
    (hafter : ∀ t, dat.after 3 t = lnBlk V c 3 t) (t : Fin cfg0.N) (d) : dat.before 3 t d = lnBlk V c 3 t :=
  (dat.before_in_eq_fetched 3 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore4_of {c : Dev nD} (dat : Dat τ (Elt F) Unit ℕ (UR sig nD τ) ℕ cfg0 c) (hA : dat.A 4 = V c (Pipeline.arrRef spec0 4))
    (hafter : ∀ t, dat.after 4 t = lnBlk V c 4 t) (t : Fin cfg0.N) (d) : dat.before 4 t d = lnBlk V c 4 t :=
  (dat.before_in_eq_fetched 4 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore5_of {c : Dev nD} (dat : Dat τ (Elt F) Unit ℕ (UR sig nD τ) ℕ cfg0 c) (hA : dat.A 5 = V c (Pipeline.arrRef spec0 5))
    (hafter : ∀ t, dat.after 5 t = lnBlk V c 5 t) (t : Fin cfg0.N) (d) : dat.before 5 t d = lnBlk V c 5 t :=
  (dat.before_in_eq_fetched 5 rfl (fun _ => rfl) (fun _ _ _ => rfl) (fun t => by rw [hafter]; unfold Dat.blockOf lnBlk; rw [hA]; try rfl) t d).trans
    (by unfold Dat.fetched Dat.blockOf lnBlk; rw [hA]; try rfl)

/-! ## The body's accesses: every load and the one store take a whole buffer -/

abbrev rFeat : Rect S4x256 := Rect.unit (s := S4x256) ![0, 0] S4x256.size inb_S4x256_S4x256_0_0
abbrev rVec : Rect S256 := Rect.unit (s := S256) ![0] S256.size inb_S256_S256_0
abbrev rW : Rect S4096x256 := Rect.unit (s := S4096x256) ![0, 0] S4096x256.size inb_S4096x256_S4096x256_0_0
abbrev rBias : Rect S4096 := Rect.unit (s := S4096) ![0] S4096.size inb_S4096_S4096_0
abbrev rMask : Rect S4x1 := Rect.unit (s := S4x1) ![0, 0] S4x1.size inb_S4x1_S4x1_0_0
abbrev rDelta : Rect S4x4096 := Rect.unit (s := S4x4096) ![0, 0] S4x4096.size inb_S4x4096_S4x4096_0_0

/-- What the body leaves in the written-back window's buffer, from the six input blocks: its one store as a piece. -/
def lnOut (x0 : Vec F S4x256 .f32) (x1 : Vec F S256 .f32) (x2 : Vec F S256 .f32) (x3 : Vec F S4096x256 .f32) (x4 : Vec F S4096 .f32)
    (x5 : Vec F S4x1 .f32) : Vec F S4x4096 .f32 :=
  View.canon [⟨rDelta, k0_pay1 (View.ld x0 rFeat) (View.ld x1 rVec) (View.ld x2 rVec) (View.ld x3 rW) (View.ld x4 rBias) (View.ld x5 rMask)⟩]

/-- The store takes the whole buffer, so it covers it. -/
theorem lnCover (p0 : Vec F S4x4096 .f32) (y : S4x4096.Idx) :
    ∃ pc ∈ ([⟨rDelta, p0⟩] : List (View.Piece (Elt F) S4x4096 .f32)), y ∈ pc.1.set :=
  View.cover_of_tiled [⟨rDelta, p0⟩] S4x4096.size (by rfl) y

/-! ## The body's run -/

set_option maxHeartbeats 1000000 in
/-- The body on whole staging memrefs, the inputs' at contents `x0 … x5` and the output's at anything, runs to the
    continuation with the inputs' as they were and the output's at `lnOut` of them. -/
theorem lnRun (c : Dev nD) (E : Set ℕ) (i : grid0.Coords)
    (arg1 : Memref sig .tc .vmem S4x256 .f32) (harg1 : arg1.IsWhole) (arg2 : Memref sig .tc .vmem S256 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096 .f32) (harg5 : arg5.IsWhole) (arg6 : Memref sig .tc .vmem S4x1 .f32) (harg6 : arg6.IsWhole)
    (arg7 : Memref sig .tc .vmem S4x4096 .f32) (harg7 : arg7.IsWhole)
    (x0 : Vec F S4x256 .f32) (x1 : Vec F S256 .f32) (x2 : Vec F S256 .f32) (x3 : Vec F S4096x256 .f32) (x4 : Vec F S4096 .f32)
    (x5 : Vec F S4x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (lnOut x0 x1 x2 x3 x4 x5)) -∗ K ⟨⟩))
      ⊢ wp frame (wpE (defs₀ (F := F)) Variants.none c none) E
          (cc0__ln_linear_kernel i arg1 harg1 arg2 harg2 arg3 harg3 arg4 harg4 arg5 harg5 arg6 harg6 arg7 harg7) K := by
  simp only [cc0__ln_linear_kernel_eq_skeleton]; unfold cc0__ln_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (lnCover _)

/-! ## The pipeline's proof data -/

/-- The first pipeline's proof data on core `c`: the arrays as the launch finds them; after the body each input's buffer
    at its block and the output's at `lnOut` of the input blocks; the invariant the scoped rest and the generator
    register, untouched; nothing owed; full shares. -/
def lnDat (c : Dev nD) : Dat τ (Elt F) Unit ℕ (UR sig nD τ) ℕ cfg0 c where
  A w := V c (Pipeline.arrRef spec0 w)
  after w t := match w with
    | ⟨0, _⟩ => lnBlk V c 0 t
    | ⟨1, _⟩ => lnBlk V c 1 t
    | ⟨2, _⟩ => lnBlk V c 2 t
    | ⟨3, _⟩ => lnBlk V c 3 t
    | ⟨4, _⟩ => lnBlk V c 4 t
    | ⟨5, _⟩ => lnBlk V c 5 t
    | ⟨6, _⟩ => lnOut (lnBlk V c 0 t) (lnBlk V c 1 t) (lnBlk V c 2 t) (lnBlk V c 3 t) (lnBlk V c 4 t) (lnBlk V c 5 t)
  Φ _ := Pipeline.ΦA spec0 c
  q _ := fullShare
  owed _ := 0

theorem lnA_eq (c : Dev nD) (w : Fin cfg0.W) : (lnDat V c).A w = V c (Pipeline.arrRef spec0 w) := by
  dsimp only [lnDat]

theorem lnAfter0 (c : Dev nD) (t : Fin cfg0.N) : (lnDat V c).after 0 t = lnBlk V c 0 t := by dsimp only [lnDat]
theorem lnAfter1 (c : Dev nD) (t : Fin cfg0.N) : (lnDat V c).after 1 t = lnBlk V c 1 t := by dsimp only [lnDat]
theorem lnAfter2 (c : Dev nD) (t : Fin cfg0.N) : (lnDat V c).after 2 t = lnBlk V c 2 t := by dsimp only [lnDat]
theorem lnAfter3 (c : Dev nD) (t : Fin cfg0.N) : (lnDat V c).after 3 t = lnBlk V c 3 t := by dsimp only [lnDat]
theorem lnAfter4 (c : Dev nD) (t : Fin cfg0.N) : (lnDat V c).after 4 t = lnBlk V c 4 t := by dsimp only [lnDat]
theorem lnAfter5 (c : Dev nD) (t : Fin cfg0.N) : (lnDat V c).after 5 t = lnBlk V c 5 t := by dsimp only [lnDat]
theorem lnAfter6 (c : Dev nD) (t : Fin cfg0.N) : (lnDat V c).after 6 t
    = lnOut (lnBlk V c 0 t) (lnBlk V c 1 t) (lnBlk V c 2 t) (lnBlk V c 3 t) (lnBlk V c 4 t) (lnBlk V c 5 t) := by dsimp only [lnDat]

theorem lnBefore0 (c : Dev nD) (t : Fin cfg0.N) (d) : (lnDat V c).before 0 t d = lnBlk V c 0 t :=
  lnBefore0_of V (lnDat V c) (lnA_eq V c 0) (lnAfter0 V c) t d
theorem lnBefore1 (c : Dev nD) (t : Fin cfg0.N) (d) : (lnDat V c).before 1 t d = lnBlk V c 1 t :=
  lnBefore1_of V (lnDat V c) (lnA_eq V c 1) (lnAfter1 V c) t d
theorem lnBefore2 (c : Dev nD) (t : Fin cfg0.N) (d) : (lnDat V c).before 2 t d = lnBlk V c 2 t :=
  lnBefore2_of V (lnDat V c) (lnA_eq V c 2) (lnAfter2 V c) t d
theorem lnBefore3 (c : Dev nD) (t : Fin cfg0.N) (d) : (lnDat V c).before 3 t d = lnBlk V c 3 t :=
  lnBefore3_of V (lnDat V c) (lnA_eq V c 3) (lnAfter3 V c) t d
theorem lnBefore4 (c : Dev nD) (t : Fin cfg0.N) (d) : (lnDat V c).before 4 t d = lnBlk V c 4 t :=
  lnBefore4_of V (lnDat V c) (lnA_eq V c 4) (lnAfter4 V c) t d
theorem lnBefore5 (c : Dev nD) (t : Fin cfg0.N) (d) : (lnDat V c).before 5 t d = lnBlk V c 5 t :=
  lnBefore5_of V (lnDat V c) (lnA_eq V c 5) (lnAfter5 V c) t d

/-! ## The body obligation -/

/-- What the body is called with at point `t`, the windows one by one, -/
def lnPre (c : Dev nD) (t : Fin cfg0.N) : sProp 𝕄 :=
  iprop((lnDat V c).Φ t.castSucc ∗ (lnDat V c).owesAt () t.castSucc
    ∗ (∃ d, owns (c : Thread nD τ) (st0_0 t) fullShare ((lnDat V c).before 0 t d))
    ∗ (∃ d, owns (c : Thread nD τ) (st0_1 t) fullShare ((lnDat V c).before 1 t d))
    ∗ (∃ d, owns (c : Thread nD τ) (st0_2 t) fullShare ((lnDat V c).before 2 t d))
    ∗ (∃ d, owns (c : Thread nD τ) (st0_3 t) fullShare ((lnDat V c).before 3 t d))
    ∗ (∃ d, owns (c : Thread nD τ) (st0_4 t) fullShare ((lnDat V c).before 4 t d))
    ∗ (∃ d, owns (c : Thread nD τ) (st0_5 t) fullShare ((lnDat V c).before 5 t d))
    ∗ (∃ d, owns (c : Thread nD τ) (st0_6 t) fullShare ((lnDat V c).before 6 t d)))

/-- and what it returns. -/
def lnPost (c : Dev nD) (t : Fin cfg0.N) : sProp 𝕄 :=
  iprop((lnDat V c).Φ t.succ ∗ (lnDat V c).owesAt () t.succ
    ∗ owns (c : Thread nD τ) (st0_0 t) fullShare ((lnDat V c).after 0 t)
    ∗ owns (c : Thread nD τ) (st0_1 t) fullShare ((lnDat V c).after 1 t)
    ∗ owns (c : Thread nD τ) (st0_2 t) fullShare ((lnDat V c).after 2 t)
    ∗ owns (c : Thread nD τ) (st0_3 t) fullShare ((lnDat V c).after 3 t)
    ∗ owns (c : Thread nD τ) (st0_4 t) fullShare ((lnDat V c).after 4 t)
    ∗ owns (c : Thread nD τ) (st0_5 t) fullShare ((lnDat V c).after 5 t)
    ∗ owns (c : Thread nD τ) (st0_6 t) fullShare ((lnDat V c).after 6 t))

theorem lnSound (c : Dev nD) (t : Fin cfg0.N) :
    lnPre V c t ⊢ wp frame (wpE (defs₀ (F := F)) Variants.none c none) Set.univ (bodyAt0 t) (fun _ => lnPost V c t) := by
  unfold lnPre lnPost bodyAt0
  simp only [lnBefore0, lnBefore1, lnBefore2, lnBefore3, lnBefore4, lnBefore5]
  rw [show (lnDat V c).Φ t.succ = (lnDat V c).Φ t.castSucc from rfl,
    show (lnDat V c).owesAt () t.succ = (lnDat V c).owesAt () t.castSucc from rfl,
    lnAfter0, lnAfter1, lnAfter2, lnAfter3, lnAfter4, lnAfter5, lnAfter6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (lnRun c Set.univ _ _ _ _ _ _ _ _ _ _ _ _ _ _ _ (lnBlk V c 0 t) (lnBlk V c 1 t) (lnBlk V c 2 t) (lnBlk V c 3 t) (lnBlk V c 4 t) (lnBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem lnObligation (c : Dev nD) : BodyObligation (lnDat (F := F) V c) (defs₀ (F := F)) Variants.none () Set.univ := fun t => by
  rw [bigSep_W0, bigSep_W0]
  exact lnSound V c t

end Cert.Kernel.Graft

end
-- ==== Proof.Kernel.Region1.lean ====
/-
  The second launch: a tiled copy of x into the result that adds row b of the first launch's output into the one
  row of batch b named by the prefetched word last[b], where the tile holds that row. Grid 4 by 16; a window on x
  and one on the result move with the point (two staging buffers each), the first launch's output is fetched
  whole; the table of last words is read by the body from scalar memory. Stated at any float instance, at any
  contents V of the core's buffers at entry and at any admissible contents of the table: the staging memrefs and
  the body at a point, each window's block, what the body leaves in the result window's buffer (its one store),
  the body's run, the proof data (invariant: the scoped rest, the generator register and the table, whole) and
  the body obligation.
-/
import proofs.«402860_j88510686036004_2_alg».proof.Proof.Gen.Kernel.Launch
import proofs.«402860_j88510686036004_2_alg».proof.Proof.Gen.Kernel.Skeleton
import proofs.«402860_j88510686036004_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The staging memrefs and the body at a point -/

abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The table of last words as the body is handed it: its whole buffer as a memref. -/
abbrev tbM : Memref sig .tc .smem S4 .i32 := Memref.whole main_v14
abbrev htbM : tbM.IsWhole := Memref.isWhole_whole _

/-- The body at point `t`, on what the pipeline calls it with. -/
abbrev bodyAt1 (t : Fin (cfg1 a).N) : Prog (TpuEff nD τ sig (Elt F) Λ₀ .tc) PUnit :=
  cc1__scatter_kernel (grid1.coords t) tbM htbM (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The table's buffer on core `c`: its contents type, and the buffer held whole at `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- The table held whole is that one buffer. -/
theorem prefHeld_eq (c : Dev nD) (pf : pre1.Contents (Elt F)) :
    (Pipeline.prefHeld pre1 c (fun _ => fullShare) pf : sProp 𝕄) = tbPt c (pf 0) := by
  unfold Pipeline.prefHeld
  rw [show (Finset.univ : Finset (Fin 1)) = {(0 : Fin 1)} from by decide, bigSep_singleton]
  rfl

/-! ## The windows' blocks -/

def scBlk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem scBefore0_of {c : Dev nD} (dat : Dat τ (Elt F) Unit ℕ (UR sig nD τ) ℕ (cfg1 a) c) (hA : dat.A 0 = V c (Pipeline.arrRef spec1 0))
    (hafter : ∀ t, dat.after 0 t = scBlk V a c 0 t) (t : Fin (cfg1 a).N) (d) : dat.before 0 t d = scBlk V a c 0 t :=
  (dat.before_in_eq_fetched 0 rfl (fun _ => rfl) (fun _ _ _ => rfl) (fun t => by rw [hafter]; unfold Dat.blockOf scBlk; rw [hA]; try rfl) t d).trans
    (by unfold Dat.fetched Dat.blockOf scBlk; rw [hA]; try rfl)

theorem scBefore1_of {c : Dev nD} (dat : Dat τ (Elt F) Unit ℕ (UR sig nD τ) ℕ (cfg1 a) c) (hA : dat.A 1 = V c (Pipeline.arrRef spec1 1))
    (hafter : ∀ t, dat.after 1 t = scBlk V a c 1 t) (t : Fin (cfg1 a).N) (d) : dat.before 1 t d = scBlk V a c 1 t :=
  (dat.before_in_eq_fetched 1 rfl (fun _ => rfl) (fun _ _ _ => rfl) (fun t => by rw [hafter]; unfold Dat.blockOf scBlk; rw [hA]; try rfl) t d).trans
    (by unfold Dat.fetched Dat.blockOf scBlk; rw [hA]; try rfl)

/-! ## The body's accesses and what it leaves -/

abbrev rTile : Rect S1x256x4096 := Rect.unit (s := S1x256x4096) ![0, 0, 0] S1x256x4096.size inb_S1x256x4096_S1x256x4096_0_0_0
/-- Row `b` of the first launch's output, `b` the point's batch coordinate. -/
abbrev rRow (i : grid1.Coords) : Rect S4x4096 := Rect.unit (s := S4x4096) (k1_off2 i) S1x4096.size (k1_off2_inb i)

/-- The word last[b] as the body loads it from the table at contents `xt`. -/
def lastWord (i : grid1.Coords) (c : Dev nD) (xt : TbBuf (F := F) c) : Elt F .i32 :=
  tbM.view.readAt (Elt F) (Rect.unit (s := S4) (k1_off1 i) S1.size (k1_off1_inb i)).toLoadRect xt (Shape.Idx.first (numel1_S1.symm ▸ Nat.one_pos))

/-- What the body leaves in the result window's buffer at grid coordinates `i`, from the table and the two input blocks. -/
def scOut (i : grid1.Coords) (c : Dev nD) (xt : TbBuf (F := F) c) (x0 : Vec F S1x256x4096 .f32) (x1 : Vec F S4x4096 .f32) : Vec F S1x256x4096 .f32 :=
  View.canon [⟨rTile, k1_pay1 i (lastWord i c xt) (View.ld x1 (rRow i)) (View.ld x0 rTile)⟩]

theorem scCover (p0 : Vec F S1x256x4096 .f32) (y : S1x256x4096.Idx) :
    ∃ pc ∈ ([⟨rTile, p0⟩] : List (View.Piece (Elt F) S1x256x4096 .f32)), y ∈ pc.1.set :=
  View.cover_of_tiled [⟨rTile, p0⟩] S1x256x4096.size (by rfl) y

/-! ## The body's run -/

set_option maxHeartbeats 1000000 in
theorem scRun (c : Dev nD) (E : Set ℕ) (i : grid1.Coords)
    (arg3 : Memref sig .tc .vmem S1x256x4096 .f32) (harg3 : arg3.IsWhole) (arg4 : Memref sig .tc .vmem S4x4096 .f32) (harg4 : arg4.IsWhole)
    (arg5 : Memref sig .tc .vmem S1x256x4096 .f32) (harg5 : arg5.IsWhole)
    (xt : TbBuf (F := F) c) (x0 : Vec F S1x256x4096 .f32) (x1 : Vec F S4x4096 .f32) (K : PUnit → sProp 𝕄) :
    iprop(owns (c : Thread nD τ) arg3 fullShare x0 ∗ owns (c : Thread nD τ) arg4 fullShare x1 ∗ (∃ d, owns (c : Thread nD τ) arg5 fullShare d)
        ∗ tbPt c xt
        ∗ (iprop(owns (c : Thread nD τ) arg3 fullShare x0 ∗ owns (c : Thread nD τ) arg4 fullShare x1
            ∗ owns (c : Thread nD τ) arg5 fullShare (scOut i c xt x0 x1) ∗ tbPt c xt) -∗ K ⟨⟩))
      ⊢ wp frame (wpE (defs₀ (F := F)) Variants.none c none) E (cc1__scatter_kernel i tbM htbM arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, HT, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (scCover _)
  iexact HT

/-! ## The pipeline's proof data -/

def scDat (c : Dev nD) : Dat τ (Elt F) Unit ℕ (UR sig nD τ) ℕ (cfg1 a) c where
  A w := V c (Pipeline.arrRef spec1 w)
  after w t := match w with
    | ⟨0, _⟩ => scBlk V a c 0 t
    | ⟨1, _⟩ => scBlk V a c 1 t
    | ⟨2, _⟩ => scOut (grid1.coords t) c (a.1 0) (scBlk V a c 0 t) (scBlk V a c 1 t)
  Φ _ := iprop(Pipeline.ΦA spec1 c ∗ Pipeline.prefHeld pre1 c (fun _ => fullShare) a.1)
  q _ := fullShare
  owed _ := 0

theorem scA_eq (c : Dev nD) (w : Fin (cfg1 a).W) : (scDat V a c).A w = V c (Pipeline.arrRef spec1 w) := by
  dsimp only [scDat]

theorem scAfter0 (c : Dev nD) (t : Fin (cfg1 a).N) : (scDat V a c).after 0 t = scBlk V a c 0 t := by dsimp only [scDat]; try rfl
theorem scAfter1 (c : Dev nD) (t : Fin (cfg1 a).N) : (scDat V a c).after 1 t = scBlk V a c 1 t := by dsimp only [scDat]; try rfl
theorem scAfter2 (c : Dev nD) (t : Fin (cfg1 a).N) : (scDat V a c).after 2 t
    = scOut (grid1.coords t) c (a.1 0) (scBlk V a c 0 t) (scBlk V a c 1 t) := by dsimp only [scDat]; try rfl

theorem scBefore0 (c : Dev nD) (t : Fin (cfg1 a).N) (d) : (scDat V a c).before 0 t d = scBlk V a c 0 t :=
  scBefore0_of V a (scDat V a c) (scA_eq V a c 0) (scAfter0 V a c) t d
theorem scBefore1 (c : Dev nD) (t : Fin (cfg1 a).N) (d) : (scDat V a c).before 1 t d = scBlk V a c 1 t :=
  scBefore1_of V a (scDat V a c) (scA_eq V a c 1) (scAfter1 V a c) t d

/-! ## The body obligation -/

def scPre (c : Dev nD) (t : Fin (cfg1 a).N) : sProp 𝕄 :=
  iprop((scDat V a c).Φ t.castSucc ∗ (scDat V a c).owesAt () t.castSucc
    ∗ (∃ d, owns (c : Thread nD τ) (st1_0 a t) fullShare ((scDat V a c).before 0 t d))
    ∗ (∃ d, owns (c : Thread nD τ) (st1_1 a t) fullShare ((scDat V a c).before 1 t d))
    ∗ (∃ d, owns (c : Thread nD τ) (st1_2 a t) fullShare ((scDat V a c).before 2 t d)))

def scPost (c : Dev nD) (t : Fin (cfg1 a).N) : sProp 𝕄 :=
  iprop((scDat V a c).Φ t.succ ∗ (scDat V a c).owesAt () t.succ
    ∗ owns (c : Thread nD τ) (st1_0 a t) fullShare ((scDat V a c).after 0 t)
    ∗ owns (c : Thread nD τ) (st1_1 a t) fullShare ((scDat V a c).after 1 t)
    ∗ owns (c : Thread nD τ) (st1_2 a t) fullShare ((scDat V a c).after 2 t))

theorem scSound (c : Dev nD) (t : Fin (cfg1 a).N) :
    scPre V a c t ⊢ wp frame (wpE (defs₀ (F := F)) Variants.none c none) Set.univ (bodyAt1 a t) (fun _ => scPost V a c t) := by
  unfold scPre scPost bodyAt1
  simp only [scBefore0, scBefore1]
  rw [show (scDat V a c).Φ t.succ = (scDat V a c).Φ t.castSucc from rfl,
    show (scDat V a c).owesAt () t.succ = (scDat V a c).owesAt () t.castSucc from rfl,
    scAfter0, scAfter1, scAfter2]
  rw [show (scDat V a c).Φ t.castSucc = iprop(Pipeline.ΦA spec1 c ∗ Pipeline.prefHeld pre1 c (fun _ => fullShare) a.1) from rfl, prefHeld_eq]
  iintro ⟨⟨HΦ, HT⟩, Ho, ⟨%d0, H0⟩, ⟨%d1, H1⟩, ⟨%d2, H2⟩⟩
  iapply (scRun c Set.univ (grid1.coords t) _ _ _ _ _ _ (a.1 0) (scBlk V a c 0 t) (scBlk V a c 1 t) _)
  isplitl [H0]; · iexact H0
  isplitl [H1]; · iexact H1
  isplitl [H2]; · iexists _; iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

theorem scObligation (c : Dev nD) : BodyObligation (scDat (F := F) V a c) (defs₀ (F := F)) Variants.none () Set.univ := fun t => by
  rw [bigSep_W1, bigSep_W1]
  exact scSound V a c t

end Cert.Kernel.Graft

end
-- ==== Proof.Kernel.Run.lean ====
/-
  The whole program's frame, at any float instance: both launches as segments of @main between the host stretches.
  The buffer contents at each boundary are the host stretches' results, then what each launch writes back: the first
  launch's output array at what its pipeline leaves (one block, the whole array), the second's likewise (64 tiles).
  The table of last words is read off the buffers as the second launch finds them; the first launch does not touch it.
  Each launch is entered from "every unscoped buffer at the boundary's contents, the generator register at some state,
  nothing owed" and left in the same form; its arrays are split out of the unscoped buffers at entry and put back at
  exit, and for the second launch the table is split out too, kept whole in the invariant for the body to read, and
  put back.
-/
import proofs.«402860_j88510686036004_2_alg».proof.Proof.Kernel.Region0
import proofs.«402860_j88510686036004_2_alg».proof.Proof.Kernel.Region1
import proofs.«402860_j88510686036004_2_alg».proof.Proof.Gen.Kernel.Regions

set_option maxRecDepth 16384

noncomputable section

namespace Cert.Kernel.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at the launches' boundaries -/

/-- The core's buffers when the first launch is entered: after the host stretches. -/
abbrev U3 : (c : Dev nD) → (b : Ref sig .tc) → Buf (Elt F) ((c : Thread nD τ).loc b) := fun c b => Gen.V3 m c b

/-- After the first launch: its arrays at what its pipeline leaves, every other buffer as entered. -/
def W4 (c : Dev nD) : Valuation τ sig (Elt F) :=
  Pipeline.withArrays spec0 c (Gen.V3 m c) fun w => (lnDat (U3 m) c).arrAt w cfg0.N

/-- The contents the first launch leaves, as the generated boundary valuations read them. -/
def outs4 : Gen.Outs (F := F) := fun _ r c => W4 m c r

/-- The core's buffers when the second launch is entered. -/
abbrev U4 : (c : Dev nD) → (b : Ref sig .tc) → Buf (Elt F) ((c : Thread nD τ).loc b) := fun c b => Gen.V4 m (outs4 m) c b

/-- The table of last words, read off the buffers as the second launch finds them (one device: device 0's). -/
def tbl : pre1.Contents (Elt F) := fun j => U4 m (0 : Dev nD) (pre1.ref j)
theorem U4_pre (c : Dev nD) (j : Fin 1) : U4 m c (pre1.ref j) = tbl m j := by
  obtain rfl : c = 0 := Subsingleton.elim _ _; rfl

/-- No index map reads the table, so every contents of it is admissible. -/
abbrev adm1 : (pcfg1 (F := F)).Adm := ⟨tbl m, trivial⟩

abbrev adm : (p : Fin 2) → (pcfgs (F := F) p).Adm
  | ⟨0, _⟩ => cfg0.toPCfg_adm
  | ⟨1, _⟩ => adm1 m

/-- After the second launch: its arrays at what its pipeline leaves, every other buffer as entered. -/
def W5 (c : Dev nD) : Valuation τ sig (Elt F) :=
  Pipeline.withArrays spec1 c (Gen.V4 m (outs4 m) c) fun w => (scDat (U4 m) (adm1 m) c).arrAt w (cfg1 (adm1 m)).N

/-- What the two launches leave: the first's contents at its boundary, the second's after it. -/
def outs : Gen.Outs (F := F) := fun J r c => if J ≤ 4 then W4 m c r else W5 m c r

theorem V4_outs (c : Dev nD) : Gen.V4 m (outs m) c = Gen.V4 m (outs4 m) c := rfl

/-- Every pipeline's proof data, each at its launch's entry contents. -/
def pdats : (p : Fin 2) → (c : Dev nD) → Dat τ (Elt F) Unit ℕ (UR sig nD τ) ℕ (Pipeline.pin (pcfgs (F := F)) (adm m) p) c
  | ⟨0, _⟩ => fun c => lnDat (U3 m) c
  | ⟨1, _⟩ => fun c => scDat (U4 m) (adm1 m) c

abbrev 𝒱₀ : Variants := Variants.none
abbrev Lq : GSem nD τ sig → Finset Unit := fun _ => ∅
abbrev lq : GSem nD τ sig → Unit → ℕ := fun _ _ => 0

/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-! ## What the first launch leaves, array by array -/

theorem W4_arr (c : Dev nD) (w : Fin cfg0.W) :
    W4 m c (Proc.devRef .tc (Pipeline.arrRef spec0 w)) = (lnDat (U3 m) c).arrAt w cfg0.N := by
  unfold W4; exact Pipeline.withArrays_arr spec0 winFacts0.arr_inj c _ _ w

theorem V4_v15 (c : Dev nD) : Gen.V4 m (outs4 m) c main_v15 = (lnDat (U3 m) c).arrAt 6 cfg0.N := by
  show Function.update (Gen.V3 m c) main_v15 (outs4 m 4 main_v15 c) main_v15 = _
  rw [Function.update_self]; exact W4_arr m c 6

theorem lnF (c : Dev nD) (w : Fin cfg0.W) : (lnDat (U3 m) c).arrAt w cfg0.N = U4 m c (Pipeline.arrRef spec0 w) := by
  match w with
  | ⟨0, _⟩ => exact (((lnDat (U3 m) c).arrAt_in 0 rfl _).trans (lnA_eq (U3 m) c 0)).trans (Gen.V4_of m (outs4 m) c main_arg1 (by decide)).symm
  | ⟨1, _⟩ => exact (((lnDat (U3 m) c).arrAt_in 1 rfl _).trans (lnA_eq (U3 m) c 1)).trans (Gen.V4_of m (outs4 m) c main_arg4 (by decide)).symm
  | ⟨2, _⟩ => exact (((lnDat (U3 m) c).arrAt_in 2 rfl _).trans (lnA_eq (U3 m) c 2)).trans (Gen.V4_of m (outs4 m) c main_arg5 (by decide)).symm
  | ⟨3, _⟩ => exact (((lnDat (U3 m) c).arrAt_in 3 rfl _).trans (lnA_eq (U3 m) c 3)).trans (Gen.V4_of m (outs4 m) c main_arg6 (by decide)).symm
  | ⟨4, _⟩ => exact (((lnDat (U3 m) c).arrAt_in 4 rfl _).trans (lnA_eq (U3 m) c 4)).trans (Gen.V4_of m (outs4 m) c main_arg7 (by decide)).symm
  | ⟨5, _⟩ => exact (((lnDat (U3 m) c).arrAt_in 5 rfl _).trans (lnA_eq (U3 m) c 5)).trans (Gen.V4_of m (outs4 m) c main_v10 (by decide)).symm
  | ⟨6, _⟩ => exact (V4_v15 m c).symm

theorem lnRest (c : Dev nD) : ∀ b, b ∉ Finset.univ.image (Pipeline.arrRef spec0) → U4 m c b = U3 m c b :=
  fun b hb => Gen.V4_of m (outs4 m) c b (by
    intro h
    rw [List.mem_singleton] at h
    exact hb (Finset.mem_image.mpr ⟨6, Finset.mem_univ _, h.symm⟩))

/-! ## What the second launch leaves -/

/-- The core's buffers after the second launch, as the generated last valuation reads them. -/
abbrev U5 : (c : Dev nD) → (b : Ref sig .tc) → Buf (Elt F) ((c : Thread nD τ).loc b) := fun c b => Gen.V5 m (outs m) c b

theorem W5_arr (c : Dev nD) (w : Fin (cfg1 (adm1 m)).W) :
    W5 m c (Proc.devRef .tc (Pipeline.arrRef spec1 w)) = (scDat (U4 m) (adm1 m) c).arrAt w (cfg1 (adm1 m)).N := by
  unfold W5; exact Pipeline.withArrays_arr spec1 winFacts1.arr_inj c _ _ w

theorem V5_v16 (c : Dev nD) : Gen.V5 m (outs m) c main_v16 = (scDat (U4 m) (adm1 m) c).arrAt 2 (cfg1 (adm1 m)).N := by
  show Function.update (Gen.V4 m (outs m) c) main_v16 (outs m 5 main_v16 c) main_v16 = _
  rw [Function.update_self]; exact W5_arr m c 2

theorem scF (c : Dev nD) (w : Fin (cfg1 (adm1 m)).W) : (scDat (U4 m) (adm1 m) c).arrAt w (cfg1 (adm1 m)).N = U5 m c (Pipeline.arrRef spec1 w) := by
  match w with
  | ⟨0, _⟩ => exact (((scDat (U4 m) (adm1 m) c).arrAt_in 0 rfl _).trans (scA_eq (U4 m) (adm1 m) c 0)).trans (Gen.V5_of m (outs m) c main_arg0 (by decide)).symm
  | ⟨1, _⟩ => exact (((scDat (U4 m) (adm1 m) c).arrAt_in 1 rfl _).trans (scA_eq (U4 m) (adm1 m) c 1)).trans (Gen.V5_of m (outs m) c main_v15 (by decide)).symm
  | ⟨2, _⟩ => exact (V5_v16 m c).symm

theorem scRest (c : Dev nD) : ∀ b, b ∉ Finset.univ.image (Pipeline.arrRef spec1) → U5 m c b = U4 m c b :=
  fun b hb => Gen.V5_of m (outs m) c b (by
    intro h
    rw [List.mem_singleton] at h
    exact hb (Finset.mem_image.mpr ⟨2, Finset.mem_univ _, h.symm⟩))

/-- The unscoped buffers that are no array of the second launch: the table, whole at its contents, and the rest. -/
theorem scRest_split (c : Dev nD) :
    (Pipeline.unscopedRest (Ix := Unit) (Name := ℕ) (U := UR sig nD τ) (Lvl := ℕ) spec1 c (U4 m c) : sProp 𝕄)
      = iprop(Pipeline.prefHeld pre1 c (fun _ => fullShare) (tbl m) ∗ Pipeline.unscopedRestP pre1 spec1 c (U4 m c)) := by
  rw [Pipeline.unscopedRest_split preFacts1, show (fun k => U4 m c (pre1.ref k)) = tbl m from funext fun k => U4_pre m c k]

/-! ## The launches as segments -/

set_option backward.isDefEq.respectTransparency.types false in
/-- The first launch over the thread state: entered from every unscoped buffer at the host stretches' results, left with
    its output array at what the pipeline leaves. -/
def lnSeg : Pipeline.RegionSeg (pcfgs (F := F)) (adm m) (pdats m) () defs₀ 𝒱₀ Lq lq 0 where
  win := winFacts0.to₀
  block_pos := block_pos0
  stage_whole := stage_whole0
  K := PEmpty
  osem k := k.elim
  ho := Pipeline.OwnSemFacts.none _
  hbody c := (lnObligation (U3 m) c).loose
  hwaits := Pipeline.hwaits_of_owed_zero _ _ _ _ Lq lq 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) (adm m) (pdats m) winFacts0 arr_whole0 c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      winFacts0 arr_whole0 c (pdats m) ((pdats m 0 c).share_full fun _ => rfl)
      (U3 m c) (U4 m c) ((pdats m 0 c).arrAt · cfg0.N) (lnF m c) (lnRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: its arrays and the table split out of the unscoped buffers at entry, the
    table whole in the invariant, both put back at exit with the result array at what the pipeline leaves. -/
def scSeg : Pipeline.RegionSeg (pcfgs (F := F)) (adm m) (pdats m) () defs₀ 𝒱₀ Lq lq 1 where
  win := winFacts1.to₀
  block_pos := block_pos1
  stage_whole := stage_whole1
  K := PEmpty
  osem k := k.elim
  ho := Pipeline.OwnSemFacts.none _
  hbody c := (scObligation (U4 m) (adm1 m) c).loose
  hwaits := Pipeline.hwaits_of_owed_zero _ _ _ _ Lq lq 1 fun _ _ => rfl
  pre c := iprop(StableHlo.held (c : Thread nD τ) (Pipeline.ucRefs τ sig) (Gen.V4 m (outs m) c) ∗ Rst c)
  post c := iprop(StableHlo.held (c : Thread nD τ) (Pipeline.ucRefs τ sig) (Gen.V5 m (outs m) c) ∗ Rst c)
  X c := iprop(∃ r, prngReg c r)
  Y c := iprop((∃ r, prngReg c r) ∗ Pipeline.prefHeld pre1 c (fun _ => fullShare) (tbl m))
  Z c := Pipeline.unscopedRestP (Ix := Unit) (Name := ℕ) (U := UR sig nD τ) (Lvl := ℕ) pre1 spec1 c (U4 m c)
  hentry c := by
    rw [Pipeline.ownSems0_none, V4_outs m c]
    have hsplit := Pipeline.arrays_of_unscopedBufs (p := 1) (pcfgs (F := F)) (adm m) (pdats m) winFacts1 arr_whole1 c
      ((pdats m 1 c).share_full fun _ => rfl) (U4 m c) fun _ => rfl
    rw [Pipeline.unscopedBufs_held] at hsplit
    replace hsplit : (StableHlo.held (c : Thread nD τ) (Pipeline.ucRefs τ sig) (Gen.V4 m (outs4 m) c) : sProp 𝕄)
        ⊢ iprop((pdats m 1 c).arrays ((pdats m 1 c).arrAt · 0) ∗ Pipeline.unscopedRest spec1 c (U4 m c)) := hsplit
    rw [scRest_split] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld pre1 c (fun _ => fullShare) (tbl m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m 1 c).Φ (Fin.last _) = iprop(Pipeline.ΦA spec1 c ∗ Pipeline.prefHeld pre1 c (fun _ => fullShare) (tbl m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin := Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (U4 m c) (U5 m c) ((pdats m 1 c).arrAt · (cfg1 (adm1 m)).N) (scF m c) (scRest m c)
    rw [Pipeline.unscopedBufs_held] at hjoin
    replace hjoin : (iprop((pdats m 1 c).arrays ((pdats m 1 c).arrAt · (cfg1 (adm1 m)).N) ∗ Pipeline.unscopedRest spec1 c (U4 m c)) : sProp 𝕄)
        ⊢ StableHlo.held (c : Thread nD τ) (Pipeline.ucRefs τ sig) (Gen.V5 m (outs m) c) := hjoin
    rw [scRest_split] at hjoin
    iintro ⟨Ha, HO, ⟨Hp, Htb⟩, Hrest⟩
    imodintro
    isplitl [Ha Hrest Htb]
    · iapply hjoin
      isplitl [Ha]; · iexact Ha
      isplitl [Htb]; · iexact Htb
      iexact Hrest
    isplitl [Hp]; · iexact Hp
    unfold Pipeline.Dat.owesAt Pipeline.owesWithin
    icases HO with ⟨%W, -, HO⟩; iexists W; iexact HO

/-! ## The frame -/

variable (ρ : Dev nD → PrngReg)

/-- The launch: the library's ghost state for both pipelines' staging cells, nothing else. -/
theorem launch_ghost :
    (ownU (initOf (Pipeline.cells (Pipeline.pin (pcfgs (F := F)) (adm m)) (cellOf_inj (adm m))) (Pipeline.launchToks (Pipeline.pin (pcfgs (F := F)) (adm m)) (cellOf_inj (adm m)))) : sProp 𝕄)
      ⊢ |={Set.univ}=> iprop(BI.own (emb₁ (initOf (Pipeline.cells (Pipeline.pin (pcfgs (F := F)) (adm m)) (cellOf_inj (adm m))) (Pipeline.launchToks (Pipeline.pin (pcfgs (F := F)) (adm m)) (cellOf_inj (adm m)))))
          ∗ bigSep Finset.univ fun _ : Dev nD => (BI.emp : sProp 𝕄)) := by
  iintro Hu; imodintro
  isplitl [Hu]
  · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
        ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
    iexact Hu
  iapply (show (BI.emp : sProp 𝕄) ⊢ bigSep Finset.univ (fun _ : Dev nD => (BI.emp : sProp 𝕄)) from by rw [BI.bigSep_emp_const])
  iempintro

/-- The rest state from what the launch deals each core. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lq lq)
      ⊢ (|={Set.univ}=> bigSep Finset.univ (fun c : Dev nD => Rst (F := F) c) : sProp 𝕄) := by
  refine Pipeline.initEach Lq lq fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of @main terminates, nothing faulting,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱₀ Lq lq (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))))
    (launch_ghost m) (fun _ c => Rst c) (launch_rest ρ)
    (fun c => by iintro ⟨-, HO⟩; iexact HO)
    (lnSeg m) (fun _ => .rfl) (fun _ => .rfl) (scSeg m) (fun _ => .rfl) (fun _ => .rfl)

end Cert.Kernel.Graft

end
-- ==== Proof.KernelIdeal.Region0.lean ====
/-
  The first launch: layer norm of the feature rows, their projection through W plus the bias, times the
  trigger mask. One grid point; six windows fetched whole, one written back whole. Stated here at any float
  instance and at any contents V of the core's buffers when the launch is entered: each window's block at the
  point, what the body leaves in the written-back window's buffer as a function of the six input blocks (its one
  store, read back through the canonical form of a piece list), the body's run, the pipeline's proof data
  (the class of kernels whose invariant is only the scoped rest and the generator register) and the body obligation.
-/
import proofs.«402860_j88510686036004_2_alg».proof.Proof.Gen.KernelIdeal.Launch
import proofs.«402860_j88510686036004_2_alg».proof.Proof.Gen.KernelIdeal.Skeleton
import proofs.«402860_j88510686036004_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at the point -/

/-- Window `w`'s block at point `t`, read off its array as the launch finds it. -/
def lnBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A fetched window's current staging buffer holds its block at the point, whatever the proof data, as long as its
    array is `V`'s and the body leaves the block in place. -/
theorem lnBefore0_of {c : Dev nD} (dat : Dat τ (Elt F) Unit ℕ (UR sig nD τ) ℕ cfg0 c) (hA : dat.A 0 = V c (Pipeline.arrRef spec0 0))
    (hafter : ∀ t, dat.after 0 t = lnBlk V c 0 t) (t : Fin cfg0.N) (d) : dat.before 0 t d = lnBlk V c 0 t :=
  (dat.before_in_eq_fetched 0 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore1_of {c : Dev nD} (dat : Dat τ (Elt F) Unit ℕ (UR sig nD τ) ℕ cfg0 c) (hA : dat.A 1 = V c (Pipeline.arrRef spec0 1))
    (hafter : ∀ t, dat.after 1 t = lnBlk V c 1 t) (t : Fin cfg0.N) (d) : dat.before 1 t d = lnBlk V c 1 t :=
  (dat.before_in_eq_fetched 1 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore2_of {c : Dev nD} (dat : Dat τ (Elt F) Unit ℕ (UR sig nD τ) ℕ cfg0 c) (hA : dat.A 2 = V c (Pipeline.arrRef spec0 2))
    (hafter : ∀ t, dat.after 2 t = lnBlk V c 2 t) (t : Fin cfg0.N) (d) : dat.before 2 t d = lnBlk V c 2 t :=
  (dat.before_in_eq_fetched 2 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore3_of {c : Dev nD} (dat : Dat τ (Elt F) Unit ℕ (UR sig nD τ) ℕ cfg0 c) (hA : dat.A 3 = V c (Pipeline.arrRef spec0 3))
    (hafter : ∀ t, dat.after 3 t = lnBlk V c 3 t) (t : Fin cfg0.N) (d) : dat.before 3 t d = lnBlk V c 3 t :=
  (dat.before_in_eq_fetched 3 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore4_of {c : Dev nD} (dat : Dat τ (Elt F) Unit ℕ (UR sig nD τ) ℕ cfg0 c) (hA : dat.A 4 = V c (Pipeline.arrRef spec0 4))
    (hafter : ∀ t, dat.after 4 t = lnBlk V c 4 t) (t : Fin cfg0.N) (d) : dat.before 4 t d = lnBlk V c 4 t :=
  (dat.before_in_eq_fetched 4 rfl (fun _ => rfl) (fun _ _ _ => rfl) (fun t => by rw [hafter]; unfold Dat.blockOf lnBlk; rw [hA]; try rfl) t d).trans
    (by unfold Dat.fetched Dat.blockOf lnBlk; rw [hA]; try rfl)

/-- A fetched window's current staging buffer holds its block at the point, whatever the proof data, as long as its
    array is `V`'s and the body leaves the block in place. -/
theorem lnBefore5_of {c : Dev nD} (dat : Dat τ (Elt F) Unit ℕ (UR sig nD τ) ℕ cfg0 c) (hA : dat.A 5 = V c (Pipeline.arrRef spec0 5))
    (hafter : ∀ t, dat.after 5 t = lnBlk V c 5 t) (t : Fin cfg0.N) (d) : dat.before 5 t d = lnBlk V c 5 t :=
  (dat.before_in_eq_fetched 5 rfl (fun _ => rfl) (fun _ _ _ => rfl) (fun t => by rw [hafter]; unfold Dat.blockOf lnBlk; rw [hA]; try rfl) t d).trans
    (by unfold Dat.fetched Dat.blockOf lnBlk; rw [hA]; try rfl)

/-! ## The body's accesses: every load and the one store take a whole buffer -/

abbrev rFeat : Rect S4x256 := Rect.unit (s := S4x256) ![0, 0] S4x256.size inb_S4x256_S4x256_0_0
abbrev rVec : Rect S256 := Rect.unit (s := S256) ![0] S256.size inb_S256_S256_0
abbrev rW : Rect S4096x256 := Rect.unit (s := S4096x256) ![0, 0] S4096x256.size inb_S4096x256_S4096x256_0_0
abbrev rBias : Rect S4096 := Rect.unit (s := S4096) ![0] S4096.size inb_S4096_S4096_0
abbrev rMask : Rect S4x1 := Rect.unit (s := S4x1) ![0, 0] S4x1.size inb_S4x1_S4x1_0_0
abbrev rDelta : Rect S4x4096 := Rect.unit (s := S4x4096) ![0, 0] S4x4096.size inb_S4x4096_S4x4096_0_0

/-- What the body leaves in the written-back window's buffer, from the six input blocks: its one store as a piece. -/
def lnOut (x0 : Vec F S4x256 .f32) (x1 : Vec F S256 .f32) (x2 : Vec F S256 .f32) (x3 : Vec F S4096x256 .f32) (x4 : Vec F S4096 .f32)
    (x5 : Vec F S4x1 .f32) : Vec F S4x4096 .f32 :=
  View.canon [⟨rDelta, k0_pay1 (View.ld x0 rFeat) (View.ld x1 rVec) (View.ld x2 rVec) (View.ld x3 rW) (View.ld x4 rBias) (View.ld x5 rMask)⟩]

/-- The store takes the whole buffer, so it covers it. -/
theorem lnCover (p0 : Vec F S4x4096 .f32) (y : S4x4096.Idx) :
    ∃ pc ∈ ([⟨rDelta, p0⟩] : List (View.Piece (Elt F) S4x4096 .f32)), y ∈ pc.1.set :=
  View.cover_of_tiled [⟨rDelta, p0⟩] S4x4096.size (by rfl) y

/-! ## The body's run -/

set_option maxHeartbeats 1000000 in
/-- The body on whole staging memrefs, the inputs' at contents `x0 … x5` and the output's at anything, runs to the
    continuation with the inputs' as they were and the output's at `lnOut` of them. -/
theorem lnRun (c : Dev nD) (E : Set ℕ) (i : grid0.Coords)
    (arg1 : Memref sig .tc .vmem S4x256 .f32) (harg1 : arg1.IsWhole) (arg2 : Memref sig .tc .vmem S256 .f32) (harg2 : arg2.IsWhole)
    (arg3 : Memref sig .tc .vmem S256 .f32) (harg3 : arg3.IsWhole) (arg4 : Memref sig .tc .vmem S4096x256 .f32) (harg4 : arg4.IsWhole)
    (arg5 : Memref sig .tc .vmem S4096 .f32) (harg5 : arg5.IsWhole) (arg6 : Memref sig .tc .vmem S4x1 .f32) (harg6 : arg6.IsWhole)
    (arg7 : Memref sig .tc .vmem S4x4096 .f32) (harg7 : arg7.IsWhole)
    (x0 : Vec F S4x256 .f32) (x1 : Vec F S256 .f32) (x2 : Vec F S256 .f32) (x3 : Vec F S4096x256 .f32) (x4 : Vec F S4096 .f32)
    (x5 : Vec F S4x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (lnOut x0 x1 x2 x3 x4 x5)) -∗ K ⟨⟩))
      ⊢ wp frame (wpE (defs₀ (F := F)) Variants.none c none) E
          (cc0__ln_linear_kernel i arg1 harg1 arg2 harg2 arg3 harg3 arg4 harg4 arg5 harg5 arg6 harg6 arg7 harg7) K := by
  simp only [cc0__ln_linear_kernel_eq_skeleton]; unfold cc0__ln_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (lnCover _)

/-! ## The pipeline's proof data -/

/-- The first pipeline's proof data on core `c`: the arrays as the launch finds them; after the body each input's buffer
    at its block and the output's at `lnOut` of the input blocks; the invariant the scoped rest and the generator
    register, untouched; nothing owed; full shares. -/
def lnDat (c : Dev nD) : Dat τ (Elt F) Unit ℕ (UR sig nD τ) ℕ cfg0 c where
  A w := V c (Pipeline.arrRef spec0 w)
  after w t := match w with
    | ⟨0, _⟩ => lnBlk V c 0 t
    | ⟨1, _⟩ => lnBlk V c 1 t
    | ⟨2, _⟩ => lnBlk V c 2 t
    | ⟨3, _⟩ => lnBlk V c 3 t
    | ⟨4, _⟩ => lnBlk V c 4 t
    | ⟨5, _⟩ => lnBlk V c 5 t
    | ⟨6, _⟩ => lnOut (lnBlk V c 0 t) (lnBlk V c 1 t) (lnBlk V c 2 t) (lnBlk V c 3 t) (lnBlk V c 4 t) (lnBlk V c 5 t)
  Φ _ := Pipeline.ΦA spec0 c
  q _ := fullShare
  owed _ := 0

theorem lnA_eq (c : Dev nD) (w : Fin cfg0.W) : (lnDat V c).A w = V c (Pipeline.arrRef spec0 w) := by
  dsimp only [lnDat]

theorem lnAfter0 (c : Dev nD) (t : Fin cfg0.N) : (lnDat V c).after 0 t = lnBlk V c 0 t := by dsimp only [lnDat]
theorem lnAfter1 (c : Dev nD) (t : Fin cfg0.N) : (lnDat V c).after 1 t = lnBlk V c 1 t := by dsimp only [lnDat]
theorem lnAfter2 (c : Dev nD) (t : Fin cfg0.N) : (lnDat V c).after 2 t = lnBlk V c 2 t := by dsimp only [lnDat]
theorem lnAfter3 (c : Dev nD) (t : Fin cfg0.N) : (lnDat V c).after 3 t = lnBlk V c 3 t := by dsimp only [lnDat]
theorem lnAfter4 (c : Dev nD) (t : Fin cfg0.N) : (lnDat V c).after 4 t = lnBlk V c 4 t := by dsimp only [lnDat]
theorem lnAfter5 (c : Dev nD) (t : Fin cfg0.N) : (lnDat V c).after 5 t = lnBlk V c 5 t := by dsimp only [lnDat]
theorem lnAfter6 (c : Dev nD) (t : Fin cfg0.N) : (lnDat V c).after 6 t
    = lnOut (lnBlk V c 0 t) (lnBlk V c 1 t) (lnBlk V c 2 t) (lnBlk V c 3 t) (lnBlk V c 4 t) (lnBlk V c 5 t) := by dsimp only [lnDat]

theorem lnBefore0 (c : Dev nD) (t : Fin cfg0.N) (d) : (lnDat V c).before 0 t d = lnBlk V c 0 t :=
  lnBefore0_of V (lnDat V c) (lnA_eq V c 0) (lnAfter0 V c) t d
theorem lnBefore1 (c : Dev nD) (t : Fin cfg0.N) (d) : (lnDat V c).before 1 t d = lnBlk V c 1 t :=
  lnBefore1_of V (lnDat V c) (lnA_eq V c 1) (lnAfter1 V c) t d
theorem lnBefore2 (c : Dev nD) (t : Fin cfg0.N) (d) : (lnDat V c).before 2 t d = lnBlk V c 2 t :=
  lnBefore2_of V (lnDat V c) (lnA_eq V c 2) (lnAfter2 V c) t d
theorem lnBefore3 (c : Dev nD) (t : Fin cfg0.N) (d) : (lnDat V c).before 3 t d = lnBlk V c 3 t :=
  lnBefore3_of V (lnDat V c) (lnA_eq V c 3) (lnAfter3 V c) t d
theorem lnBefore4 (c : Dev nD) (t : Fin cfg0.N) (d) : (lnDat V c).before 4 t d = lnBlk V c 4 t :=
  lnBefore4_of V (lnDat V c) (lnA_eq V c 4) (lnAfter4 V c) t d
theorem lnBefore5 (c : Dev nD) (t : Fin cfg0.N) (d) : (lnDat V c).before 5 t d = lnBlk V c 5 t :=
  lnBefore5_of V (lnDat V c) (lnA_eq V c 5) (lnAfter5 V c) t d

/-! ## The body obligation -/

/-- What the body is called with at point `t`, the windows one by one, -/
def lnPre (c : Dev nD) (t : Fin cfg0.N) : sProp 𝕄 :=
  iprop((lnDat V c).Φ t.castSucc ∗ (lnDat V c).owesAt () t.castSucc
    ∗ (∃ d, owns (c : Thread nD τ) (st0_0 t) fullShare ((lnDat V c).before 0 t d))
    ∗ (∃ d, owns (c : Thread nD τ) (st0_1 t) fullShare ((lnDat V c).before 1 t d))
    ∗ (∃ d, owns (c : Thread nD τ) (st0_2 t) fullShare ((lnDat V c).before 2 t d))
    ∗ (∃ d, owns (c : Thread nD τ) (st0_3 t) fullShare ((lnDat V c).before 3 t d))
    ∗ (∃ d, owns (c : Thread nD τ) (st0_4 t) fullShare ((lnDat V c).before 4 t d))
    ∗ (∃ d, owns (c : Thread nD τ) (st0_5 t) fullShare ((lnDat V c).before 5 t d))
    ∗ (∃ d, owns (c : Thread nD τ) (st0_6 t) fullShare ((lnDat V c).before 6 t d)))

/-- and what it returns. -/
def lnPost (c : Dev nD) (t : Fin cfg0.N) : sProp 𝕄 :=
  iprop((lnDat V c).Φ t.succ ∗ (lnDat V c).owesAt () t.succ
    ∗ owns (c : Thread nD τ) (st0_0 t) fullShare ((lnDat V c).after 0 t)
    ∗ owns (c : Thread nD τ) (st0_1 t) fullShare ((lnDat V c).after 1 t)
    ∗ owns (c : Thread nD τ) (st0_2 t) fullShare ((lnDat V c).after 2 t)
    ∗ owns (c : Thread nD τ) (st0_3 t) fullShare ((lnDat V c).after 3 t)
    ∗ owns (c : Thread nD τ) (st0_4 t) fullShare ((lnDat V c).after 4 t)
    ∗ owns (c : Thread nD τ) (st0_5 t) fullShare ((lnDat V c).after 5 t)
    ∗ owns (c : Thread nD τ) (st0_6 t) fullShare ((lnDat V c).after 6 t))

theorem lnSound (c : Dev nD) (t : Fin cfg0.N) :
    lnPre V c t ⊢ wp frame (wpE (defs₀ (F := F)) Variants.none c none) Set.univ (bodyAt0 t) (fun _ => lnPost V c t) := by
  unfold lnPre lnPost bodyAt0
  simp only [lnBefore0, lnBefore1, lnBefore2, lnBefore3, lnBefore4, lnBefore5]
  rw [show (lnDat V c).Φ t.succ = (lnDat V c).Φ t.castSucc from rfl,
    show (lnDat V c).owesAt () t.succ = (lnDat V c).owesAt () t.castSucc from rfl,
    lnAfter0, lnAfter1, lnAfter2, lnAfter3, lnAfter4, lnAfter5, lnAfter6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (lnRun c Set.univ _ _ _ _ _ _ _ _ _ _ _ _ _ _ _ (lnBlk V c 0 t) (lnBlk V c 1 t) (lnBlk V c 2 t) (lnBlk V c 3 t) (lnBlk V c 4 t) (lnBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem lnObligation (c : Dev nD) : BodyObligation (lnDat (F := F) V c) (defs₀ (F := F)) Variants.none () Set.univ := fun t => by
  rw [bigSep_W0, bigSep_W0]
  exact lnSound V c t

end Cert.KernelIdeal.Graft

end
-- ==== Proof.KernelIdeal.Region1.lean ====
/-
  The second launch: a tiled copy of x into the result that adds row b of the first launch's output into the one
  row of batch b named by the prefetched word last[b], where the tile holds that row. Grid 4 by 16; a window on x
  and one on the result move with the point (two staging buffers each), the first launch's output is fetched
  whole; the table of last words is read by the body from scalar memory. Stated at any float instance, at any
  contents V of the core's buffers at entry and at any admissible contents of the table: the staging memrefs and
  the body at a point, each window's block, what the body leaves in the result window's buffer (its one store),
  the body's run, the proof data (invariant: the scoped rest, the generator register and the table, whole) and
  the body obligation.
-/
import proofs.«402860_j88510686036004_2_alg».proof.Proof.Gen.KernelIdeal.Launch
import proofs.«402860_j88510686036004_2_alg».proof.Proof.Gen.KernelIdeal.Skeleton
import proofs.«402860_j88510686036004_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg1 (F := F)).Adm)

/-! ## The staging memrefs and the body at a point -/

abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The table of last words as the body is handed it: its whole buffer as a memref. -/
abbrev tbM : Memref sig .tc .smem S4 .i32 := Memref.whole main_v14
abbrev htbM : tbM.IsWhole := Memref.isWhole_whole _

/-- The body at point `t`, on what the pipeline calls it with. -/
abbrev bodyAt1 (t : Fin (cfg1 a).N) : Prog (TpuEff nD τ sig (Elt F) Λ₀ .tc) PUnit :=
  cc1__scatter_kernel (grid1.coords t) tbM htbM (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The table's buffer on core `c`: its contents type, and the buffer held whole at `f`. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare} f

/-- The table held whole is that one buffer. -/
theorem prefHeld_eq (c : Dev nD) (pf : pre1.Contents (Elt F)) :
    (Pipeline.prefHeld pre1 c (fun _ => fullShare) pf : sProp 𝕄) = tbPt c (pf 0) := by
  unfold Pipeline.prefHeld
  rw [show (Finset.univ : Finset (Fin 1)) = {(0 : Fin 1)} from by decide, bigSep_singleton]
  rfl

/-! ## The windows' blocks -/

def scBlk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem scBefore0_of {c : Dev nD} (dat : Dat τ (Elt F) Unit ℕ (UR sig nD τ) ℕ (cfg1 a) c) (hA : dat.A 0 = V c (Pipeline.arrRef spec1 0))
    (hafter : ∀ t, dat.after 0 t = scBlk V a c 0 t) (t : Fin (cfg1 a).N) (d) : dat.before 0 t d = scBlk V a c 0 t :=
  (dat.before_in_eq_fetched 0 rfl (fun _ => rfl) (fun _ _ _ => rfl) (fun t => by rw [hafter]; unfold Dat.blockOf scBlk; rw [hA]; try rfl) t d).trans
    (by unfold Dat.fetched Dat.blockOf scBlk; rw [hA]; try rfl)

theorem scBefore1_of {c : Dev nD} (dat : Dat τ (Elt F) Unit ℕ (UR sig nD τ) ℕ (cfg1 a) c) (hA : dat.A 1 = V c (Pipeline.arrRef spec1 1))
    (hafter : ∀ t, dat.after 1 t = scBlk V a c 1 t) (t : Fin (cfg1 a).N) (d) : dat.before 1 t d = scBlk V a c 1 t :=
  (dat.before_in_eq_fetched 1 rfl (fun _ => rfl) (fun _ _ _ => rfl) (fun t => by rw [hafter]; unfold Dat.blockOf scBlk; rw [hA]; try rfl) t d).trans
    (by unfold Dat.fetched Dat.blockOf scBlk; rw [hA]; try rfl)

/-! ## The body's accesses and what it leaves -/

abbrev rTile : Rect S1x256x4096 := Rect.unit (s := S1x256x4096) ![0, 0, 0] S1x256x4096.size inb_S1x256x4096_S1x256x4096_0_0_0
/-- Row `b` of the first launch's output, `b` the point's batch coordinate. -/
abbrev rRow (i : grid1.Coords) : Rect S4x4096 := Rect.unit (s := S4x4096) (k1_off2 i) S1x4096.size (k1_off2_inb i)

/-- The word last[b] as the body loads it from the table at contents `xt`. -/
def lastWord (i : grid1.Coords) (c : Dev nD) (xt : TbBuf (F := F) c) : Elt F .i32 :=
  tbM.view.readAt (Elt F) (Rect.unit (s := S4) (k1_off1 i) S1.size (k1_off1_inb i)).toLoadRect xt (Shape.Idx.first (numel1_S1.symm ▸ Nat.one_pos))

/-- What the body leaves in the result window's buffer at grid coordinates `i`, from the table and the two input blocks. -/
def scOut (i : grid1.Coords) (c : Dev nD) (xt : TbBuf (F := F) c) (x0 : Vec F S1x256x4096 .f32) (x1 : Vec F S4x4096 .f32) : Vec F S1x256x4096 .f32 :=
  View.canon [⟨rTile, k1_pay1 i (lastWord i c xt) (View.ld x1 (rRow i)) (View.ld x0 rTile)⟩]

theorem scCover (p0 : Vec F S1x256x4096 .f32) (y : S1x256x4096.Idx) :
    ∃ pc ∈ ([⟨rTile, p0⟩] : List (View.Piece (Elt F) S1x256x4096 .f32)), y ∈ pc.1.set :=
  View.cover_of_tiled [⟨rTile, p0⟩] S1x256x4096.size (by rfl) y

/-! ## The body's run -/

set_option maxHeartbeats 1000000 in
theorem scRun (c : Dev nD) (E : Set ℕ) (i : grid1.Coords)
    (arg3 : Memref sig .tc .vmem S1x256x4096 .f32) (harg3 : arg3.IsWhole) (arg4 : Memref sig .tc .vmem S4x4096 .f32) (harg4 : arg4.IsWhole)
    (arg5 : Memref sig .tc .vmem S1x256x4096 .f32) (harg5 : arg5.IsWhole)
    (xt : TbBuf (F := F) c) (x0 : Vec F S1x256x4096 .f32) (x1 : Vec F S4x4096 .f32) (K : PUnit → sProp 𝕄) :
    iprop(owns (c : Thread nD τ) arg3 fullShare x0 ∗ owns (c : Thread nD τ) arg4 fullShare x1 ∗ (∃ d, owns (c : Thread nD τ) arg5 fullShare d)
        ∗ tbPt c xt
        ∗ (iprop(owns (c : Thread nD τ) arg3 fullShare x0 ∗ owns (c : Thread nD τ) arg4 fullShare x1
            ∗ owns (c : Thread nD τ) arg5 fullShare (scOut i c xt x0 x1) ∗ tbPt c xt) -∗ K ⟨⟩))
      ⊢ wp frame (wpE (defs₀ (F := F)) Variants.none c none) E (cc1__scatter_kernel i tbM htbM arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, HT, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (scCover _)
  iexact HT

/-! ## The pipeline's proof data -/

def scDat (c : Dev nD) : Dat τ (Elt F) Unit ℕ (UR sig nD τ) ℕ (cfg1 a) c where
  A w := V c (Pipeline.arrRef spec1 w)
  after w t := match w with
    | ⟨0, _⟩ => scBlk V a c 0 t
    | ⟨1, _⟩ => scBlk V a c 1 t
    | ⟨2, _⟩ => scOut (grid1.coords t) c (a.1 0) (scBlk V a c 0 t) (scBlk V a c 1 t)
  Φ _ := iprop(Pipeline.ΦA spec1 c ∗ Pipeline.prefHeld pre1 c (fun _ => fullShare) a.1)
  q _ := fullShare
  owed _ := 0

theorem scA_eq (c : Dev nD) (w : Fin (cfg1 a).W) : (scDat V a c).A w = V c (Pipeline.arrRef spec1 w) := by
  dsimp only [scDat]

theorem scAfter0 (c : Dev nD) (t : Fin (cfg1 a).N) : (scDat V a c).after 0 t = scBlk V a c 0 t := by dsimp only [scDat]; try rfl
theorem scAfter1 (c : Dev nD) (t : Fin (cfg1 a).N) : (scDat V a c).after 1 t = scBlk V a c 1 t := by dsimp only [scDat]; try rfl
theorem scAfter2 (c : Dev nD) (t : Fin (cfg1 a).N) : (scDat V a c).after 2 t
    = scOut (grid1.coords t) c (a.1 0) (scBlk V a c 0 t) (scBlk V a c 1 t) := by dsimp only [scDat]; try rfl

theorem scBefore0 (c : Dev nD) (t : Fin (cfg1 a).N) (d) : (scDat V a c).before 0 t d = scBlk V a c 0 t :=
  scBefore0_of V a (scDat V a c) (scA_eq V a c 0) (scAfter0 V a c) t d
theorem scBefore1 (c : Dev nD) (t : Fin (cfg1 a).N) (d) : (scDat V a c).before 1 t d = scBlk V a c 1 t :=
  scBefore1_of V a (scDat V a c) (scA_eq V a c 1) (scAfter1 V a c) t d

/-! ## The body obligation -/

def scPre (c : Dev nD) (t : Fin (cfg1 a).N) : sProp 𝕄 :=
  iprop((scDat V a c).Φ t.castSucc ∗ (scDat V a c).owesAt () t.castSucc
    ∗ (∃ d, owns (c : Thread nD τ) (st1_0 a t) fullShare ((scDat V a c).before 0 t d))
    ∗ (∃ d, owns (c : Thread nD τ) (st1_1 a t) fullShare ((scDat V a c).before 1 t d))
    ∗ (∃ d, owns (c : Thread nD τ) (st1_2 a t) fullShare ((scDat V a c).before 2 t d)))

def scPost (c : Dev nD) (t : Fin (cfg1 a).N) : sProp 𝕄 :=
  iprop((scDat V a c).Φ t.succ ∗ (scDat V a c).owesAt () t.succ
    ∗ owns (c : Thread nD τ) (st1_0 a t) fullShare ((scDat V a c).after 0 t)
    ∗ owns (c : Thread nD τ) (st1_1 a t) fullShare ((scDat V a c).after 1 t)
    ∗ owns (c : Thread nD τ) (st1_2 a t) fullShare ((scDat V a c).after 2 t))

theorem scSound (c : Dev nD) (t : Fin (cfg1 a).N) :
    scPre V a c t ⊢ wp frame (wpE (defs₀ (F := F)) Variants.none c none) Set.univ (bodyAt1 a t) (fun _ => scPost V a c t) := by
  unfold scPre scPost bodyAt1
  simp only [scBefore0, scBefore1]
  rw [show (scDat V a c).Φ t.succ = (scDat V a c).Φ t.castSucc from rfl,
    show (scDat V a c).owesAt () t.succ = (scDat V a c).owesAt () t.castSucc from rfl,
    scAfter0, scAfter1, scAfter2]
  rw [show (scDat V a c).Φ t.castSucc = iprop(Pipeline.ΦA spec1 c ∗ Pipeline.prefHeld pre1 c (fun _ => fullShare) a.1) from rfl, prefHeld_eq]
  iintro ⟨⟨HΦ, HT⟩, Ho, ⟨%d0, H0⟩, ⟨%d1, H1⟩, ⟨%d2, H2⟩⟩
  iapply (scRun c Set.univ (grid1.coords t) _ _ _ _ _ _ (a.1 0) (scBlk V a c 0 t) (scBlk V a c 1 t) _)
  isplitl [H0]; · iexact H0
  isplitl [H1]; · iexact H1
  isplitl [H2]; · iexists _; iexact H2
  isplitl [HT]; · iexact HT
  iintro ⟨H0, H1, H2, HT⟩
  isplitl [HΦ HT]
  · isplitl [HΦ]; · iexact HΦ
    iexact HT
  isplitl [Ho]; · iexact Ho
  isplitl [H0]; · iexact H0
  isplitl [H1]; · iexact H1
  iexact H2

theorem scObligation (c : Dev nD) : BodyObligation (scDat (F := F) V a c) (defs₀ (F := F)) Variants.none () Set.univ := fun t => by
  rw [bigSep_W1, bigSep_W1]
  exact scSound V a c t

end Cert.KernelIdeal.Graft

end
-- ==== Proof.KernelIdeal.Run.lean ====
/-
  The whole program's frame, at any float instance: both launches as segments of @main between the host stretches.
  The buffer contents at each boundary are the host stretches' results, then what each launch writes back: the first
  launch's output array at what its pipeline leaves (one block, the whole array), the second's likewise (64 tiles).
  The table of last words is read off the buffers as the second launch finds them; the first launch does not touch it.
  Each launch is entered from "every unscoped buffer at the boundary's contents, the generator register at some state,
  nothing owed" and left in the same form; its arrays are split out of the unscoped buffers at entry and put back at
  exit, and for the second launch the table is split out too, kept whole in the invariant for the body to read, and
  put back.
-/
import proofs.«402860_j88510686036004_2_alg».proof.Proof.KernelIdeal.Region0
import proofs.«402860_j88510686036004_2_alg».proof.Proof.KernelIdeal.Region1
import proofs.«402860_j88510686036004_2_alg».proof.Proof.Gen.KernelIdeal.Regions

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at the launches' boundaries -/

/-- The core's buffers when the first launch is entered: after the host stretches. -/
abbrev U3 : (c : Dev nD) → (b : Ref sig .tc) → Buf (Elt F) ((c : Thread nD τ).loc b) := fun c b => Gen.V3 m c b

/-- After the first launch: its arrays at what its pipeline leaves, every other buffer as entered. -/
def W4 (c : Dev nD) : Valuation τ sig (Elt F) :=
  Pipeline.withArrays spec0 c (Gen.V3 m c) fun w => (lnDat (U3 m) c).arrAt w cfg0.N

/-- The contents the first launch leaves, as the generated boundary valuations read them. -/
def outs4 : Gen.Outs (F := F) := fun _ r c => W4 m c r

/-- The core's buffers when the second launch is entered. -/
abbrev U4 : (c : Dev nD) → (b : Ref sig .tc) → Buf (Elt F) ((c : Thread nD τ).loc b) := fun c b => Gen.V4 m (outs4 m) c b

/-- The table of last words, read off the buffers as the second launch finds them (one device: device 0's). -/
def tbl : pre1.Contents (Elt F) := fun j => U4 m (0 : Dev nD) (pre1.ref j)
theorem U4_pre (c : Dev nD) (j : Fin 1) : U4 m c (pre1.ref j) = tbl m j := by
  obtain rfl : c = 0 := Subsingleton.elim _ _; rfl

/-- No index map reads the table, so every contents of it is admissible. -/
abbrev adm1 : (pcfg1 (F := F)).Adm := ⟨tbl m, trivial⟩

abbrev adm : (p : Fin 2) → (pcfgs (F := F) p).Adm
  | ⟨0, _⟩ => cfg0.toPCfg_adm
  | ⟨1, _⟩ => adm1 m

/-- After the second launch: its arrays at what its pipeline leaves, every other buffer as entered. -/
def W5 (c : Dev nD) : Valuation τ sig (Elt F) :=
  Pipeline.withArrays spec1 c (Gen.V4 m (outs4 m) c) fun w => (scDat (U4 m) (adm1 m) c).arrAt w (cfg1 (adm1 m)).N

/-- What the two launches leave: the first's contents at its boundary, the second's after it. -/
def outs : Gen.Outs (F := F) := fun J r c => if J ≤ 4 then W4 m c r else W5 m c r

theorem V4_outs (c : Dev nD) : Gen.V4 m (outs m) c = Gen.V4 m (outs4 m) c := rfl

/-- Every pipeline's proof data, each at its launch's entry contents. -/
def pdats : (p : Fin 2) → (c : Dev nD) → Dat τ (Elt F) Unit ℕ (UR sig nD τ) ℕ (Pipeline.pin (pcfgs (F := F)) (adm m) p) c
  | ⟨0, _⟩ => fun c => lnDat (U3 m) c
  | ⟨1, _⟩ => fun c => scDat (U4 m) (adm1 m) c

abbrev 𝒱₀ : Variants := Variants.none
abbrev Lq : GSem nD τ sig → Finset Unit := fun _ => ∅
abbrev lq : GSem nD τ sig → Unit → ℕ := fun _ _ => 0

/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-! ## What the first launch leaves, array by array -/

theorem W4_arr (c : Dev nD) (w : Fin cfg0.W) :
    W4 m c (Proc.devRef .tc (Pipeline.arrRef spec0 w)) = (lnDat (U3 m) c).arrAt w cfg0.N := by
  unfold W4; exact Pipeline.withArrays_arr spec0 winFacts0.arr_inj c _ _ w

theorem V4_v15 (c : Dev nD) : Gen.V4 m (outs4 m) c main_v15 = (lnDat (U3 m) c).arrAt 6 cfg0.N := by
  show Function.update (Gen.V3 m c) main_v15 (outs4 m 4 main_v15 c) main_v15 = _
  rw [Function.update_self]; exact W4_arr m c 6

theorem lnF (c : Dev nD) (w : Fin cfg0.W) : (lnDat (U3 m) c).arrAt w cfg0.N = U4 m c (Pipeline.arrRef spec0 w) := by
  match w with
  | ⟨0, _⟩ => exact (((lnDat (U3 m) c).arrAt_in 0 rfl _).trans (lnA_eq (U3 m) c 0)).trans (Gen.V4_of m (outs4 m) c main_arg1 (by decide)).symm
  | ⟨1, _⟩ => exact (((lnDat (U3 m) c).arrAt_in 1 rfl _).trans (lnA_eq (U3 m) c 1)).trans (Gen.V4_of m (outs4 m) c main_arg4 (by decide)).symm
  | ⟨2, _⟩ => exact (((lnDat (U3 m) c).arrAt_in 2 rfl _).trans (lnA_eq (U3 m) c 2)).trans (Gen.V4_of m (outs4 m) c main_arg5 (by decide)).symm
  | ⟨3, _⟩ => exact (((lnDat (U3 m) c).arrAt_in 3 rfl _).trans (lnA_eq (U3 m) c 3)).trans (Gen.V4_of m (outs4 m) c main_arg6 (by decide)).symm
  | ⟨4, _⟩ => exact (((lnDat (U3 m) c).arrAt_in 4 rfl _).trans (lnA_eq (U3 m) c 4)).trans (Gen.V4_of m (outs4 m) c main_arg7 (by decide)).symm
  | ⟨5, _⟩ => exact (((lnDat (U3 m) c).arrAt_in 5 rfl _).trans (lnA_eq (U3 m) c 5)).trans (Gen.V4_of m (outs4 m) c main_v10 (by decide)).symm
  | ⟨6, _⟩ => exact (V4_v15 m c).symm

theorem lnRest (c : Dev nD) : ∀ b, b ∉ Finset.univ.image (Pipeline.arrRef spec0) → U4 m c b = U3 m c b :=
  fun b hb => Gen.V4_of m (outs4 m) c b (by
    intro h
    rw [List.mem_singleton] at h
    exact hb (Finset.mem_image.mpr ⟨6, Finset.mem_univ _, h.symm⟩))

/-! ## What the second launch leaves -/

/-- The core's buffers after the second launch, as the generated last valuation reads them. -/
abbrev U5 : (c : Dev nD) → (b : Ref sig .tc) → Buf (Elt F) ((c : Thread nD τ).loc b) := fun c b => Gen.V5 m (outs m) c b

theorem W5_arr (c : Dev nD) (w : Fin (cfg1 (adm1 m)).W) :
    W5 m c (Proc.devRef .tc (Pipeline.arrRef spec1 w)) = (scDat (U4 m) (adm1 m) c).arrAt w (cfg1 (adm1 m)).N := by
  unfold W5; exact Pipeline.withArrays_arr spec1 winFacts1.arr_inj c _ _ w

theorem V5_v16 (c : Dev nD) : Gen.V5 m (outs m) c main_v16 = (scDat (U4 m) (adm1 m) c).arrAt 2 (cfg1 (adm1 m)).N := by
  show Function.update (Gen.V4 m (outs m) c) main_v16 (outs m 5 main_v16 c) main_v16 = _
  rw [Function.update_self]; exact W5_arr m c 2

theorem scF (c : Dev nD) (w : Fin (cfg1 (adm1 m)).W) : (scDat (U4 m) (adm1 m) c).arrAt w (cfg1 (adm1 m)).N = U5 m c (Pipeline.arrRef spec1 w) := by
  match w with
  | ⟨0, _⟩ => exact (((scDat (U4 m) (adm1 m) c).arrAt_in 0 rfl _).trans (scA_eq (U4 m) (adm1 m) c 0)).trans (Gen.V5_of m (outs m) c main_arg0 (by decide)).symm
  | ⟨1, _⟩ => exact (((scDat (U4 m) (adm1 m) c).arrAt_in 1 rfl _).trans (scA_eq (U4 m) (adm1 m) c 1)).trans (Gen.V5_of m (outs m) c main_v15 (by decide)).symm
  | ⟨2, _⟩ => exact (V5_v16 m c).symm

theorem scRest (c : Dev nD) : ∀ b, b ∉ Finset.univ.image (Pipeline.arrRef spec1) → U5 m c b = U4 m c b :=
  fun b hb => Gen.V5_of m (outs m) c b (by
    intro h
    rw [List.mem_singleton] at h
    exact hb (Finset.mem_image.mpr ⟨2, Finset.mem_univ _, h.symm⟩))

/-- The unscoped buffers that are no array of the second launch: the table, whole at its contents, and the rest. -/
theorem scRest_split (c : Dev nD) :
    (Pipeline.unscopedRest (Ix := Unit) (Name := ℕ) (U := UR sig nD τ) (Lvl := ℕ) spec1 c (U4 m c) : sProp 𝕄)
      = iprop(Pipeline.prefHeld pre1 c (fun _ => fullShare) (tbl m) ∗ Pipeline.unscopedRestP pre1 spec1 c (U4 m c)) := by
  rw [Pipeline.unscopedRest_split preFacts1, show (fun k => U4 m c (pre1.ref k)) = tbl m from funext fun k => U4_pre m c k]

/-! ## The launches as segments -/

set_option backward.isDefEq.respectTransparency.types false in
/-- The first launch over the thread state: entered from every unscoped buffer at the host stretches' results, left with
    its output array at what the pipeline leaves. -/
def lnSeg : Pipeline.RegionSeg (pcfgs (F := F)) (adm m) (pdats m) () defs₀ 𝒱₀ Lq lq 0 where
  win := winFacts0.to₀
  block_pos := block_pos0
  stage_whole := stage_whole0
  K := PEmpty
  osem k := k.elim
  ho := Pipeline.OwnSemFacts.none _
  hbody c := (lnObligation (U3 m) c).loose
  hwaits := Pipeline.hwaits_of_owed_zero _ _ _ _ Lq lq 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) (adm m) (pdats m) winFacts0 arr_whole0 c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      winFacts0 arr_whole0 c (pdats m) ((pdats m 0 c).share_full fun _ => rfl)
      (U3 m c) (U4 m c) ((pdats m 0 c).arrAt · cfg0.N) (lnF m c) (lnRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: its arrays and the table split out of the unscoped buffers at entry, the
    table whole in the invariant, both put back at exit with the result array at what the pipeline leaves. -/
def scSeg : Pipeline.RegionSeg (pcfgs (F := F)) (adm m) (pdats m) () defs₀ 𝒱₀ Lq lq 1 where
  win := winFacts1.to₀
  block_pos := block_pos1
  stage_whole := stage_whole1
  K := PEmpty
  osem k := k.elim
  ho := Pipeline.OwnSemFacts.none _
  hbody c := (scObligation (U4 m) (adm1 m) c).loose
  hwaits := Pipeline.hwaits_of_owed_zero _ _ _ _ Lq lq 1 fun _ _ => rfl
  pre c := iprop(StableHlo.held (c : Thread nD τ) (Pipeline.ucRefs τ sig) (Gen.V4 m (outs m) c) ∗ Rst c)
  post c := iprop(StableHlo.held (c : Thread nD τ) (Pipeline.ucRefs τ sig) (Gen.V5 m (outs m) c) ∗ Rst c)
  X c := iprop(∃ r, prngReg c r)
  Y c := iprop((∃ r, prngReg c r) ∗ Pipeline.prefHeld pre1 c (fun _ => fullShare) (tbl m))
  Z c := Pipeline.unscopedRestP (Ix := Unit) (Name := ℕ) (U := UR sig nD τ) (Lvl := ℕ) pre1 spec1 c (U4 m c)
  hentry c := by
    rw [Pipeline.ownSems0_none, V4_outs m c]
    have hsplit := Pipeline.arrays_of_unscopedBufs (p := 1) (pcfgs (F := F)) (adm m) (pdats m) winFacts1 arr_whole1 c
      ((pdats m 1 c).share_full fun _ => rfl) (U4 m c) fun _ => rfl
    rw [Pipeline.unscopedBufs_held] at hsplit
    replace hsplit : (StableHlo.held (c : Thread nD τ) (Pipeline.ucRefs τ sig) (Gen.V4 m (outs4 m) c) : sProp 𝕄)
        ⊢ iprop((pdats m 1 c).arrays ((pdats m 1 c).arrAt · 0) ∗ Pipeline.unscopedRest spec1 c (U4 m c)) := hsplit
    rw [scRest_split] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld pre1 c (fun _ => fullShare) (tbl m)) from rfl]; unfold Pipeline.ΦA
    iintro ⟨Hp, Htb, Hr⟩
    isplitl [Hr Hp]
    · isplitl [Hr]; · iexact Hr
      iexact Hp
    iexact Htb
  hout c := by
    rw [Pipeline.ownSems0_none, show (pdats m 1 c).Φ (Fin.last _) = iprop(Pipeline.ΦA spec1 c ∗ Pipeline.prefHeld pre1 c (fun _ => fullShare) (tbl m)) from rfl]; unfold Pipeline.ΦA
    iintro ⟨⟨Hr, Hp⟩, Htb⟩
    isplitl [Hp Htb]
    · isplitl [Hp]; · iexact Hp
      iexact Htb
    isplitr; · iempintro
    iexact Hr
  hexit c := by
    have hjoin := Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (U4 m c) (U5 m c) ((pdats m 1 c).arrAt · (cfg1 (adm1 m)).N) (scF m c) (scRest m c)
    rw [Pipeline.unscopedBufs_held] at hjoin
    replace hjoin : (iprop((pdats m 1 c).arrays ((pdats m 1 c).arrAt · (cfg1 (adm1 m)).N) ∗ Pipeline.unscopedRest spec1 c (U4 m c)) : sProp 𝕄)
        ⊢ StableHlo.held (c : Thread nD τ) (Pipeline.ucRefs τ sig) (Gen.V5 m (outs m) c) := hjoin
    rw [scRest_split] at hjoin
    iintro ⟨Ha, HO, ⟨Hp, Htb⟩, Hrest⟩
    imodintro
    isplitl [Ha Hrest Htb]
    · iapply hjoin
      isplitl [Ha]; · iexact Ha
      isplitl [Htb]; · iexact Htb
      iexact Hrest
    isplitl [Hp]; · iexact Hp
    unfold Pipeline.Dat.owesAt Pipeline.owesWithin
    icases HO with ⟨%W, -, HO⟩; iexists W; iexact HO

/-! ## The frame -/

variable (ρ : Dev nD → PrngReg)

/-- The launch: the library's ghost state for both pipelines' staging cells, nothing else. -/
theorem launch_ghost :
    (ownU (initOf (Pipeline.cells (Pipeline.pin (pcfgs (F := F)) (adm m)) (cellOf_inj (adm m))) (Pipeline.launchToks (Pipeline.pin (pcfgs (F := F)) (adm m)) (cellOf_inj (adm m)))) : sProp 𝕄)
      ⊢ |={Set.univ}=> iprop(BI.own (emb₁ (initOf (Pipeline.cells (Pipeline.pin (pcfgs (F := F)) (adm m)) (cellOf_inj (adm m))) (Pipeline.launchToks (Pipeline.pin (pcfgs (F := F)) (adm m)) (cellOf_inj (adm m)))))
          ∗ bigSep Finset.univ fun _ : Dev nD => (BI.emp : sProp 𝕄)) := by
  iintro Hu; imodintro
  isplitl [Hu]
  · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
        ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
    iexact Hu
  iapply (show (BI.emp : sProp 𝕄) ⊢ bigSep Finset.univ (fun _ : Dev nD => (BI.emp : sProp 𝕄)) from by rw [BI.bigSep_emp_const])
  iempintro

/-- The rest state from what the launch deals each core. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lq lq)
      ⊢ (|={Set.univ}=> bigSep Finset.univ (fun c : Dev nD => Rst (F := F) c) : sProp 𝕄) := by
  refine Pipeline.initEach Lq lq fun c => ?_
  iintro ⟨⟨-, HO, -, Hp, -⟩, -⟩
  imodintro
  isplitl [Hp]; · iexists _; iexact Hp
  iexists ∅; iexact HO

set_option backward.isDefEq.respectTransparency.types false in
/-- THE FRAME: from any memory with zero counters every weakly fair execution of @main terminates, nothing faulting,
    and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m emb₁ () 𝒱₀ Lq lq (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))))
    (launch_ghost m) (fun _ c => Rst c) (launch_rest ρ)
    (fun c => by iintro ⟨-, HO⟩; iexact HO)
    (lnSeg m) (fun _ => .rfl) (fun _ => .rfl) (scSeg m) (fun _ => .rfl) (fun _ => .rfl)

end Cert.KernelIdeal.Graft

end
-- ==== Proof.KernelIdeal.ValueRun.lean ====
/-
  The program's run with its RESULT named: the same segments as the frame, the last thread state read at every
  unscoped buffer. The result array ends at what the second launch's pipeline leaves (its 64 tiles written back), the
  argument arrays as launched.
-/
import proofs.«402860_j88510686036004_2_alg».proof.Proof.KernelIdeal.Run

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    unscoped buffer ends at the last boundary's contents. -/
theorem all_run : θ_run defs (onTc (τ := τ) (main (F := F))) ⟨m, fun _ => 0, ρ⟩ (fun r => ∀ c : Dev nD,
      ∀ b ∈ Pipeline.ucRefs τ sig, r.2.mem ((c : Thread nD τ).1, b) = Gen.V5 m (outs m) c b) :=
  Pipeline.θ_run_regions_kit_dev (pcfgs (F := F)) (adm m) (pdats m) () (cellOf_inj (adm m)) emb₁ defs₀ 𝒱₀ Lq lq m ρ main
    (Gen.segs m 𝒱₀ Lq lq (fun _ c => Rst c) () (adm m) (pdats m) (lnSeg m) (scSeg m))
    (fun c Q => by
      rewrite [main_chain c, Pipeline.Seg.run_eq_chain,
        show (Gen.segs m 𝒱₀ Lq lq (fun _ c => Rst c) () (adm m) (pdats m) (lnSeg m) (scSeg m) c).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells (Pipeline.pin (pcfgs (F := F)) (adm m)) (cellOf_inj (adm m))) (Pipeline.launchToks (Pipeline.pin (pcfgs (F := F)) (adm m)) (cellOf_inj (adm m))))
    (launch_ghost m)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V5 m (outs m) c))
    (hch := fun c => ⟨.rfl, .rfl, .rfl, .rfl, .rfl, sep_mono .rfl (by iintro ⟨-, HO⟩; iexact HO)⟩)
    (hinit := by
      refine Pipeline.initEach Lq lq fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V5 m (outs m) c b)
    (hfin := fun c s' => by
      iintro ⟨Hh, HSI⟩
      unfold StableHlo.held
      imodintro
      iapply (pointsTo_read_all (Pipeline.ucRefs τ sig) (fun b => ((c : Thread nD τ).1, b)) (Gen.V5 m (outs m) c) s')
      isplitl [Hh] <;> iassumption)
    (hQ := fun _ h => h)

/-- An unscoped TensorCore buffer is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the result array named: what the second pipeline leaves in it. -/
theorem result_run : θ_run defs (onTc (τ := τ) (main (F := F))) ⟨m, fun _ => 0, ρ⟩ (fun r => ∀ c : Dev nD,
      r.2.mem ((c.tc : Thread nD τ).loc main_v16) = (scDat (U4 m) (adm1 m) c).arrAt 2 (cfg1 (adm1 m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v16 (by decide))).trans (V5_v16 m c),
      (h c _ (mem_uc main_arg0 (by decide))).trans (Gen.V5_main_arg0 m (outs m) c),
      (h c _ (mem_uc main_arg1 (by decide))).trans (Gen.V5_main_arg1 m (outs m) c),
      (h c _ (mem_uc main_arg2 (by decide))).trans (Gen.V5_main_arg2 m (outs m) c),
      (h c _ (mem_uc main_arg3 (by decide))).trans (Gen.V5_main_arg3 m (outs m) c),
      (h c _ (mem_uc main_arg4 (by decide))).trans (Gen.V5_main_arg4 m (outs m) c),
      (h c _ (mem_uc main_arg5 (by decide))).trans (Gen.V5_main_arg5 m (outs m) c),
      (h c _ (mem_uc main_arg6 (by decide))).trans (Gen.V5_main_arg6 m (outs m) c),
      (h c _ (mem_uc main_arg7 (by decide))).trans (Gen.V5_main_arg7 m (outs m) c)⟩)
    (all_run m ρ)

end Cert.KernelIdeal.Graft

end
-- ==== Proof.KernelIdeal.LnValue.lean ====
/-
  What the first launch leaves in its output array. Every window's one block is its whole array (block index 0, block
  size the array's), so reading a block is reading the array, the body's one store is the whole staging buffer, and the
  one write-back covers the array: the output array ends at the body's payload of the six whole input arrays.
-/
import proofs.«402860_j88510686036004_2_alg».proof.Proof.KernelIdeal.Region0
import Idealize.ShloMosaic.Lib.Pipeline.Value

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-- A window's one block is its whole array: the block's coordinate is 0 · size + 1 · the coordinate inside. -/
theorem lnBlk0 (c : Dev nD) (t : Fin cfg0.N) : lnBlk V c 0 t = V c main_arg1 := by
  funext j; show V c main_arg1 (((cfg0.win 0).blk t).view.emb j) = V c main_arg1 j
  refine congrArg _ (funext fun a => Fin.ext ?_)
  match a with
  | ⟨0, _⟩ => show 0 * 4 + 1 * (j 0).val = (j 0).val; omega
  | ⟨1, _⟩ => show 0 * 256 + 1 * (j 1).val = (j 1).val; omega
theorem lnBlk1 (c : Dev nD) (t : Fin cfg0.N) : lnBlk V c 1 t = V c main_arg4 := by
  funext j; show V c main_arg4 (((cfg0.win 1).blk t).view.emb j) = V c main_arg4 j
  refine congrArg _ (funext fun a => Fin.ext ?_)
  match a with
  | ⟨0, _⟩ => show 0 * 256 + 1 * (j 0).val = (j 0).val; omega
theorem lnBlk2 (c : Dev nD) (t : Fin cfg0.N) : lnBlk V c 2 t = V c main_arg5 := by
  funext j; show V c main_arg5 (((cfg0.win 2).blk t).view.emb j) = V c main_arg5 j
  refine congrArg _ (funext fun a => Fin.ext ?_)
  match a with
  | ⟨0, _⟩ => show 0 * 256 + 1 * (j 0).val = (j 0).val; omega
theorem lnBlk3 (c : Dev nD) (t : Fin cfg0.N) : lnBlk V c 3 t = V c main_arg6 := by
  funext j; show V c main_arg6 (((cfg0.win 3).blk t).view.emb j) = V c main_arg6 j
  refine congrArg _ (funext fun a => Fin.ext ?_)
  match a with
  | ⟨0, _⟩ => show 0 * 4096 + 1 * (j 0).val = (j 0).val; omega
  | ⟨1, _⟩ => show 0 * 256 + 1 * (j 1).val = (j 1).val; omega
theorem lnBlk4 (c : Dev nD) (t : Fin cfg0.N) : lnBlk V c 4 t = V c main_arg7 := by
  funext j; show V c main_arg7 (((cfg0.win 4).blk t).view.emb j) = V c main_arg7 j
  refine congrArg _ (funext fun a => Fin.ext ?_)
  match a with
  | ⟨0, _⟩ => show 0 * 4096 + 1 * (j 0).val = (j 0).val; omega
theorem lnBlk5 (c : Dev nD) (t : Fin cfg0.N) : lnBlk V c 5 t = V c main_v10 := by
  funext j; show V c main_v10 (((cfg0.win 5).blk t).view.emb j) = V c main_v10 j
  refine congrArg _ (funext fun a => Fin.ext ?_)
  match a with
  | ⟨0, _⟩ => show 0 * 4 + 1 * (j 0).val = (j 0).val; omega
  | ⟨1, _⟩ => show 0 * 1 + 1 * (j 1).val = (j 1).val; omega

/-- The output array's one block read off a whole-array function is that function. -/
theorem lnBlk6_read (t : Fin cfg0.N) (G : S4x4096.Idx → Elt F .f32) : ((cfg0.win 6).blk t).view.read (Elt F) G = G := by
  funext j; show G (((cfg0.win 6).blk t).view.emb j) = G j
  refine congrArg _ (funext fun a => Fin.ext ?_)
  match a with
  | ⟨0, _⟩ => show 0 * 4 + 1 * (j 0).val = (j 0).val; omega
  | ⟨1, _⟩ => show 0 * 4096 + 1 * (j 1).val = (j 1).val; omega

/-- The body's store, read back, is its payload of the input blocks. -/
theorem lnOut_eq (x0 : Vec F S4x256 .f32) (x1 : Vec F S256 .f32) (x2 : Vec F S256 .f32) (x3 : Vec F S4096x256 .f32) (x4 : Vec F S4096 .f32)
    (x5 : Vec F S4x1 .f32) : lnOut x0 x1 x2 x3 x4 x5 = k0_pay1 x0 x1 x2 x3 x4 x5 := by
  unfold lnOut
  rw [View.canon_unit_zero hz2]
  simp only [View.ld_unit_zero (S := S4x256) hz2, View.ld_unit_zero (S := S256) hz1, View.ld_unit_zero (S := S4096x256) hz2,
    View.ld_unit_zero (S := S4096) hz1, View.ld_unit_zero (S := S4x1) hz2]

/-- What the one point writes back is the block of the payload of the whole input arrays. -/
theorem lnFlushed (c : Dev nD) (t : Fin cfg0.N) :
    (lnDat V c).flushed 6 t = ((cfg0.win 6).blk t).view.read (Elt F)
      (k0_pay1 (V c main_arg1) (V c main_arg4) (V c main_arg5) (V c main_arg6) (V c main_arg7) (V c main_v10)) := by
  rw [lnBlk6_read]
  show (cfg0.win 6).cut (grid0.coords t) ((lnDat V c).after 6 t) = _
  rw [lnAfter6, lnOut_eq, lnBlk0, lnBlk1, lnBlk2, lnBlk3, lnBlk4, lnBlk5]
  rfl

/-- Every index of the output array is in the one point's block. -/
theorem lnCovered (i : S4x4096.Idx) : ∃ t : Fin cfg0.N, (cfg0.win 6).flush t = true ∧ i ∈ ((cfg0.win 6).blk t).view.set := by
  refine ⟨t0_0, flush0_6 t0_0, ?_⟩
  show i ∈ ((View.whole main_v15).slice (win0_6.rect t0_0)).set
  rw [View.set_slice_whole, Rect.mem_set_unit]
  intro a
  match a with
  | ⟨0, _⟩ => show 0 * 4 ≤ (i 0).val ∧ (i 0).val < 0 * 4 + 4; have h0 : (i 0).val < 4 := (i 0).isLt; omega
  | ⟨1, _⟩ => show 0 * 4096 ≤ (i 1).val ∧ (i 1).val < 0 * 4096 + 4096; have h1 : (i 1).val < 4096 := (i 1).isLt; omega

/-- THE OUTPUT ARRAY after the first launch: the body's payload of the six whole input arrays. -/
theorem lnFinal (c : Dev nD) : (lnDat V c).arrAt 6 cfg0.N
    = k0_pay1 (V c main_arg1) (V c main_arg4) (V c main_arg5) (V c main_arg6) (V c main_arg7) (V c main_v10) :=
  (lnDat V c).arrAt_eq_of_cover 6 _ (fun t _ => lnFlushed V c t) lnCovered

end Cert.KernelIdeal.Graft

end
-- ==== Proof.Spec.lean ====
/-
  What both programs compute, written once over plain sums on the extended reals.
  For each of 4 batches b: the 256 features of row b are centred by their mean and scaled by
  rsqrt(variance + ε), then by γ and shifted by β; delta(b, d) is the inner product of that row with row d of W, plus
  the bias at d. The result is x with, in batch b, the single row r = last(b) (when last(b) names a row) increased by
  upd(b, ·); every other entry of x is kept. The two programs differ only in the order of two factors of upd
  (the trigger mask a(b) and the literal 1), which commute.
-/
import Idealize.ShloMosaic.PureOps.Ideal
import Idealize.ShloMosaic.Lib.ValueIdx

noncomputable section

namespace Cert.GraftSpec

open Idealize.ShloMosaic Idealize.ShloMosaic.ValueIdx

/-- The float literals both programs share, as the extended reals their words denote: 256, ε and 1. -/
def c256 : EReal := Ideal.ofBits .f32 0x43800000#32
def eps : EReal := Ideal.ofBits .f32 0x3727C5AC#32
def unit : EReal := Ideal.ofBits .f32 0x3F800000#32

section
variable (ff : (⟨2, ![4, 256]⟩ : Shape).Idx → EReal) (g be : (⟨1, ![256]⟩ : Shape).Idx → EReal)
  (W : (⟨2, ![4096, 256]⟩ : Shape).Idx → EReal) (bias : (⟨1, ![4096]⟩ : Shape).Idx → EReal)

/-- The mean of feature row `b`. -/
def mean (b : Fin 4) : EReal := Ideal.div (∑ f : Fin 256, ff (ix2 b f)) c256
/-- Feature `f` of row `b`, centred. -/
def centred (b : Fin 4) (f : Fin 256) : EReal := ff (ix2 b f) - mean ff b
/-- The variance of row `b`. -/
def var (b : Fin 4) : EReal := Ideal.div (∑ f : Fin 256, centred ff b f * centred ff b f) c256
/-- The layer norm of row `b` at feature `f`. -/
def normed (b : Fin 4) (f : Fin 256) : EReal :=
  centred ff b f * Ideal.rsqrt (var ff b + eps) * g (ix1 f) + be (ix1 f)
/-- The projection of the normed row `b` on row `d` of `W`, plus the bias. -/
def delta (b : Fin 4) (d : Fin 4096) : EReal := (∑ f : Fin 256, normed ff g be b f * W (ix2 d f)) + bias (ix1 d)
end

/-- `x` with `upd(b, ·)` added into row `last b` of batch `b`, at coordinates `(b, r, d)`. -/
def graftAt (x : (⟨3, ![4, 4096, 4096]⟩ : Shape).Idx → EReal) (upd : (⟨2, ![4, 4096]⟩ : Shape).Idx → EReal) (last : Fin 4 → BitVec 32)
    (b : Fin 4) (r d : Fin 4096) : EReal :=
  x (ix3 b r d) + if (last b).toNat = r.val then upd (ix2 b d) else 0

/-- The two orders of the mask and the unit factor agree: multiplication of extended reals is commutative and
    associative (no finiteness is needed). -/
theorem mul_mask_unit (y a u : EReal) : y * a * u = y * u * a := mul_right_comm y a u

end Cert.GraftSpec

end
-- ==== Proof.KernelIdeal.ScValue.lean ====
/-
  What the second launch leaves in the result array, at the ideal float instance. Point (b, s) of the 4 by 16 grid
  moves the tile of rows 256·s … 256·s + 255 of batch b: the tile of x comes in, the first launch's whole output
  comes in, the word last(b) is read from the table, and the tile written back is the x tile plus, in the one row ρ
  with 256·s + ρ = last(b) (if the tile holds it), row b of the first launch's output. Tile (b, s) of the result
  is therefore the tile of ONE whole-array function — x with upd(b, ·) added into row last(b) of batch b — and the 64
  tiles cover the array.
-/
import proofs.«402860_j88510686036004_2_alg».proof.Proof.KernelIdeal.Region1
import proofs.«402860_j88510686036004_2_alg».proof.Proof.Spec
import Idealize.ShloMosaic.Lib.Pipeline.Value

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx (ix2 ix3 eq_ix2 eq_ix3)

variable (V : (c : Dev nD) → (b : Ref sig .tc) → Buf (Elt Ideal) ((c : Thread nD τ).loc b))
variable (a : (pcfg1 (F := Ideal)).Adm)

/-! ## The index maps in closed form, decided over the grid -/

theorem tileIdx0 : ∀ i : grid1.Coords, cc1_transform_0 i = ![(i 0).val, (i 1).val, 0] := by decide +kernel
theorem tileIdx2 : ∀ i : grid1.Coords, cc1_transform_2 i = ![(i 0).val, (i 1).val, 0] := by decide +kernel
theorem wholeIdx1 : ∀ i : grid1.Coords, cc1_transform_1 i = ![0, 0] := by decide +kernel

/-- Every point writes its tile back, at any contents of the table (the index map reads none). -/
theorem scFlush (t : Fin (cfg1 a).N) : ((cfg1 a).win 2).flush t = true :=
  (by decide +kernel : ∀ t : Fin grid1.N, Pipeline.Window.flushOf grid1 true cc1_transform_2 t = true) t

/-- Every tile is some point's. -/
theorem tileOnto : ∀ (q0 : Fin 4) (q1 : Fin 16), ∃ t : Fin grid1.N, cc1_transform_2 (grid1.coords t) = ![q0.val, q1.val, 0] := by
  decide +kernel

/-! ## The batch and the rows of a point -/

/-- The batch of the point with coordinates `i`, and row `ρ` of its tile as a row of the array. -/
def batchOf (i : grid1.Coords) : Fin 4 := ⟨(i 0).val, (i 0).isLt⟩
def rowOf (i : grid1.Coords) (ρ : Fin 256) : Fin 4096 := ⟨(i 1).val * 256 + ρ.val, by
  have h1 : (i 1).val < 16 := (i 1).isLt
  have := ρ.isLt; omega⟩

/-! ## The blocks at coordinates -/

/-- The x tile of point `t`, at row `ρ` and column `d`. -/
theorem xTile_apply (c : Dev nD) (t : Fin (cfg1 a).N) (ρ : Fin 256) (d : Fin 4096) :
    scBlk V a c 0 t (ix3 (0 : Fin 1) ρ d) = V c main_arg0 (ix3 (batchOf (grid1.coords t)) (rowOf (grid1.coords t) ρ) d) := by
  show V c main_arg0 ((((cfg1 a).win 0).blk t).view.emb (ix3 (0 : Fin 1) ρ d)) = _
  have e0 : ((cfg1 a).win 0).index t (0 : Fin 3) = (grid1.coords t 0).val := congrFun (tileIdx0 (grid1.coords t)) 0
  have e1 : ((cfg1 a).win 0).index t (1 : Fin 3) = (grid1.coords t 1).val := congrFun (tileIdx0 (grid1.coords t)) 1
  have e2 : ((cfg1 a).win 0).index t (2 : Fin 3) = 0 := congrFun (tileIdx0 (grid1.coords t)) 2
  refine congrArg _ (funext fun ax => Fin.ext ?_)
  match ax with
  | ⟨0, _⟩ => show ((cfg1 a).win 0).index t (0 : Fin 3) * 1 + 1 * (0 : Fin 1).val = (grid1.coords t 0).val; rw [e0]; simp
  | ⟨1, _⟩ => show ((cfg1 a).win 0).index t (1 : Fin 3) * 256 + 1 * ρ.val = (grid1.coords t 1).val * 256 + ρ.val; rw [e1]; omega
  | ⟨2, _⟩ => show ((cfg1 a).win 0).index t (2 : Fin 3) * 4096 + 1 * d.val = d.val; rw [e2]; omega

/-- The first launch's output comes in whole. -/
theorem updBlk (c : Dev nD) (t : Fin (cfg1 a).N) : scBlk V a c 1 t = V c main_v15 := by
  refine funext fun (j : S4x4096.Idx) => ?_
  show V c main_v15 ((((cfg1 a).win 1).blk t).view.emb j) = V c main_v15 j
  have e0 : ((cfg1 a).win 1).index t (0 : Fin 2) = 0 := congrFun (wholeIdx1 (grid1.coords t)) 0
  have e1 : ((cfg1 a).win 1).index t (1 : Fin 2) = 0 := congrFun (wholeIdx1 (grid1.coords t)) 1
  refine congrArg _ (funext fun ax => Fin.ext ?_)
  match ax with
  | ⟨0, _⟩ => show ((cfg1 a).win 1).index t (0 : Fin 2) * 4 + 1 * (j 0).val = (j 0).val; rw [e0]; omega
  | ⟨1, _⟩ => show ((cfg1 a).win 1).index t (1 : Fin 2) * 4096 + 1 * (j 1).val = (j 1).val; rw [e1]; omega

/-- The row the body loads is row `b` of the first launch's output, `b` the point's batch. -/
theorem rowLoad_apply (i : grid1.Coords) (x1 : Vec Ideal S4x4096 .f32) (d : Fin 4096) :
    View.ld x1 (rRow i) (ix2 (0 : Fin 1) d) = x1 (ix2 (batchOf i) d) := by
  show x1 ((rRow i).emb (ix2 (0 : Fin 1) d)) = _
  have e0 : k1_off2 i (0 : Fin 2) = (i 0).val := congrFun (k1_off2_eq i) 0
  have e1 : k1_off2 i (1 : Fin 2) = 0 := congrFun (k1_off2_eq i) 1
  refine congrArg _ (funext fun ax => Fin.ext ?_)
  match ax with
  | ⟨0, _⟩ => show k1_off2 i (0 : Fin 2) + 1 * (0 : Fin 1).val = (i 0).val; rw [e0]; simp
  | ⟨1, _⟩ => show k1_off2 i (1 : Fin 2) + 1 * d.val = d.val; rw [e1]; omega

/-- The word the body loads from the table is the table's entry for the point's batch. -/
theorem lastWord_eq (i : grid1.Coords) (c : Dev nD) (xt : TbBuf (F := Ideal) c) :
    lastWord i c xt = xt (ValueIdx.ix1 (batchOf i)) := by
  unfold lastWord
  show xt ((Rect.unit (s := S4) (k1_off1 i) S1.size (k1_off1_inb i)).emb _) = _
  have e0 : k1_off1 i (0 : Fin 1) = (i 0).val := congrFun (k1_off1_eq i) 0
  refine congrArg _ (funext fun ax => Fin.ext ?_)
  match ax with
  | ⟨0, _⟩ => show k1_off1 i (0 : Fin 1) + 1 * 0 = (i 0).val; rw [e0]; omega

/-! ## The grafted array -/

/-- The whole-array function: `x` with `upd(b, ·)` added into row `last b` of batch `b`. -/
def graftFn (x : S4x4096x4096.Idx → EReal) (upd : S4x4096.Idx → EReal) (last : Fin 4 → BitVec 32) : S4x4096x4096.Idx → EReal :=
  fun I => Cert.GraftSpec.graftAt x upd last ⟨(I 0).val, (I 0).isLt⟩ ⟨(I 1).val, (I 1).isLt⟩ ⟨(I 2).val, (I 2).isLt⟩

theorem graftFn_apply (x : S4x4096x4096.Idx → EReal) (upd : S4x4096.Idx → EReal) (last : Fin 4 → BitVec 32) (b : Fin 4) (r d : Fin 4096) :
    graftFn x upd last (ix3 b r d) = Cert.GraftSpec.graftAt x upd last b r d := rfl

/-- The body's payload read at an index: what the value proof of the second kernel's arithmetic provides. -/
abbrev PayloadReads : Prop :=
  ∀ (i : grid1.Coords) (w : BitVec 32) (v10 : Vec Ideal S1x4096 .f32) (v12 : Vec Ideal S1x256x4096 .f32) (ρ : Fin 256) (d : Fin 4096),
    k1_pay1 (F := Ideal) i w v10 v12 (ix3 (0 : Fin 1) ρ d)
      = v12 (ix3 (0 : Fin 1) ρ d) + (if w.toNat = (i 1).val * 256 + ρ.val then (1 : EReal) else 0) * v10 (ix2 (0 : Fin 1) d)

theorem hz3 : (![0, 0, 0] : Fin 3 → Nat) = fun _ => 0 := funext fun a => by fin_cases a <;> rfl

/-- The body's store, read back: its payload of the table word, the loaded row and the x tile. -/
theorem scOut_eq (i : grid1.Coords) (c : Dev nD) (xt : TbBuf (F := Ideal) c) (x0 : Vec Ideal S1x256x4096 .f32) (x1 : Vec Ideal S4x4096 .f32) :
    scOut i c xt x0 x1 = k1_pay1 (F := Ideal) i (lastWord i c xt) (View.ld x1 (rRow i)) x0 := by
  unfold scOut
  rw [View.canon_unit_zero hz3]
  simp only [View.ld_unit_zero (S := S1x256x4096) hz3]

/-- The mask factor times the row entry is the row entry where the word names the row, and nothing elsewhere. -/
theorem mask_mul (w w' : BitVec 32) (hw : w = w') (n : Nat) (y y' : EReal) (hy : y = y') :
    (if w.toNat = n then (1 : EReal) else 0) * y = if w'.toNat = n then y' else 0 := by
  subst hw; subst hy
  split
  · rw [one_mul]
  · rw [zero_mul]

/-- The table's entry for batch `b`. -/
def lastOf (b : Fin 4) : BitVec 32 := (a.1 0) (ValueIdx.ix1 b)

/-- WHAT POINT `t` WRITES BACK is tile `t` of the grafted array. -/
theorem scFlushed (hpay : PayloadReads) (c : Dev nD) (t : Fin (cfg1 a).N) :
    (scDat V a c).flushed 2 t = (((cfg1 a).win 2).blk t).view.read (Elt Ideal)
      (graftFn (V c main_arg0) (V c main_v15) (lastOf a)) := by
  have hafter : (scDat V a c).after 2 t
      = k1_pay1 (F := Ideal) (grid1.coords t) (lastWord (grid1.coords t) c (a.1 0)) (View.ld (V c main_v15) (rRow (grid1.coords t))) (scBlk V a c 0 t) :=
    (scAfter2 V a c t).trans ((scOut_eq _ _ _ _ _).trans
      (congrArg (fun x1 : Vec Ideal S4x4096 .f32 => k1_pay1 (F := Ideal) (grid1.coords t) (lastWord (grid1.coords t) c (a.1 0)) (View.ld x1 (rRow (grid1.coords t))) (scBlk V a c 0 t))
        (updBlk V a c t)))
  refine (congrArg (((cfg1 a).win 2).cut (grid1.coords t)) hafter).trans ?_
  refine funext fun (j : S1x256x4096.Idx) => ?_
  obtain ⟨j0, ρ, d, rfl⟩ : ∃ (j0 : Fin 1) (ρ : Fin 256) (d : Fin 4096), j = ix3 j0 ρ d := ⟨j 0, j 1, j 2, eq_ix3 j⟩
  obtain rfl : j0 = 0 := Subsingleton.elim _ _
  have e0 : ((cfg1 a).win 2).index t (0 : Fin 3) = (grid1.coords t 0).val := congrFun (tileIdx2 (grid1.coords t)) 0
  have e1 : ((cfg1 a).win 2).index t (1 : Fin 3) = (grid1.coords t 1).val := congrFun (tileIdx2 (grid1.coords t)) 1
  have e2 : ((cfg1 a).win 2).index t (2 : Fin 3) = 0 := congrFun (tileIdx2 (grid1.coords t)) 2
  have hemb : (((cfg1 a).win 2).blk t).view.emb (ix3 (0 : Fin 1) ρ d) = ix3 (batchOf (grid1.coords t)) (rowOf (grid1.coords t) ρ) d := by
    refine funext fun ax => Fin.ext ?_
    match ax with
    | ⟨0, _⟩ => show ((cfg1 a).win 2).index t (0 : Fin 3) * 1 + 1 * (0 : Fin 1).val = (grid1.coords t 0).val; rw [e0]; simp
    | ⟨1, _⟩ => show ((cfg1 a).win 2).index t (1 : Fin 3) * 256 + 1 * ρ.val = (grid1.coords t 1).val * 256 + ρ.val; rw [e1]; omega
    | ⟨2, _⟩ => show ((cfg1 a).win 2).index t (2 : Fin 3) * 4096 + 1 * d.val = d.val; rw [e2]; omega
  show k1_pay1 (F := Ideal) (grid1.coords t) (lastWord (grid1.coords t) c (a.1 0)) (View.ld (V c main_v15) (rRow (grid1.coords t))) (scBlk V a c 0 t) (ix3 (0 : Fin 1) ρ d)
    = graftFn (V c main_arg0) (V c main_v15) (lastOf a) ((((cfg1 a).win 2).blk t).view.emb (ix3 (0 : Fin 1) ρ d))
  rw [hemb, graftFn_apply]
  refine (hpay (grid1.coords t) _ _ _ ρ d).trans ?_
  exact congr (congrArg HAdd.hAdd (xTile_apply V a c t ρ d))
    (mask_mul _ _ (lastWord_eq (grid1.coords t) c _) _ _ _ (rowLoad_apply (grid1.coords t) (V c main_v15) d))

/-- An index of the result array is in point `t`'s tile iff each coordinate is in the tile's range on its axis. -/
theorem mem_tile (t : Fin (cfg1 a).N) (I : S4x4096x4096.Idx) :
    I ∈ (((cfg1 a).win 2).blk t).view.set ↔ ∀ ax : Fin 3, ((cfg1 a).win 2).index t ax * S1x256x4096.size ax ≤ (I ax).val
      ∧ (I ax).val < ((cfg1 a).win 2).index t ax * S1x256x4096.size ax + S1x256x4096.size ax := by
  exact (Finset.ext_iff.mp (View.set_slice_whole main_v16 (((cfg1 a).win 2).rect t)) I).trans Rect.mem_set_unit

/-- The 64 tiles cover the result array: index (b, r, d) is in the tile of point (b, r / 256). -/
theorem scCovered (I : S4x4096x4096.Idx) : ∃ t : Fin (cfg1 a).N, ((cfg1 a).win 2).flush t = true ∧ I ∈ (((cfg1 a).win 2).blk t).view.set := by
  have h0 : (I 0).val < 4 := (I 0).isLt
  have h1 : (I 1).val < 4096 := (I 1).isLt
  have h2 : (I 2).val < 4096 := (I 2).isLt
  obtain ⟨t, ht⟩ := tileOnto ⟨(I 0).val, h0⟩ ⟨(I 1).val / 256, by omega⟩
  have q0 : ((cfg1 a).win 2).index t (0 : Fin 3) = (I 0).val := congrFun ht 0
  have q1 : ((cfg1 a).win 2).index t (1 : Fin 3) = (I 1).val / 256 := congrFun ht 1
  have q2 : ((cfg1 a).win 2).index t (2 : Fin 3) = 0 := congrFun ht 2
  refine ⟨t, scFlush a t, ?_⟩
  rw [mem_tile]
  intro ax
  match ax with
  | ⟨0, _⟩ => show ((cfg1 a).win 2).index t (0 : Fin 3) * 1 ≤ (I 0).val ∧ (I 0).val < ((cfg1 a).win 2).index t (0 : Fin 3) * 1 + 1; omega
  | ⟨1, _⟩ => show ((cfg1 a).win 2).index t (1 : Fin 3) * 256 ≤ (I 1).val ∧ (I 1).val < ((cfg1 a).win 2).index t (1 : Fin 3) * 256 + 256; omega
  | ⟨2, _⟩ => show ((cfg1 a).win 2).index t (2 : Fin 3) * 4096 ≤ (I 2).val ∧ (I 2).val < ((cfg1 a).win 2).index t (2 : Fin 3) * 4096 + 4096; omega

/-- THE RESULT ARRAY after the second launch: x as the launch finds it, with row b of the first launch's output added
    into row last(b) of batch b. -/
theorem scFinal (hpay : PayloadReads) (c : Dev nD) : (scDat V a c).arrAt 2 (cfg1 a).N
    = graftFn (V c main_arg0) (V c main_v15) (lastOf a) :=
  (scDat V a c).arrAt_eq_of_cover 2 _ (fun t _ => scFlushed V a hpay c t) (scCovered a)

end Cert.KernelIdeal.Graft

end
-- ==== Proof.KernelIdeal.HostValues.lean ====
/-
  What the host operations before the launches leave in the two buffers the launches read: the trigger mask as a
  [4, 1] float column (batch b has a 1 when some token of row b is 5 or 7, else 0), and the table of last words
  (batch b: max(1, the wrapped 32-bit sum of the attention-mask row) − 1, the max a signed one). Each as the operations'
  composed term of the argument arrays, at any float instance.
-/
import proofs.«402860_j88510686036004_2_alg».proof.Proof.Gen.KernelIdeal.Regions
import Idealize.ShloMosaic.Lib.StableHlo.Run
import Idealize.ShloMosaic.Lib.ValueIdx
import Idealize.ShloMosaic.Lib.Pipeline.Value

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- The trigger bit of each batch: some token of its row equals 5, or some equals 7. -/
def trigBits (x2 : (⟨S4x4096, .i32⟩ : BufTy).Contents (Elt F)) : (⟨S4, .i1⟩ : BufTy).Contents (Elt F) :=
  ori (ori (broadcastInDim S4 ![] bcast_S_S4 (constantI S_ 1 0#1))
      (Host.reduce IntOp.ori (cmpi .eq x2 (broadcastInDim S4x4096 ![] bcast_S_S4x4096 (constantI S_ 32 5#32))) (constantI S_ 1 0#1) reducesTo_S4x4096_S4_d1 h_S_))
    (Host.reduce IntOp.ori (cmpi .eq x2 (broadcastInDim S4x4096 ![] bcast_S_S4x4096 (constantI S_ 32 7#32))) (constantI S_ 1 0#1) reducesTo_S4x4096_S4_d1 h_S_)

/-- The last word of each batch: the signed maximum of 1 and the row's sum, less 1. -/
def lastWords (x3 : (⟨S4x4096, .i32⟩ : BufTy).Contents (Elt F)) : (⟨S4, .i32⟩ : BufTy).Contents (Elt F) :=
  subi (maxsi (broadcastInDim S4 ![] bcast_S_S4 (id (constantI S_ 32 1#32)))
      (Host.reduce IntOp.addi x3 (constantI S_ 32 0#32) reducesTo_S4x4096_S4_d1 h_S_))
    (broadcastInDim S4 ![] bcast_S_S4 (constantI S_ 32 1#32))

/-- The mask column the first launch fetches. -/
theorem maskCol_eq (c : Dev nD) :
    (Gen.V3 m c main_v10 : (⟨S4x1, .f32⟩ : BufTy).Contents (Elt F))
      = broadcastInDim S4x1 ![0] bcast_S4_S4x1_0 (uitofp .f32 (trigBits (F := F) (m ((c : Thread nD τ).loc main_arg2)))) := by
  rw [Gen.V3_of m c main_v10 (by decide), Gen.V2_of m c main_v10 (by decide)]
  show StableHlo.after hostOps0 (Gen.V0 m c) (Proc.devRef .tc main_v10) = _
  after_results
  rfl

/-- The table the second launch prefetches. -/
theorem lastTbl_eq (c : Dev nD) :
    (Gen.V3 m c main_v14 : (⟨S4, .i32⟩ : BufTy).Contents (Elt F)) = lastWords (F := F) (m ((c : Thread nD τ).loc main_arg3)) := by
  -- one stretch at a time, each over an abstract valuation before it
  have h2 : ∀ W : Valuation τ sig (Elt F), StableHlo.after hostOps0_2 W (Proc.devRef .tc main_v14)
      = subi (W (Proc.devRef .tc main_v12) : (⟨S4, .i32⟩ : BufTy).Contents (Elt F)) (broadcastInDim S4 ![] bcast_S_S4 (constantI S_ 32 1#32)) := by
    intro W; after_results <;> rfl
  have h1 : ∀ W : Valuation τ sig (Elt F), StableHlo.after hostOps0_1 W (Proc.devRef .tc main_v12)
      = maxsi (broadcastInDim S4 ![] bcast_S_S4 (id (W (Proc.devRef .tc main_c_5) : (⟨S_, .i32⟩ : BufTy).Contents (Elt F))))
          (W (Proc.devRef .tc main_v11) : (⟨S4, .i32⟩ : BufTy).Contents (Elt F)) := by
    intro W; after_results <;> (try simp only [TRef.ofBuf, TRef.toBuf, cast_eq]) <;> rfl
  have h0a : StableHlo.after hostOps0 (Gen.V0 m c) (Proc.devRef .tc main_c_5) = (constantI S_ 32 1#32 : (⟨S_, .i32⟩ : BufTy).Contents (Elt F)) := by
    after_results <;> rfl
  have h0b : StableHlo.after hostOps0 (Gen.V0 m c) (Proc.devRef .tc main_v11)
      = (Host.reduce IntOp.addi (m ((c : Thread nD τ).loc main_arg3)) (constantI S_ 32 0#32) reducesTo_S4x4096_S4_d1 h_S_ : (⟨S4, .i32⟩ : BufTy).Contents (Elt F)) := by
    after_results <;> rfl
  show StableHlo.after hostOps0_2 (StableHlo.after hostOps0_1 (StableHlo.after hostOps0 (Gen.V0 m c))) (Proc.devRef .tc main_v14) = _
  rw [h2, h1, h0a, h0b]
  rfl

/-- The arguments reach the launches as launched. -/
theorem V3_arg (c : Dev nD) (r : Ref sig .tc) (h0 : r ∉ hostOps0_W) (h1 : r ∉ hostOps0_1_W) (h2 : r ∉ hostOps0_2_W) :
    Gen.V3 m c r = m ((c : Thread nD τ).loc r) :=
  (Gen.V3_of m c r h2).trans ((Gen.V2_of m c r h1).trans ((Gen.V1_of m c r h0).trans rfl))

end Cert.KernelIdeal.Graft

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LnPayload.lean ====
/-
  The first kernel's payload, read at one index of its [4, 4096] result, at the exact (extended-real) values.

  Row b of the [4, 256] features is centred by its mean and scaled by rsqrt(variance + ε), then by γ and shifted by β;
  the normed row is projected on row d of W; the bias at d is added; the sum is multiplied by the mask entry of row b and
  by the literal 1. Each stage of the payload is named here as a vector expression, read at an index given by
  coordinates, and identified with the specification's function of the same name; the payload is the last stage.
-/
import proofs.«402860_j88510686036004_2_alg».proof.Proof.Gen.KernelIdeal.Skeleton
import proofs.«402860_j88510686036004_2_alg».proof.Proof.Spec
import proofs.«402860_j88510686036004_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Graft

open Idealize.ShloMosaic Idealize.ShloMosaic.ValueIdx Cert.KernelIdeal Cert.KernelIdeal.Gen

/-! ## Layout steps at coordinates -/

/-- The sum along the 256 lanes of a [4, 256] vector, cast to the [4, 1] column, reads at (b, u) the sum of row b:
    the index over (b) with lane k inserted is (b, k). -/
theorem rowSum_apply (x : FVec Ideal S4x256 .f32) (b : Fin 4) (u : Fin 1) :
    shapeCast S4x1 (multiReduction (F := Ideal) .add [1] S4 x 0x00000000#32 reduces_S4x256_S4 (.inl rfl) rfl)
        shapeCasts_S4_S4x1 (ix2 b u)
      = ∑ f : Fin 256, x (ix2 b f) := by
  refine (shapeCast_a_a1_apply _ shapeCasts_S4_S4x1 b u).trans ?_
  refine (Ideal.multiReduction_add_single x 0x00000000#32 reduces_S4x256_S4 (.inl rfl) rfl (ValueIdx.ix1 b)).trans ?_
  refine Finset.sum_congr rfl fun k _ => congrArg x (funext fun a => Fin.ext ?_)
  match a with
  | ⟨0, _⟩ => rfl
  | ⟨1, _⟩ => rfl

/-- A [256] vector laid along every row of [4, 256] reads at (b, f) its entry f. -/
theorem rowBroadcast256_apply (g : FVec Ideal S256 .f32) (b : Fin 4) (f : Fin 256) :
    broadcastTo S4x256 (shapeCast S1x256 g shapeCasts_S256_S1x256) broadcasts_S1x256_S4x256 (ix2 b f)
      = g (ValueIdx.ix1 f) :=
  (broadcastTo_1b_ab_apply _ broadcasts_S1x256_S4x256 b f).trans (shapeCast_a_1a_apply g shapeCasts_S256_S1x256 0 f)

/-- A [4096] vector laid along every row of [4, 4096] reads at (b, d) its entry d. -/
theorem rowBroadcast4096_apply (v : FVec Ideal S4096 .f32) (b : Fin 4) (d : Fin 4096) :
    broadcastTo S4x4096 (shapeCast S1x4096 v shapeCasts_S4096_S1x4096) broadcasts_S1x4096_S4x4096 (ix2 b d)
      = v (ValueIdx.ix1 d) :=
  (broadcastTo_1b_ab_apply _ broadcasts_S1x4096_S4x4096 b d).trans (shapeCast_a_1a_apply v shapeCasts_S4096_S1x4096 0 d)

/-! ## The stages of the layer norm -/

/-- The mean of each row, as a [4, 1] column: the row sum divided by the literal 256. -/
def meanCol (ff : FVec Ideal S4x256 .f32) : FVec Ideal S4x1 .f32 :=
  divf (shapeCast S4x1 (multiReduction .add [1] S4 ff 0x00000000#32 reduces_S4x256_S4 (.inl rfl) rfl) shapeCasts_S4_S4x1)
    (broadcast S4x1 (Scalar.ofBits .f32 0x43800000#32))

theorem meanCol_apply (ff : FVec Ideal S4x256 .f32) (b : Fin 4) (u : Fin 1) :
    meanCol ff (ix2 b u) = Cert.GraftSpec.mean ff b :=
  congrArg (fun s => Ideal.div s Cert.GraftSpec.c256) (rowSum_apply ff b u)

/-- The features with their row's mean taken off. -/
def cen (ff : FVec Ideal S4x256 .f32) : FVec Ideal S4x256 .f32 :=
  subf ff (broadcastTo S4x256 (meanCol ff) broadcasts_S4x1_S4x256)

theorem cen_apply (ff : FVec Ideal S4x256 .f32) (b : Fin 4) (f : Fin 256) :
    cen ff (ix2 b f) = Cert.GraftSpec.centred ff b f :=
  congrArg (fun m => ff (ix2 b f) - m)
    ((broadcastTo_a1_ab_apply (meanCol ff) broadcasts_S4x1_S4x256 b f).trans (meanCol_apply ff b 0))

/-- The variance of each row, as a [4, 1] column: the row sum of the squared centred features divided by 256. -/
def varCol (ff : FVec Ideal S4x256 .f32) : FVec Ideal S4x1 .f32 :=
  divf (shapeCast S4x1 (multiReduction .add [1] S4 (mulf (cen ff) (cen ff)) 0x00000000#32 reduces_S4x256_S4 (.inl rfl) rfl)
      shapeCasts_S4_S4x1)
    (broadcast S4x1 (Scalar.ofBits .f32 0x43800000#32))

theorem varCol_apply (ff : FVec Ideal S4x256 .f32) (b : Fin 4) (u : Fin 1) :
    varCol ff (ix2 b u) = Cert.GraftSpec.var ff b := by
  refine (congrArg (fun s => Ideal.div s Cert.GraftSpec.c256) (rowSum_apply (mulf (cen ff) (cen ff)) b u)).trans ?_
  refine congrArg (fun s => Ideal.div s Cert.GraftSpec.c256) (Finset.sum_congr rfl fun f _ => ?_)
  show cen ff (ix2 b f) * cen ff (ix2 b f) = _
  rw [cen_apply]

/-- The scale of each row, rsqrt(variance + ε), as a [4, 1] column. -/
def scaleCol (ff : FVec Ideal S4x256 .f32) : FVec Ideal S4x1 .f32 :=
  rsqrt (addf (varCol ff) (broadcast S4x1 (Scalar.ofBits .f32 0x3727C5AC#32)))

theorem scaleCol_apply (ff : FVec Ideal S4x256 .f32) (b : Fin 4) (u : Fin 1) :
    scaleCol ff (ix2 b u) = Ideal.rsqrt (Cert.GraftSpec.var ff b + Cert.GraftSpec.eps) :=
  congrArg (fun v => Ideal.rsqrt (v + Cert.GraftSpec.eps)) (varCol_apply ff b u)

/-- The layer-normed rows: centred, scaled, times γ, plus β. -/
def lnRows (ff : FVec Ideal S4x256 .f32) (g be : FVec Ideal S256 .f32) : FVec Ideal S4x256 .f32 :=
  addf
    (mulf (mulf (cen ff) (broadcastTo S4x256 (scaleCol ff) broadcasts_S4x1_S4x256))
      (broadcastTo S4x256 (shapeCast S1x256 g shapeCasts_S256_S1x256) broadcasts_S1x256_S4x256))
    (broadcastTo S4x256 (shapeCast S1x256 be shapeCasts_S256_S1x256) broadcasts_S1x256_S4x256)

theorem lnRows_apply (ff : FVec Ideal S4x256 .f32) (g be : FVec Ideal S256 .f32) (b : Fin 4) (f : Fin 256) :
    lnRows ff g be (ix2 b f) = Cert.GraftSpec.normed ff g be b f := by
  have e : lnRows ff g be (ix2 b f)
      = cen ff (ix2 b f) * broadcastTo S4x256 (scaleCol ff) broadcasts_S4x1_S4x256 (ix2 b f)
          * broadcastTo S4x256 (shapeCast S1x256 g shapeCasts_S256_S1x256) broadcasts_S1x256_S4x256 (ix2 b f)
        + broadcastTo S4x256 (shapeCast S1x256 be shapeCasts_S256_S1x256) broadcasts_S1x256_S4x256 (ix2 b f) := rfl
  rw [e, cen_apply, broadcastTo_a1_ab_apply, scaleCol_apply, rowBroadcast256_apply, rowBroadcast256_apply]
  rfl

/-! ## The projection on the rows of W -/

/-- Left operand, axis 0: the output's row. -/
theorem lhs_proj_0 (i : S4x4096.Idx) (q : dot_S4x256_S4096x256_S4x4096_1_1_0_0_n_n.contr.Idx) : (dot_S4x256_S4096x256_S4x4096_1_1_0_0_n_n.lhsIdx i q 0).val = (i 0).val := by
  unfold DotDims.lhsIdx
  rw [dif_neg (show ¬(0 : Fin S4x256.rank) ∈ dot_S4x256_S4096x256_S4x4096_1_1_0_0_n_n.lhsBatch by decide),
    dif_pos (show (0 : Fin S4x256.rank) ∈ dot_S4x256_S4096x256_S4x4096_1_1_0_0_n_n.lhsNonContracting by decide)]
  rfl
/-- Left operand, axis 1: the contracted coordinate. -/
theorem lhs_proj_1 (i : S4x4096.Idx) (q : dot_S4x256_S4096x256_S4x4096_1_1_0_0_n_n.contr.Idx) : (dot_S4x256_S4096x256_S4x4096_1_1_0_0_n_n.lhsIdx i q 1).val = (q ⟨0, by decide⟩).val :=
  dot_S4x256_S4096x256_S4x4096_1_1_0_0_n_n.lhsIdx_val_of_single rfl i q
/-- Right operand, axis 0: the output's column. -/
theorem rhs_proj_0 (i : S4x4096.Idx) (q : dot_S4x256_S4096x256_S4x4096_1_1_0_0_n_n.contr.Idx) : (dot_S4x256_S4096x256_S4x4096_1_1_0_0_n_n.rhsIdx i q 0).val = (i 1).val := by
  unfold DotDims.rhsIdx
  rw [dif_neg (show ¬(0 : Fin S4096x256.rank) ∈ dot_S4x256_S4096x256_S4x4096_1_1_0_0_n_n.rhsBatch by decide),
    dif_pos (show (0 : Fin S4096x256.rank) ∈ dot_S4x256_S4096x256_S4x4096_1_1_0_0_n_n.rhsNonContracting by decide)]
  rfl
/-- Right operand, axis 1: the contracted coordinate. -/
theorem rhs_proj_1 (i : S4x4096.Idx) (q : dot_S4x256_S4096x256_S4x4096_1_1_0_0_n_n.contr.Idx) : (dot_S4x256_S4096x256_S4x4096_1_1_0_0_n_n.rhsIdx i q 1).val = (q ⟨0, by decide⟩).val :=
  dot_S4x256_S4096x256_S4x4096_1_1_0_0_n_n.rhsIdx_val_of_single rfl i q

/-- The normed rows against the rows of W, contracted over the 256 features, into the zero splat. -/
def proj (ff : FVec Ideal S4x256 .f32) (g be : FVec Ideal S256 .f32) (W : FVec Ideal S4096x256 .f32) : FVec Ideal S4x4096 .f32 :=
  matmul dot_S4x256_S4096x256_S4x4096_1_1_0_0_n_n none (truncf .bf16 (lnRows ff g be) bitsLt_bf16_f32)
    (truncf .bf16 W bitsLt_bf16_f32) (constant S4x4096 .f32 0x00000000#32)

theorem proj_apply (ff : FVec Ideal S4x256 .f32) (g be : FVec Ideal S256 .f32) (W : FVec Ideal S4096x256 .f32)
    (b : Fin 4) (d : Fin 4096) :
    proj ff g be W (ix2 b d) = ∑ f : Fin 256, Cert.GraftSpec.normed ff g be b f * W (ix2 d f) := by
  refine (Ideal.matmul_constant_zero_apply dot_S4x256_S4096x256_S4x4096_1_1_0_0_n_n none
    (truncf .bf16 (lnRows ff g be) bitsLt_bf16_f32) (truncf .bf16 W bitsLt_bf16_f32) (ix2 b d)).trans ?_
  rw [← Equiv.sum_comp (ValueIdx.contrEquiv1 dot_S4x256_S4096x256_S4x4096_1_1_0_0_n_n 256 rfl rfl).symm]
  refine Finset.sum_congr rfl fun k _ => ?_
  have hk := ValueIdx.contrEquiv1_symm_val dot_S4x256_S4096x256_S4x4096_1_1_0_0_n_n 256 rfl rfl k
  have el : dot_S4x256_S4096x256_S4x4096_1_1_0_0_n_n.lhsIdx (ix2 b d) ((ValueIdx.contrEquiv1 dot_S4x256_S4096x256_S4x4096_1_1_0_0_n_n 256 rfl rfl).symm k) = ix2 b k :=
    funext fun a => Fin.ext (by
      match a with
      | ⟨0, _⟩ => exact lhs_proj_0 _ _
      | ⟨1, _⟩ => exact (lhs_proj_1 _ _).trans hk)
  have er : dot_S4x256_S4096x256_S4x4096_1_1_0_0_n_n.rhsIdx (ix2 b d) ((ValueIdx.contrEquiv1 dot_S4x256_S4096x256_S4x4096_1_1_0_0_n_n 256 rfl rfl).symm k) = ix2 d k :=
    funext fun a => Fin.ext (by
      match a with
      | ⟨0, _⟩ => exact rhs_proj_0 _ _
      | ⟨1, _⟩ => exact (rhs_proj_1 _ _).trans hk)
  rw [el, er]
  show lnRows ff g be (ix2 b k) * W (ix2 d k) = _
  rw [lnRows_apply]

/-! ## The payload -/

/-- The payload is the projection plus the bias along rows, times the mask column along columns, times the literal 1. -/
theorem k0_pay1_eq (ff : FVec Ideal S4x256 .f32) (g be : FVec Ideal S256 .f32) (W : FVec Ideal S4096x256 .f32)
    (bias : FVec Ideal S4096 .f32) (af : FVec Ideal S4x1 .f32) :
    k0_pay1 (F := Ideal) ff g be W bias af
      = mulf
          (mulf
            (addf (proj ff g be W)
              (broadcastTo S4x4096 (shapeCast S1x4096 bias shapeCasts_S4096_S1x4096) broadcasts_S1x4096_S4x4096))
            (broadcastTo S4x4096 (shapeCast S4x1 af shapeCasts_S4x1_S4x1) broadcasts_S4x1_S4x4096))
          (broadcast S4x4096 (Scalar.ofBits .f32 0x3F800000#32)) := rfl

/-- THE PAYLOAD AT (b, d): the specification's delta at (b, d), times the mask entry of row b, times the literal 1. -/
theorem lnPayload_apply (ff : Vec Ideal S4x256 .f32) (g be : Vec Ideal S256 .f32) (W : Vec Ideal S4096x256 .f32)
    (bias : Vec Ideal S4096 .f32) (af : Vec Ideal S4x1 .f32) (b : Fin 4) (d : Fin 4096) :
    k0_pay1 (F := Ideal) ff g be W bias af (ix2 b d)
      = Cert.GraftSpec.delta ff g be W bias b d * af (ix2 b (0 : Fin 1)) * Cert.GraftSpec.unit := by
  have e : k0_pay1 (F := Ideal) ff g be W bias af (ix2 b d)
      = (proj ff g be W (ix2 b d)
            + broadcastTo S4x4096 (shapeCast S1x4096 bias shapeCasts_S4096_S1x4096) broadcasts_S1x4096_S4x4096 (ix2 b d))
          * broadcastTo S4x4096 (shapeCast S4x1 af shapeCasts_S4x1_S4x1) broadcasts_S4x1_S4x4096 (ix2 b d)
          * Cert.GraftSpec.unit := congrFun (k0_pay1_eq ff g be W bias af) (ix2 b d)
  rw [e, proj_apply, rowBroadcast4096_apply, broadcastTo_a1_ab_apply, shapeCast_self]
  rfl

end Cert.KernelIdeal.Graft

end
-- ==== Proof.ScPayload.lean ====
/-
  The value, at the ideal floats, of the scatter kernel's payload at an index.

  The kernel's block is a [1, 256, 4096] tile of x; the kernel reads a 32-bit word w (the row to update) and a
  [1, 4096] row r. It forms the 0/1 column mask m(ρ) = [ρ = w − 256·c] (c the second grid coordinate, the compare in
  32-bit words), and stores x(0, ρ, d) + m(ρ) · r(0, d). Below 2³² the word compare is the compare of numbers:
  ρ < 256 and c < 16 give 256·c + ρ < 4096, so ρ = w − 256·c as words exactly when w = 256·c + ρ as numbers.

  The layout steps (a leading unit axis added or dropped, a row broadcast down the rows, a column broadcast along the
  rows) are each read at an index given by coordinates: the source index is the one with the same row-major position (for a
  broadcast, the one with 0 on the unit axis).
-/
import proofs.«402860_j88510686036004_2_alg».proof.Proof.Gen.KernelIdeal.Skeleton
import proofs.«402860_j88510686036004_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

namespace Cert.KernelIdeal.Graft

open Idealize.ShloMosaic Idealize.ShloMosaic.ValueIdx Cert.KernelIdeal Cert.KernelIdeal.Gen

/-- The mask's compare, in numbers: for ρ < 256 and c < 16, the 32-bit words ρ and w − 256·c are equal exactly when
    w is the number 256·c + ρ (which is below 4096, far below 2³²). -/
theorem ofNat_eq_sub_iff (w : BitVec 32) {c ρ : ℕ} (hc : c < 16) (hρ : ρ < 256) :
    BitVec.ofNat 32 ρ = w - BitVec.ofNat 32 c * 256#32 ↔ w.toNat = c * 256 + ρ := by
  have hw := w.isLt
  constructor
  · intro he
    have ht := congrArg BitVec.toNat he
    rw [BitVec.toNat_sub, BitVec.toNat_mul, BitVec.toNat_ofNat, BitVec.toNat_ofNat, BitVec.toNat_ofNat] at ht
    norm_num at ht
    omega
  · intro he
    apply BitVec.eq_of_toNat_eq
    rw [BitVec.toNat_sub, BitVec.toNat_mul, BitVec.toNat_ofNat, BitVec.toNat_ofNat, BitVec.toNat_ofNat]
    norm_num
    omega

/-- A compare for equality, widened to a word and converted signed, is the real 1 where the words are equal and 0
    where they are not. -/
theorem sitofp_extui_cmpi_eq (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · rw [if_pos h, StableHlo.Predicate.cmpi_eq_iff.2 h]
    have : ((1#1 : BitVec 1).setWidth 32).toInt = 1 := by decide
    rw [this]; norm_num
  · have h0 : IntOp.cmpi .eq x y = 0#1 := eq_zero_of_ne_one fun h1 => h (StableHlo.Predicate.cmpi_eq_iff.1 h1)
    rw [if_neg h, h0]
    have : ((0#1 : BitVec 1).setWidth 32).toInt = 0 := by decide
    rw [this]; norm_num

/-- The column mask at row ρ: 1 where w is the number 256·c + ρ, 0 elsewhere. -/
theorem scMask_apply (i : grid1.Coords) (w : BitVec 32) (ρ : Fin 256) (u : Fin 1) :
    (sitofp .f32 (extui 32 (cmpi .eq (iota .tc S256x1 32 [0] iota_S256x1_d0_w32)
        (broadcast S256x1 (Scalar.subi w (Scalar.muli (BitVec.ofNat 32 (i 1).val) 256#32)))) natLt_1_32)
      : FVec Ideal S256x1 .f32) (ix2 ρ u)
      = if w.toNat = (i 1).val * 256 + ρ.val then (1 : EReal) else 0 := by
  rw [sitofp_apply, extui_apply]
  show (FloatOps.sitofp (F := Ideal) .f32 ((IntOp.cmpi .eq (iota .tc S256x1 32 [0] iota_S256x1_d0_w32 (ix2 ρ u))
      (w - BitVec.ofNat 32 (i 1).val * 256#32)).setWidth 32) : EReal) = _
  rw [iota_single_apply, sitofp_extui_cmpi_eq]
  have hc : (i 1).val < 16 := (i 1).isLt
  show (if BitVec.ofNat 32 ρ.val = w - BitVec.ofNat 32 (i 1).val * 256#32 then (1 : EReal) else 0) = _
  exact if_congr (ofNat_eq_sub_iff w hc ρ.isLt) rfl rfl

/-- The scatter kernel's payload at (0, ρ, d): the x tile's entry plus the mask at ρ times the row's entry at d. -/
theorem scPayload_apply (i : grid1.Coords) (w : BitVec 32) (v10 : Vec Ideal S1x4096 .f32) (v12 : Vec Ideal S1x256x4096 .f32)
    (ρ : Fin 256) (d : Fin 4096) :
    k1_pay1 (F := Ideal) i w v10 v12 (ix3 (0 : Fin 1) ρ d)
      = v12 (ix3 (0 : Fin 1) ρ d) + (if w.toNat = (i 1).val * 256 + ρ.val then (1 : EReal) else 0) * v10 (ix2 (0 : Fin 1) d) := by
  unfold k1_pay1
  refine (shapeCast_ab_1ab_apply _ _ (0 : Fin 1) ρ d).trans ?_
  refine (addf_apply _ _ _).trans ?_
  refine congrArg₂ (· + ·) (shapeCast_1ab_ab_apply _ _ ρ d) ?_
  refine (mulf_apply _ _ _).trans ?_
  refine congrArg₂ (· * ·) ((broadcastTo_a1_ab_apply _ _ ρ d).trans (scMask_apply i w ρ 0)) ?_
  refine (broadcastTo_1b_ab_apply _ _ ρ d).trans ?_
  refine (shapeCast_a_1a_apply _ _ (0 : Fin 1) d).trans ?_
  exact shapeCast_1a_a_apply _ _ d

end Cert.KernelIdeal.Graft
-- ==== Proof.KernelIdeal.Result.lean ====
/-
  The idealized kernel's result, named: x as launched, with delta(b, ·) · a(b) · 1 added into row last(b) of batch b,
  where delta is the layer-normed projection of the specification, a(b) the trigger bit of batch b as a float and
  last(b) the host's last word. Assembled from: the run with the result array at what the second pipeline leaves; the
  second launch's tiles (the grafted array over the first launch's output and the table); the first launch's one block
  (its payload of the whole arrays); the payloads read at an index; the host values.
-/
import proofs.«402860_j88510686036004_2_alg».proof.Proof.KernelIdeal.ValueRun
import proofs.«402860_j88510686036004_2_alg».proof.Proof.KernelIdeal.LnValue
import proofs.«402860_j88510686036004_2_alg».proof.Proof.KernelIdeal.ScValue
import proofs.«402860_j88510686036004_2_alg».proof.Proof.KernelIdeal.HostValues
import proofs.«402860_j88510686036004_2_alg».proof.Proof.LnPayload
import proofs.«402860_j88510686036004_2_alg».proof.Proof.ScPayload

set_option maxRecDepth 16384

noncomputable section

namespace Cert.KernelIdeal.Graft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx (ix2 ix3 eq_ix2 eq_ix3)

variable (m : (ℓ : Loc nD τ sig) → Buf (Elt Ideal) ℓ)

/-- The kernel's result array on core `c`. -/
def kResult (c : Dev nD) : S4x4096x4096.Idx → EReal :=
  graftFn (U4 m c main_arg0) (U4 m c main_v15) (lastOf (adm1 m))

/-- The run of the idealized kernel: its result array ends at `kResult`, its arguments as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v16) = kResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (scFinal (U4 m) (adm1 m) scPayload_apply c), (h c).2⟩) (result_run m ρ)

/-- x reaches the second launch as launched. -/
theorem kx_eq (c : Dev nD) : U4 m c main_arg0 = m ((c : Thread nD τ).loc main_arg0) :=
  (Gen.V4_of m (outs4 m) c main_arg0 (by decide)).trans (V3_arg m c main_arg0 (by decide) (by decide) (by decide))

/-- The mask column at (b, 0) is the float of batch b's trigger bit. -/
theorem maskCol_apply (c : Dev nD) (b : Fin 4) :
    (Gen.V3 m c main_v10 : (⟨S4x1, .f32⟩ : BufTy).Contents (Elt Ideal)) (ix2 b (0 : Fin 1))
      = (uitofp (F := Ideal) .f32 (trigBits (F := Ideal) (m ((c : Thread nD τ).loc main_arg2))) : FVec Ideal S4 .f32) (ValueIdx.ix1 b) := by
  rw [maskCol_eq]
  generalize (uitofp (F := Ideal) .f32 (trigBits (F := Ideal) (m ((c : Thread nD τ).loc main_arg2))) : FVec Ideal S4 .f32) = y
  exact broadcastInDim_apply _ bcast_S4_S4x1_0 y (ix2 b (0 : Fin 1)) (ValueIdx.ix1 b) (fun a => match a with
    | ⟨0, _⟩ => by show b.val = if (4 : Nat) = 1 then 0 else b.val; rw [if_neg (by decide)])

/-- The first launch's output at (b, d): delta(b, d) times the trigger bit's float times the literal 1. -/
theorem kupd_apply (c : Dev nD) (b : Fin 4) (d : Fin 4096) :
    U4 m c main_v15 (ix2 b d)
      = Cert.GraftSpec.delta (m ((c : Thread nD τ).loc main_arg1)) (m ((c : Thread nD τ).loc main_arg4)) (m ((c : Thread nD τ).loc main_arg5))
          (m ((c : Thread nD τ).loc main_arg6)) (m ((c : Thread nD τ).loc main_arg7)) b d
        * (uitofp (F := Ideal) .f32 (trigBits (F := Ideal) (m ((c : Thread nD τ).loc main_arg2))) : FVec Ideal S4 .f32) (ValueIdx.ix1 b)
        * Cert.GraftSpec.unit := by
  have h15 : U4 m c main_v15 = k0_pay1 (F := Ideal) (U3 m c main_arg1) (U3 m c main_arg4) (U3 m c main_arg5) (U3 m c main_arg6) (U3 m c main_arg7) (U3 m c main_v10) :=
    (V4_v15 m c).trans (lnFinal (U3 m) c)
  rw [h15, lnPayload_apply, ← maskCol_apply m c b]
  rw [show U3 m c main_arg1 = m ((c : Thread nD τ).loc main_arg1) from V3_arg m c main_arg1 (by decide) (by decide) (by decide),
    show U3 m c main_arg4 = m ((c : Thread nD τ).loc main_arg4) from V3_arg m c main_arg4 (by decide) (by decide) (by decide),
    show U3 m c main_arg5 = m ((c : Thread nD τ).loc main_arg5) from V3_arg m c main_arg5 (by decide) (by decide) (by decide),
    show U3 m c main_arg6 = m ((c : Thread nD τ).loc main_arg6) from V3_arg m c main_arg6 (by decide) (by decide) (by decide),
    show U3 m c main_arg7 = m ((c : Thread nD τ).loc main_arg7) from V3_arg m c main_arg7 (by decide) (by decide) (by decide)]

/-- The table's entry for batch b is the host's last word of batch b. -/
theorem klast_eq (c : Dev nD) (b : Fin 4) :
    lastOf (adm1 m) b = lastWords (F := Ideal) (m ((c : Thread nD τ).loc main_arg3)) (ValueIdx.ix1 b) := by
  obtain rfl : c = 0 := Subsingleton.elim _ _
  show Gen.V4 m (outs4 m) (0 : Dev nD) main_v14 (ValueIdx.ix1 b) = _
  rw [Gen.V4_of m (outs4 m) (0 : Dev nD) main_v14 (by decide), lastTbl_eq]

end Cert.KernelIdeal.Graft

end
-- ==== Proof.RefUpdate.lean ====
/-
  The reference's update array read at an index, against the specification.
  At the extended reals the reference's layer norm of the feature rows (mean and variance as plain sums divided by
  256, the reciprocal square root of variance + ε, the scale γ and the shift β), its inner product with the rows of W
  plus the bias, the factor 1 and the trigger mask of the batch are, entry by entry, the specification's
  delta(b, d) · 1 · mask(b).
-/
import proofs.«402860_j88510686036004_2_alg».proof.Proof.RefRead
import proofs.«402860_j88510686036004_2_alg».proof.Proof.Spec
import Idealize.ShloMosaic.Lib.ValueIdx
import Idealize.ShloMosaic.Lib.Pipeline.Value
import Idealize.ShloMosaic.PureOps.Ideal.Laws

noncomputable section

namespace Cert.ReferenceIdeal.Graft

open Idealize.ShloMosaic Idealize.ShloMosaic.ValueIdx Cert.ReferenceIdeal Cert.ReferenceIdeal.Gen Cert.ReferenceIdeal.ReadP

variable (x1 : (⟨S4x256, .f32⟩ : BufTy).Contents (Elt Ideal)) (x2 : (⟨S4x4096, .i32⟩ : BufTy).Contents (Elt Ideal))
  (x4 x5 : (⟨S256, .f32⟩ : BufTy).Contents (Elt Ideal)) (x6 : (⟨S4096x256, .f32⟩ : BufTy).Contents (Elt Ideal))
  (x7 : (⟨S4096, .f32⟩ : BufTy).Contents (Elt Ideal))

/-! ## The composed index functions are the coordinates themselves -/

private theorem idx_v1 (b : Fin 4) : idx_main_v1 (ix2 b (0 : Fin 1)) = ix1 b :=
  funext fun a => Fin.ext (by match a with | ⟨0, _⟩ => rfl)
private theorem idx_v0 (b : Fin 4) (k : Fin 256) : idx_main_v0 (ix1 b) k = ix2 b k :=
  funext fun a => Fin.ext (by match a with | ⟨0, _⟩ => rfl | ⟨1, _⟩ => rfl)
private theorem idx_v4 (b : Fin 4) (f : Fin 256) : idx_main_v4 (ix2 b f) = ix2 b (0 : Fin 1) :=
  funext fun a => Fin.ext (by match a with | ⟨0, _⟩ => rfl | ⟨1, _⟩ => rfl)
private theorem idx_v8 (b : Fin 4) : idx_main_v8 (ix2 b (0 : Fin 1)) = ix1 b :=
  funext fun a => Fin.ext (by match a with | ⟨0, _⟩ => rfl)
private theorem idx_v7 (b : Fin 4) (k : Fin 256) : idx_main_v7 (ix1 b) k = ix2 b k :=
  funext fun a => Fin.ext (by match a with | ⟨0, _⟩ => rfl | ⟨1, _⟩ => rfl)
private theorem idx_v11 (b : Fin 4) (f : Fin 256) : idx_main_v11 (ix2 b f) = ix2 b (0 : Fin 1) :=
  funext fun a => Fin.ext (by match a with | ⟨0, _⟩ => rfl | ⟨1, _⟩ => rfl)
private theorem idx_v16 (b : Fin 4) (f : Fin 256) : idx_main_v16 (ix2 b f) = ix2 b (0 : Fin 1) :=
  funext fun a => Fin.ext (by match a with | ⟨0, _⟩ => rfl | ⟨1, _⟩ => rfl)
private theorem idx_v19 (b : Fin 4) (f : Fin 256) : idx_main_v19 (ix2 b f) = ix2 (0 : Fin 1) f :=
  funext fun a => Fin.ext (by match a with | ⟨0, _⟩ => rfl | ⟨1, _⟩ => rfl)
private theorem idx_v18 (f : Fin 256) : idx_main_v18 (ix2 (0 : Fin 1) f) = ix1 f :=
  funext fun a => Fin.ext (by match a with | ⟨0, _⟩ => rfl)
private theorem idx_v22 (b : Fin 4) (f : Fin 256) : idx_main_v22 (ix2 b f) = ix2 (0 : Fin 1) f :=
  funext fun a => Fin.ext (by match a with | ⟨0, _⟩ => rfl | ⟨1, _⟩ => rfl)
private theorem idx_v21 (f : Fin 256) : idx_main_v21 (ix2 (0 : Fin 1) f) = ix1 f :=
  funext fun a => Fin.ext (by match a with | ⟨0, _⟩ => rfl)
private theorem lidx_v24 (b : Fin 4) (d : Fin 4096) (k : Fin 256) : lidx_main_v24 (ix2 b d) k = ix2 b k :=
  funext fun a => Fin.ext (by match a with | ⟨0, _⟩ => rfl | ⟨1, _⟩ => rfl)
private theorem ridx_v24 (b : Fin 4) (d : Fin 4096) (k : Fin 256) : ridx_main_v24 (ix2 b d) k = ix2 d k :=
  funext fun a => Fin.ext (by match a with | ⟨0, _⟩ => rfl | ⟨1, _⟩ => rfl)
private theorem idx_v26 (b : Fin 4) (d : Fin 4096) : idx_main_v26 (ix2 b d) = ix2 (0 : Fin 1) d :=
  funext fun a => Fin.ext (by match a with | ⟨0, _⟩ => rfl | ⟨1, _⟩ => rfl)
private theorem idx_v25 (d : Fin 4096) : idx_main_v25 (ix2 (0 : Fin 1) d) = ix1 d :=
  funext fun a => Fin.ext (by match a with | ⟨0, _⟩ => rfl)
private theorem idx_v46 (b : Fin 4) (d : Fin 4096) : idx_main_v46 (ix2 b d) = ix2 b (0 : Fin 1) :=
  funext fun a => Fin.ext (by match a with | ⟨0, _⟩ => rfl | ⟨1, _⟩ => rfl)
private theorem idx_v44 (b : Fin 4) : idx_main_v44 (ix2 b (0 : Fin 1)) = ix1 b :=
  funext fun a => Fin.ext (by match a with | ⟨0, _⟩ => rfl)

/-! ## The layer norm, one quantity at a time -/

/-- The reference's row mean is the specification's: the sum's initial value is 0. -/
theorem refMean (b : Fin 4) :
    val_main_v3 (F := Ideal) x1 (ix2 b (0 : Fin 1)) = Cert.GraftSpec.mean x1 b := by
  rw [val_main_v3_apply, val_main_v1_apply, idx_v1, val_main_v0_apply, val_main_v2_apply, val_main_cst_0_apply,
    val_main_cst_apply]
  simp only [Ideal.hostDivf_def, Ideal.ofBits_def, Ideal.ofBits_zero_f32, zero_add, idx_v0]
  rfl

/-- The centred feature, as the squares' operand reads it. -/
theorem refCentred5 (b : Fin 4) (f : Fin 256) :
    val_main_v5 (F := Ideal) x1 (ix2 b f) = Cert.GraftSpec.centred x1 b f := by
  rw [val_main_v5_apply, val_main_v4_apply, idx_v4, refMean]
  rfl

/-- The centred feature, as the normalisation reads it. -/
theorem refCentred12 (b : Fin 4) (f : Fin 256) :
    val_main_v12 (F := Ideal) x1 (ix2 b f) = Cert.GraftSpec.centred x1 b f := by
  rw [val_main_v12_apply, val_main_v11_apply, idx_v11, refMean]
  rfl

/-- The reference's row variance is the specification's. -/
theorem refVar (b : Fin 4) :
    val_main_v10 (F := Ideal) x1 (ix2 b (0 : Fin 1)) = Cert.GraftSpec.var x1 b := by
  rw [val_main_v10_apply, val_main_v8_apply, idx_v8, val_main_v7_apply, val_main_v9_apply, val_main_cst_2_apply,
    val_main_cst_1_apply]
  simp only [Ideal.hostDivf_def, Ideal.ofBits_def, Ideal.ofBits_zero_f32, zero_add, idx_v7, val_main_v6_apply,
    refCentred5, Ideal.mulf_def]
  rfl

/-- The reference's normed feature is the specification's. -/
theorem refNormed (b : Fin 4) (f : Fin 256) :
    val_main_v23 (F := Ideal) x1 x4 x5 (ix2 b f) = Cert.GraftSpec.normed x1 x4 x5 b f := by
  rw [val_main_v23_apply, val_main_v20_apply, val_main_v17_apply, refCentred12, val_main_v16_apply, idx_v16,
    val_main_v15_apply, val_main_v14_apply, refVar, val_main_v13_apply, val_main_cst_3_apply,
    val_main_v19_apply, idx_v19, val_main_v18_apply, idx_v18, val_main_v22_apply, idx_v22, val_main_v21_apply, idx_v21]
  rfl

/-- The reference's projection plus bias is the specification's delta. -/
theorem refDelta (b : Fin 4) (d : Fin 4096) :
    val_main_v27 (F := Ideal) x1 x4 x5 x6 x7 (ix2 b d) = Cert.GraftSpec.delta x1 x4 x5 x6 x7 b d := by
  rw [val_main_v27_apply, val_main_v24_apply, val_main_v26_apply, idx_v26, val_main_v25_apply, idx_v25]
  simp only [lidx_v24, ridx_v24, refNormed]
  rfl

/-! ## The update -/

/-- The reference's update at (b, d): delta(b, d), times the literal 1, times the trigger mask of batch b. -/
theorem refUpd_apply (b : Fin 4) (d : Fin 4096) :
    val_main_v47 (F := Ideal) x1 x2 x4 x5 x6 x7 (ix2 b d)
      = Cert.GraftSpec.delta x1 x4 x5 x6 x7 b d * Cert.GraftSpec.unit
          * (uitofp (F := Ideal) .f32 (val_main_v38 (F := Ideal) x2) : FVec Ideal S4 .f32) (ix1 b) := by
  rw [val_main_v47_apply, val_main_v29_apply, refDelta, val_main_v28_apply, val_main_cst_4_apply,
    val_main_v46_apply, idx_v46, val_main_v45_apply, val_main_v44_apply, idx_v44]
  rfl

end Cert.ReferenceIdeal.Graft

end
-- ==== Proof.LibScatterRowAdd.lean ====
/-
  A float scatter-add of rows, read at an index given by coordinates.

  The array update "add row b of the updates into row idx(b,1) of batch idx(b,0)" has a [B, R, D] operand, a [B, 2]
  array of scatter indices and [B, D] updates, with dimension numbers update_window_dims = [1],
  inserted_window_dims = [0, 1], scatter_dims_to_operand_dims = [0, 1], index_vector_dim = 1. For the update index
  (b', d') the start index is (idx(b',0), idx(b',1), 0), read signed and not clamped, and the window coordinate is
  (0, 0, d'); so the update lands at (idx(b',0), idx(b',1), d') when that is inside the operand and is dropped
  otherwise. When the batch component idx(b',0) is b' itself, the updates landing on the element (b, r, d) are the one
  update (b, d) when idx(b,1) = r and none otherwise: the scatter-add at (b, r, d) is the operand there plus
  upd(b, d) if idx(b,1) = r, plus nothing if not.
-/
import Idealize.ShloMosaic.Lib.ValueIdx

noncomputable section

open scoped BigOperators

namespace Idealize.ShloMosaic

/-- An update index lands on the operand index i exactly when start plus window coordinate is i's coordinate on every
    axis (the bounds then hold by themselves, i being an index of the operand). -/
theorem ScatterDims.resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      rw [← e]
      exact (Int.toNat_of_nonneg (h a).1).symm
    · intro h2
      funext a
      refine Fin.ext ?_
      show (d.start j idx a + (d.window j a : Int)).toNat = (i a).val
      rw [h2 a, Int.toNat_natCast]
  · rename_i h
    constructor
    · intro e
      cases e
    · intro h2
      refine absurd (fun a => ?_) h
      rw [h2 a]
      exact ⟨Int.natCast_nonneg _, by exact_mod_cast (i a).isLt⟩

namespace ValueIdx

section RowAdd

/-- The dimension numbers of the row scatter-add for an operand [B, R, D], scatter indices [B, 2] and updates [B, D]:
    update_window_dims = [1], inserted_window_dims = [0, 1], scatter_dims_to_operand_dims = [0, 1],
    index_vector_dim = 1; their conditions wf are decided on literal extents. -/
abbrev rowAddDimsOf (B R D : Nat)
    (wf : ScatterDims.WF ⟨3, ![B, R, D]⟩ ⟨2, ![B, 2]⟩ ⟨2, ![B, D]⟩ [1] [0, 1] [0, 1] 1) :
    ScatterDims ⟨3, ![B, R, D]⟩ ⟨2, ![B, 2]⟩ ⟨2, ![B, D]⟩ where
  updateWindowDims := [1]
  insertedWindowDims := [0, 1]
  scatterDimsToOperandDims := [0, 1]
  indexVectorDim := 1
  wf := wf

variable {B R D w : Nat} (wf : ScatterDims.WF ⟨3, ![B, R, D]⟩ ⟨2, ![B, 2]⟩ ⟨2, ![B, D]⟩ [1] [0, 1] [0, 1] 1)

/-- The start on the batch axis for update (b', d'): the scatter index idx(b', 0), read signed. -/
theorem rowAdd_start0 (idx : IVec ⟨2, ![B, 2]⟩ w) (b' : Fin B) (d' : Fin D) :
    (rowAddDimsOf B R D wf).start (ix2 b' d') idx 0 = (idx (ix2 b' (0 : Fin 2))).toInt := by
  unfold ScatterDims.start
  rw [dif_pos (show (0 : Fin 3) ∈ [(0 : Fin 3), 1] by decide)]
  congr 2
  funext a; refine Fin.ext ?_
  match a with
  | ⟨0, _⟩ => rfl
  | ⟨1, _⟩ => rfl

/-- The start on the row axis for update (b', d'): the scatter index idx(b', 1), read signed. -/
theorem rowAdd_start1 (idx : IVec ⟨2, ![B, 2]⟩ w) (b' : Fin B) (d' : Fin D) :
    (rowAddDimsOf B R D wf).start (ix2 b' d') idx 1 = (idx (ix2 b' (1 : Fin 2))).toInt := by
  unfold ScatterDims.start
  rw [dif_pos (show (1 : Fin 3) ∈ [(0 : Fin 3), 1] by decide)]
  congr 2
  funext a; refine Fin.ext ?_
  match a with
  | ⟨0, _⟩ => rfl
  | ⟨1, _⟩ => rfl

/-- The start on the last axis is 0: the map from index components to operand axes does not name it. -/
theorem rowAdd_start2 (idx : IVec ⟨2, ![B, 2]⟩ w) (j : (⟨2, ![B, D]⟩ : Shape).Idx) :
    (rowAddDimsOf B R D wf).start j idx 2 = 0 := by
  unfold ScatterDims.start
  rw [dif_neg (show ¬ (2 : Fin 3) ∈ [(0 : Fin 3), 1] by decide)]

/-- The window coordinate on the batch axis is 0: the axis is inserted. -/
theorem rowAdd_window0 (j : (⟨2, ![B, D]⟩ : Shape).Idx) : (rowAddDimsOf B R D wf).window j 0 = 0 := by
  unfold ScatterDims.window
  have hk : ¬ (0 : Fin 3) ∈ (rowAddDimsOf B R D wf).sKept := by
    show ¬ (0 : Fin 3) ∈ (List.finRange 3).filter (· ∉ [(0 : Fin 3), 1])
    decide
  rw [dif_neg hk]

/-- The window coordinate on the row axis is 0: the axis is inserted. -/
theorem rowAdd_window1 (j : (⟨2, ![B, D]⟩ : Shape).Idx) : (rowAddDimsOf B R D wf).window j 1 = 0 := by
  unfold ScatterDims.window
  have hk : ¬ (1 : Fin 3) ∈ (rowAddDimsOf B R D wf).sKept := by
    show ¬ (1 : Fin 3) ∈ (List.finRange 3).filter (· ∉ [(0 : Fin 3), 1])
    decide
  rw [dif_neg hk]

/-- The window coordinate on the last axis for update (b', d') is d'. -/
theorem rowAdd_window2 (b' : Fin B) (d' : Fin D) : (rowAddDimsOf B R D wf).window (ix2 b' d') 2 = d'.val := by
  unfold ScatterDims.window
  have hk : (2 : Fin 3) ∈ (rowAddDimsOf B R D wf).sKept := by
    show (2 : Fin 3) ∈ (List.finRange 3).filter (· ∉ [(0 : Fin 3), 1])
    decide
  rw [dif_pos hk]
  rfl

/-- Update (b', d') lands on the operand element (b, r, d) exactly when its scatter index is (b, r) and d' = d. -/
theorem rowAdd_resultIdx?_eq_some_iff (idx : IVec ⟨2, ![B, 2]⟩ w) (b' : Fin B) (d' : Fin D) (b : Fin B) (r : Fin R)
    (d : Fin D) :
    (rowAddDimsOf B R D wf).resultIdx? (ix2 b' d') idx = some (ix3 b r d) ↔
      (idx (ix2 b' (0 : Fin 2))).toInt = (b.val : Int) ∧ (idx (ix2 b' (1 : Fin 2))).toInt = (r.val : Int) ∧ d' = d := by
  rw [ScatterDims.resultIdx?_eq_some_iff]
  constructor
  · intro h
    have h0 : (rowAddDimsOf B R D wf).start (ix2 b' d') idx 0 + ((rowAddDimsOf B R D wf).window (ix2 b' d') 0 : Int)
        = (b.val : Int) := h 0
    have h1 : (rowAddDimsOf B R D wf).start (ix2 b' d') idx 1 + ((rowAddDimsOf B R D wf).window (ix2 b' d') 1 : Int)
        = (r.val : Int) := h 1
    have h2 : (rowAddDimsOf B R D wf).start (ix2 b' d') idx 2 + ((rowAddDimsOf B R D wf).window (ix2 b' d') 2 : Int)
        = (d.val : Int) := h 2
    rw [rowAdd_start0, rowAdd_window0] at h0
    rw [rowAdd_start1, rowAdd_window1] at h1
    rw [rowAdd_start2, rowAdd_window2] at h2
    refine ⟨by simpa using h0, by simpa using h1, Fin.ext ?_⟩
    have : ((d'.val : Int)) = (d.val : Int) := by simpa using h2
    exact_mod_cast this
  · rintro ⟨h0, h1, rfl⟩ a
    match a with
    | ⟨0, _⟩ =>
      show (rowAddDimsOf B R D wf).start (ix2 b' d') idx 0 + ((rowAddDimsOf B R D wf).window (ix2 b' d') 0 : Int) = (b.val : Int)
      rw [rowAdd_start0, rowAdd_window0, h0]; simp
    | ⟨1, _⟩ =>
      show (rowAddDimsOf B R D wf).start (ix2 b' d') idx 1 + ((rowAddDimsOf B R D wf).window (ix2 b' d') 1 : Int) = (r.val : Int)
      rw [rowAdd_start1, rowAdd_window1, h1]; simp
    | ⟨2, _⟩ =>
      show (rowAddDimsOf B R D wf).start (ix2 b' d') idx 2 + ((rowAddDimsOf B R D wf).window (ix2 b' d') 2 : Int) = (d'.val : Int)
      rw [rowAdd_start2, rowAdd_window2]; simp

/-- THE ROW SCATTER-ADD READ AT (b, r, d), when the batch component of every scatter index is its own batch
    (idx(b, 0) = b): the operand there plus the update (b, d) if the row component idx(b, 1) is r, plus nothing if
    it is not (an idx(b, 1) outside [0, R) equals no r: that update is dropped). -/
theorem hostScatterAdd_rowAddOf_apply (x : (⟨3, ![B, R, D]⟩ : Shape).Idx → EReal) (idx : IVec ⟨2, ![B, 2]⟩ w)
    (upd : (⟨2, ![B, D]⟩ : Shape).Idx → EReal)
    (hrow : ∀ b : Fin B, (idx (ix2 b (0 : Fin 2))).toInt = (b.val : Int))
    (b : Fin B) (r : Fin R) (d : Fin D) :
    Ideal.hostScatterAdd (rowAddDimsOf B R D wf) x idx upd (ix3 b r d)
      = x (ix3 b r d) + if (idx (ix2 b (1 : Fin 2))).toInt = (r.val : Int) then upd (ix2 b d) else 0 := by
  unfold Ideal.hostScatterAdd
  congr 1
  have key : ∀ j : (⟨2, ![B, D]⟩ : Shape).Idx,
      (rowAddDimsOf B R D wf).resultIdx? j idx = some (ix3 b r d) ↔
        (j = ix2 b d ∧ (idx (ix2 b (1 : Fin 2))).toInt = (r.val : Int)) := by
    intro j
    obtain ⟨b', d', rfl⟩ : ∃ (b' : Fin B) (d' : Fin D), j = ix2 b' d' := ⟨j 0, j 1, eq_ix2 j⟩
    rw [rowAdd_resultIdx?_eq_some_iff, hrow b']
    constructor
    · rintro ⟨hb, hr, rfl⟩
      obtain rfl : b' = b := Fin.ext (by exact_mod_cast hb)
      exact ⟨rfl, hr⟩
    · rintro ⟨hj, hr⟩
      have hb : b' = b := by have := congrFun hj 0; exact this
      have hd : d' = d := by have := congrFun hj 1; exact this
      subst hb; subst hd
      exact ⟨rfl, hr, rfl⟩
  rw [Finset.filter_congr (fun j _ => key j)]
  split
  · rename_i hr
    rw [Finset.sum_filter]
    rw [Finset.sum_eq_single (ix2 b d)]
    · rw [if_pos ⟨rfl, hr⟩]
    · intro j _ hj
      rw [if_neg (fun h => hj h.1)]
    · intro h
      exact absurd (Finset.mem_univ _) h
  · rename_i hr
    rw [Finset.sum_filter]
    exact Finset.sum_eq_zero fun j _ => if_neg fun h => hr h.2

end RowAdd

/-- The dimension numbers of x.at[rows, idx].add(upd) for a [4, 4096, 4096] operand, [4, 2] scatter indices and
    [4, 4096] updates: update_window_dims = [1], inserted_window_dims = [0, 1], scatter_dims_to_operand_dims = [0, 1],
    index_vector_dim = 1. -/
def rowAddDims : ScatterDims ⟨3, ![4, 4096, 4096]⟩ ⟨2, ![4, 2]⟩ ⟨2, ![4, 4096]⟩ where
  updateWindowDims := [1]
  insertedWindowDims := [0, 1]
  scatterDimsToOperandDims := [0, 1]
  indexVectorDim := 1

/-- The row scatter-add at those extents, read at (b, r, d): the operand there plus the update (b, d) if idx(b, 1) = r,
    plus nothing if not, when idx(b, 0) = b for every b. -/
theorem hostScatterAdd_rowAdd_apply (x : (⟨3, ![4, 4096, 4096]⟩ : Shape).Idx → EReal) (idx : IVec ⟨2, ![4, 2]⟩ 32)
    (upd : (⟨2, ![4, 4096]⟩ : Shape).Idx → EReal)
    (hrow : ∀ b : Fin 4, (idx (ix2 b (0 : Fin 2))).toInt = (b.val : Int))
    (b : Fin 4) (r d : Fin 4096) :
    Ideal.hostScatterAdd rowAddDims x idx upd (ix3 b r d)
      = x (ix3 b r d) + if (idx (ix2 b (1 : Fin 2))).toInt = (r.val : Int) then upd (ix2 b d) else 0 :=
  hostScatterAdd_rowAddOf_apply rowAddDims.wf x idx upd hrow b r d

end ValueIdx

end Idealize.ShloMosaic

end
-- ==== Proof.RefResult.lean ====
/-
  The reference's result read at an index, at the ideal instance.

  The reference ends with out = x.at[rows, last].add(upd): a float scatter-add of the [4, 4096] updates into the
  [4, 4096, 4096] operand at the [4, 2] scatter indices whose column 0 is the batch number b and whose column 1 is
  last(b) = max(1, Σ attention_mask row b) − 1, both after the normalisation of negative indices (select(i < 0, i + n,
  i)). The row numbers 0..3 are not negative, so column 0 at b is the word of b. The maximum is the signed one, so
  max(1, s) ≥ 1 as a signed word whatever s is, the subtraction of 1 does not wrap, and last(b) ≥ 0 as a signed word:
  the normalisation keeps it, and its signed reading is its unsigned one. The scatter-add at (b, r, d) is therefore the
  operand there plus upd(b, d) if last(b) = r, plus nothing if not.
-/
import proofs.«402860_j88510686036004_2_alg».proof.Proof.RefRead
import proofs.«402860_j88510686036004_2_alg».proof.Proof.LibScatterRowAdd
import proofs.«402860_j88510686036004_2_alg».proof.Proof.Spec
import Idealize.ShloMosaic.Lib.ValueIdx
import Idealize.ShloMosaic.Lib.Pipeline.Value

noncomputable section

namespace Cert.ReferenceIdeal.Graft

open Idealize.ShloMosaic Idealize.ShloMosaic.ValueIdx Cert.ReferenceIdeal Cert.ReferenceIdeal.Gen Cert.ReferenceIdeal.ReadP

/-! ## Scalar facts on 32-bit words -/

/-- For any word s, l = max(1, s) − 1 (signed maximum, wrapping subtraction) is not negative as a signed word, and its
    signed reading is its unsigned one: max(1, s) is 1 when s < 1 and s itself, at least 1, when not; in both cases
    the subtraction stays inside [0, 2^31 − 2]. -/
theorem last_nonneg (s : BitVec 32) :
    ¬ (IntOp.subi (IntOp.maxsi 1#32 s) 1#32).slt 0#32 = true ∧
      (IntOp.subi (IntOp.maxsi 1#32 s) 1#32).toInt = ((IntOp.subi (IntOp.maxsi 1#32 s) 1#32).toNat : Int) := by
  unfold IntOp.subi IntOp.maxsi
  by_cases h : s.slt 1#32 = true
  · rw [if_pos h]
    decide
  · rw [if_neg h]
    rw [BitVec.slt, decide_eq_true_eq] at h
    rw [BitVec.slt, decide_eq_true_eq]
    have h1 : (1#32 : BitVec 32).toInt = 1 := by decide
    have h0 : (0#32 : BitVec 32).toInt = 0 := by decide
    rw [h1] at h
    rw [h0]
    have hs := BitVec.toInt_eq_toNat_cond s
    have hl := BitVec.toInt_eq_toNat_cond (s - 1#32)
    have hsub : (s - 1#32).toNat = (2^32 - 1 + s.toNat) % 2^32 := by
      rw [BitVec.toNat_sub]; rfl
    have := s.isLt
    constructor
    · omega
    · omega

/-- A word that is not negative as a signed word passes the normalisation of negative indices unchanged: the
    comparison with 0 is false and the select takes the word itself. -/
theorem select_slt_zero_of_nonneg (l y : BitVec 32) (h : ¬ l.slt 0#32 = true) :
    Scalar.select (IntOp.cmpi .slt l 0#32) y l = l := by
  have hc : IntOp.cmpi .slt l 0#32 = 0#1 := by
    show BitVec.ofBool (l.slt 0#32) = 0#1
    rw [Bool.not_eq_true] at h
    rw [h]; rfl
  unfold Scalar.select
  rw [hc, if_neg (by decide)]

/-- The word of a batch number b < 4 is not negative as a signed word and reads b. -/
theorem ofNat_batch (b : Fin 4) :
    ¬ (BitVec.ofNat 32 b.val).slt 0#32 = true ∧ (BitVec.ofNat 32 b.val).toInt = (b.val : Int) := by
  have key : ∀ n : Nat, n < 4 →
      ¬ (BitVec.ofNat 32 n).slt 0#32 = true ∧ (BitVec.ofNat 32 n).toInt = (n : Int) := by
    intro n hn
    match n, hn with
    | 0, _ => decide
    | 1, _ => decide
    | 2, _ => decide
    | 3, _ => decide
    | n + 4, h => exact absurd h (by omega)
  exact key b.val b.isLt

/-! ## The two columns of the scatter indices -/

/-- The last valid row of batch b, as the reference computes it -/
def refLast (x3 : (⟨S4x4096, .i32⟩ : BufTy).Contents (Elt Ideal)) (b : Fin 4) : BitVec 32 :=
  val_main_v42 (F := Ideal) x3 (ix1 b)

/-- last(b) is max(1, s(b)) − 1 for the row sum s(b) of the mask. -/
theorem refLast_eq (x3 : (⟨S4x4096, .i32⟩ : BufTy).Contents (Elt Ideal)) (b : Fin 4) :
    refLast x3 b = IntOp.subi (IntOp.maxsi 1#32 (val_main_v39 (F := Ideal) x3 (ix1 b))) 1#32 := by
  unfold refLast
  rw [val_main_v42_apply, val_main_v40_apply, val_main_v41_apply, val_main_c_11_apply, val_main_call0_v1_apply,
    val_main_call0_v0_apply, val_main_c_10_apply]

/-- last(b) is not negative as a signed word. -/
theorem refLast_not_slt (x3 : (⟨S4x4096, .i32⟩ : BufTy).Contents (Elt Ideal)) (b : Fin 4) :
    ¬ (refLast x3 b).slt 0#32 = true := by
  rw [refLast_eq]; exact (last_nonneg _).1

/-- The signed reading of last(b) is its unsigned one. -/
theorem refLast_toInt (x3 : (⟨S4x4096, .i32⟩ : BufTy).Contents (Elt Ideal)) (b : Fin 4) :
    (refLast x3 b).toInt = ((refLast x3 b).toNat : Int) := by
  rw [refLast_eq]; exact (last_nonneg _).2

/-- Column 0 of the scatter indices at b is the first piece of the concatenation at (b, 0). -/
theorem idx_col0 (x3 : (⟨S4x4096, .i32⟩ : BufTy).Contents (Elt Ideal)) (b : Fin 4) :
    val_main_v60 (F := Ideal) x3 (ix2 b (0 : Fin 2)) = val_main_v58 (F := Ideal) (ix2 b (0 : Fin 1)) := by
  unfold val_main_v60
  exact concatenate_pair_apply_left (t := S4x2) (s₁ := S4x1) (s₂ := S4x1) (1 : Fin 2) _ _
    concatenates_S4x1_S4x1_S4x2_d1 (ix2 b (0 : Fin 2)) rfl (ix2 b (0 : Fin 1))
    (fun a => match a with | ⟨0, _⟩ => rfl | ⟨1, _⟩ => rfl)

/-- Column 1 of the scatter indices at b is the second piece of the concatenation at (b, 0). -/
theorem idx_col1 (x3 : (⟨S4x4096, .i32⟩ : BufTy).Contents (Elt Ideal)) (b : Fin 4) :
    val_main_v60 (F := Ideal) x3 (ix2 b (1 : Fin 2)) = val_main_v59 (F := Ideal) x3 (ix2 b (0 : Fin 1)) := by
  unfold val_main_v60
  exact concatenate_pair_apply_right (t := S4x2) (s₁ := S4x1) (s₂ := S4x1) (1 : Fin 2) _ _
    concatenates_S4x1_S4x1_S4x2_d1 (ix2 b (1 : Fin 2)) rfl rfl (ix2 b (0 : Fin 1))
    (fun a ha => match a, ha with
      | ⟨0, _⟩, _ => rfl
      | ⟨1, _⟩, ha => absurd rfl ha)
    rfl

/-- The row-number piece at (b, 0) is the word of b: the row numbers are iota, not negative, so the normalisation
    keeps them. -/
theorem rowPiece_apply (b : Fin 4) :
    val_main_v58 (F := Ideal) (ix2 b (0 : Fin 1)) = BitVec.ofNat 32 b.val := by
  rw [val_main_v58_apply, val_main_v52_apply, val_main_v49_apply, val_main_v48_apply, val_main_c_12_apply,
    val_main_v43_apply]
  exact select_slt_zero_of_nonneg _ _ (ofNat_batch b).1

/-- The last-row piece at (b, 0) is last(b): it is not negative, so the normalisation keeps it. -/
theorem lastPiece_apply (x3 : (⟨S4x4096, .i32⟩ : BufTy).Contents (Elt Ideal)) (b : Fin 4) :
    val_main_v59 (F := Ideal) x3 (ix2 b (0 : Fin 1)) = refLast x3 b := by
  have hi : idx_main_v59 (ix2 b (0 : Fin 1)) = ix1 b := by
    funext a; match a with | ⟨0, _⟩ => rfl
  rw [val_main_v59_apply, hi, val_main_v57_apply, val_main_v54_apply, val_main_v53_apply, val_main_c_14_apply]
  exact select_slt_zero_of_nonneg _ _ (refLast_not_slt x3 b)

/-- Column 0 of the scatter indices at b reads b, signed. -/
theorem idx_col0_toInt (x3 : (⟨S4x4096, .i32⟩ : BufTy).Contents (Elt Ideal)) (b : Fin 4) :
    (val_main_v60 (F := Ideal) x3 (ix2 b (0 : Fin 2))).toInt = (b.val : Int) := by
  rw [idx_col0, rowPiece_apply]; exact (ofNat_batch b).2

/-- Column 1 of the scatter indices at b reads last(b) as a natural number, signed. -/
theorem idx_col1_toInt (x3 : (⟨S4x4096, .i32⟩ : BufTy).Contents (Elt Ideal)) (b : Fin 4) :
    (val_main_v60 (F := Ideal) x3 (ix2 b (1 : Fin 2))).toInt = ((refLast x3 b).toNat : Int) := by
  rw [idx_col1, lastPiece_apply, refLast_toInt]

/-! ## The result at an index -/

/-- The scatter's dimension numbers are those of the row scatter-add. -/
theorem scatterDims_eq : scatter_S4x4096x4096_S4x2_S4x4096_1_01_01_1 = rowAddDims := rfl

/-- THE REFERENCE'S RESULT AT (b, r, d): x there plus upd(b, d) if last(b) = r, plus nothing if not. -/
theorem refResult_apply (x0 : (⟨S4x4096x4096, .f32⟩ : BufTy).Contents (Elt Ideal))
    (x1 : (⟨S4x256, .f32⟩ : BufTy).Contents (Elt Ideal))
    (x2 x3 : (⟨S4x4096, .i32⟩ : BufTy).Contents (Elt Ideal)) (x4 x5 : (⟨S256, .f32⟩ : BufTy).Contents (Elt Ideal))
    (x6 : (⟨S4096x256, .f32⟩ : BufTy).Contents (Elt Ideal)) (x7 : (⟨S4096, .f32⟩ : BufTy).Contents (Elt Ideal))
    (b : Fin 4) (r d : Fin 4096) :
    val_main_v61 (F := Ideal) x0 x1 x2 x3 x4 x5 x6 x7 (ix3 b r d)
      = Cert.GraftSpec.graftAt x0 (val_main_v47 (F := Ideal) x1 x2 x4 x5 x6 x7) (refLast x3) b r d := by
  unfold val_main_v61
  simp only [Host.scatterAdd, Ideal.hostScatterAdd_def]
  rw [scatterDims_eq]
  rw [hostScatterAdd_rowAdd_apply x0 (val_main_v60 (F := Ideal) x3) (val_main_v47 (F := Ideal) x1 x2 x4 x5 x6 x7)
    (idx_col0_toInt x3) b r d]
  unfold Cert.GraftSpec.graftAt
  rw [idx_col1_toInt]
  exact congrArg (x0 (ix3 b r d) + ·) (if_congr Int.ofNat_inj rfl rfl)

end Cert.ReferenceIdeal.Graft

end
-- ==== Proof.Bridge.lean ====
/-
  The bridge: the reference's result and the idealized kernel's are one array. Both are x with a row of updates added
  into row last(b) of batch b. The arguments agree; the host computations of the trigger bits and of last are the same
  operations on the same arguments; and the update rows are delta(b, ·) · 1 · a(b) on one side and
  delta(b, ·) · a(b) · 1 on the other, equal since multiplication of extended reals commutes and associates.
-/
import proofs.«402860_j88510686036004_2_alg».proof.Proof.KernelIdeal.Result
import proofs.«402860_j88510686036004_2_alg».proof.Proof.RefRead
import proofs.«402860_j88510686036004_2_alg».proof.Proof.RefUpdate
import proofs.«402860_j88510686036004_2_alg».proof.Proof.RefResult
import proofs.«402860_j88510686036004_2_alg».proof.Proof.Spec

set_option maxRecDepth 16384

noncomputable section

namespace Cert.Proof.Bridge

open Idealize.ShloMosaic Idealize.ShloMosaic.TcCoe Idealize.SL.Sem
open Idealize.ShloMosaic.ValueIdx (ix2 ix3 eq_ix3)

/-- The two programs compute the trigger bits by the same host operations. -/
theorem trig_eq (x2 : (⟨Cert.KernelIdeal.S4x4096, .i32⟩ : BufTy).Contents (Elt Ideal)) :
    Cert.ReferenceIdeal.ReadP.val_main_v38 (F := Ideal) x2 = Cert.KernelIdeal.Graft.trigBits (F := Ideal) x2 := rfl

/-- … and the last words. -/
theorem last_eq (x3 : (⟨Cert.KernelIdeal.S4x4096, .i32⟩ : BufTy).Contents (Elt Ideal)) :
    Cert.ReferenceIdeal.ReadP.val_main_v42 (F := Ideal) x3 = Cert.KernelIdeal.Graft.lastWords (F := Ideal) x3 := rfl

/-- From memories agreeing on the arguments, the reference's last stage is the kernel's result array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ReadP.val_main_v61 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
      = Cert.KernelIdeal.Graft.kResult m c := by
  rw [h0, h1, h2, h3, h4, h5, h6, h7]
  funext I
  obtain ⟨b, r, d, rfl⟩ : ∃ (b : Fin 4) (r d : Fin 4096), I = ix3 b r d := ⟨I 0, I 1, I 2, eq_ix3 I⟩
  rw [Cert.ReferenceIdeal.Graft.refResult_apply]
  show _ = Cert.GraftSpec.graftAt (Cert.KernelIdeal.Graft.U4 m c Cert.KernelIdeal.main_arg0) (Cert.KernelIdeal.Graft.U4 m c Cert.KernelIdeal.main_v15)
    (Cert.KernelIdeal.Graft.lastOf (Cert.KernelIdeal.Graft.adm1 m)) b r d
  unfold Cert.GraftSpec.graftAt
  have hl : Cert.ReferenceIdeal.Graft.refLast (m ((c.tc : Thread Cert.KernelIdeal.nD Cert.KernelIdeal.τ).loc Cert.KernelIdeal.main_arg3)) b
      = Cert.KernelIdeal.Graft.lastOf (Cert.KernelIdeal.Graft.adm1 m) b := by
    rw [Cert.KernelIdeal.Graft.klast_eq m c b]; rfl
  have hu : Cert.ReferenceIdeal.ReadP.val_main_v47 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (ix2 b d)
      = Cert.KernelIdeal.Graft.U4 m c Cert.KernelIdeal.main_v15 (ix2 b d) := by
    rw [Cert.ReferenceIdeal.Graft.refUpd_apply, Cert.KernelIdeal.Graft.kupd_apply m c b d, trig_eq]
    exact (Cert.GraftSpec.mul_mask_unit _ _ _).symm
  rw [hl, hu, Cert.KernelIdeal.Graft.kx_eq m c]

end Cert.Proof.Bridge

end
-- ==== Proof.RefRunHand.lean ====
/-
  The reference's run, read back: its @main is one line of 82 host operations, so every weakly fair execution ends
  with each buffer at the operations' results folded over the launch contents. The last two operations — the join of the
  two index columns and the scatter-add — are read over an abstract valuation; the 80 before them (no join among them)
  leave the update array, the two index columns and x at the stages' values. So the result buffer ends at the last
  stage of the arguments, and the arguments are unchanged.
-/
import proofs.«402860_j88510686036004_2_alg».proof.Proof.RefRead
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The 80 operations before the join of the index columns (a called function's operations in its call's place). -/
abbrev opsA : List (HloOp τ sig (Elt F)) :=
  [ nullary main_cst (constant S_ .f32 0x00000000#32),
    binary main_arg1 main_cst main_v0 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    unary main_v0 main_v1 (broadcastInDim S4x1 ![0] bcast_S4_S4x1_0 : (⟨S4, .f32⟩ : BufTy).Contents (Elt F) → (⟨S4x1, .f32⟩ : BufTy).Contents (Elt F)),
    nullary main_cst_0 (constant S_ .f32 0x43800000#32),
    unary main_cst_0 main_v2 (broadcastInDim S4x1 ![] bcast_S_S4x1 : (⟨S_, .f32⟩ : BufTy).Contents (Elt F) → (⟨S4x1, .f32⟩ : BufTy).Contents (Elt F)),
    binary main_v1 main_v2 main_v3 (Host.divf : (⟨S4x1, .f32⟩ : BufTy).Contents (Elt F) → (⟨S4x1, .f32⟩ : BufTy).Contents (Elt F) → (⟨S4x1, .f32⟩ : BufTy).Contents (Elt F)),
    unary main_v3 main_v4 (broadcastInDim S4x256 ![0, 1] bcast_S4x1_S4x256_0_1 : (⟨S4x1, .f32⟩ : BufTy).Contents (Elt F) → (⟨S4x256, .f32⟩ : BufTy).Contents (Elt F)),
    binary main_arg1 main_v4 main_v5 (subf : (⟨S4x256, .f32⟩ : BufTy).Contents (Elt F) → (⟨S4x256, .f32⟩ : BufTy).Contents (Elt F) → (⟨S4x256, .f32⟩ : BufTy).Contents (Elt F)),
    binary main_v5 main_v5 main_v6 (mulf : (⟨S4x256, .f32⟩ : BufTy).Contents (Elt F) → (⟨S4x256, .f32⟩ : BufTy).Contents (Elt F) → (⟨S4x256, .f32⟩ : BufTy).Contents (Elt F)),
    nullary main_cst_1 (constant S_ .f32 0x00000000#32),
    binary main_v6 main_cst_1 main_v7 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    unary main_v7 main_v8 (broadcastInDim S4x1 ![0] bcast_S4_S4x1_0 : (⟨S4, .f32⟩ : BufTy).Contents (Elt F) → (⟨S4x1, .f32⟩ : BufTy).Contents (Elt F)),
    nullary main_cst_2 (constant S_ .f32 0x43800000#32),
    unary main_cst_2 main_v9 (broadcastInDim S4x1 ![] bcast_S_S4x1 : (⟨S_, .f32⟩ : BufTy).Contents (Elt F) → (⟨S4x1, .f32⟩ : BufTy).Contents (Elt F)),
    binary main_v8 main_v9 main_v10 (Host.divf : (⟨S4x1, .f32⟩ : BufTy).Contents (Elt F) → (⟨S4x1, .f32⟩ : BufTy).Contents (Elt F) → (⟨S4x1, .f32⟩ : BufTy).Contents (Elt F)),
    unary main_v3 main_v11 (broadcastInDim S4x256 ![0, 1] bcast_S4x1_S4x256_0_1 : (⟨S4x1, .f32⟩ : BufTy).Contents (Elt F) → (⟨S4x256, .f32⟩ : BufTy).Contents (Elt F)),
    binary main_arg1 main_v11 main_v12 (subf : (⟨S4x256, .f32⟩ : BufTy).Contents (Elt F) → (⟨S4x256, .f32⟩ : BufTy).Contents (Elt F) → (⟨S4x256, .f32⟩ : BufTy).Contents (Elt F)),
    nullary main_cst_3 (constant S_ .f32 0x3727C5AC#32),
    unary main_cst_3 main_v13 (broadcastInDim S4x1 ![] bcast_S_S4x1 : (⟨S_, .f32⟩ : BufTy).Contents (Elt F) → (⟨S4x1, .f32⟩ : BufTy).Contents (Elt F)),
    binary main_v10 main_v13 main_v14 (addf : (⟨S4x1, .f32⟩ : BufTy).Contents (Elt F) → (⟨S4x1, .f32⟩ : BufTy).Contents (Elt F) → (⟨S4x1, .f32⟩ : BufTy).Contents (Elt F)),
    unary main_v14 main_v15 (Host.rsqrt : (⟨S4x1, .f32⟩ : BufTy).Contents (Elt F) → (⟨S4x1, .f32⟩ : BufTy).Contents (Elt F)),
    unary main_v15 main_v16 (broadcastInDim S4x256 ![0, 1] bcast_S4x1_S4x256_0_1 : (⟨S4x1, .f32⟩ : BufTy).Contents (Elt F) → (⟨S4x256, .f32⟩ : BufTy).Contents (Elt F)),
    binary main_v12 main_v16 main_v17 (mulf : (⟨S4x256, .f32⟩ : BufTy).Contents (Elt F) → (⟨S4x256, .f32⟩ : BufTy).Contents (Elt F) → (⟨S4x256, .f32⟩ : BufTy).Contents (Elt F)),
    unary main_arg4 main_v18 (broadcastInDim S1x256 ![1] bcast_S256_S1x256_1 : (⟨S256, .f32⟩ : BufTy).Contents (Elt F) → (⟨S1x256, .f32⟩ : BufTy).Contents (Elt F)),
    unary main_v18 main_v19 (broadcastInDim S4x256 ![0, 1] bcast_S1x256_S4x256_0_1 : (⟨S1x256, .f32⟩ : BufTy).Contents (Elt F) → (⟨S4x256, .f32⟩ : BufTy).Contents (Elt F)),
    binary main_v17 main_v19 main_v20 (mulf : (⟨S4x256, .f32⟩ : BufTy).Contents (Elt F) → (⟨S4x256, .f32⟩ : BufTy).Contents (Elt F) → (⟨S4x256, .f32⟩ : BufTy).Contents (Elt F)),
    unary main_arg5 main_v21 (broadcastInDim S1x256 ![1] bcast_S256_S1x256_1 : (⟨S256, .f32⟩ : BufTy).Contents (Elt F) → (⟨S1x256, .f32⟩ : BufTy).Contents (Elt F)),
    unary main_v21 main_v22 (broadcastInDim S4x256 ![0, 1] bcast_S1x256_S4x256_0_1 : (⟨S1x256, .f32⟩ : BufTy).Contents (Elt F) → (⟨S4x256, .f32⟩ : BufTy).Contents (Elt F)),
    binary main_v20 main_v22 main_v23 (addf : (⟨S4x256, .f32⟩ : BufTy).Contents (Elt F) → (⟨S4x256, .f32⟩ : BufTy).Contents (Elt F) → (⟨S4x256, .f32⟩ : BufTy).Contents (Elt F)),
    binary main_v23 main_arg6 main_v24 ((fun l r => Host.dotGeneral dot_S4x256_S4096x256_S4x4096_1_1_0_0_n_n none l r) : (⟨S4x256, .f32⟩ : BufTy).Contents (Elt F) → (⟨S4096x256, .f32⟩ : BufTy).Contents (Elt F) → (⟨S4x4096, .f32⟩ : BufTy).Contents (Elt F)),
    unary main_arg7 main_v25 (broadcastInDim S1x4096 ![1] bcast_S4096_S1x4096_1 : (⟨S4096, .f32⟩ : BufTy).Contents (Elt F) → (⟨S1x4096, .f32⟩ : BufTy).Contents (Elt F)),
    unary main_v25 main_v26 (broadcastInDim S4x4096 ![0, 1] bcast_S1x4096_S4x4096_0_1 : (⟨S1x4096, .f32⟩ : BufTy).Contents (Elt F) → (⟨S4x4096, .f32⟩ : BufTy).Contents (Elt F)),
    binary main_v24 main_v26 main_v27 (addf : (⟨S4x4096, .f32⟩ : BufTy).Contents (Elt F) → (⟨S4x4096, .f32⟩ : BufTy).Contents (Elt F) → (⟨S4x4096, .f32⟩ : BufTy).Contents (Elt F)),
    nullary main_cst_4 (constant S_ .f32 0x3F800000#32),
    unary main_cst_4 main_v28 (broadcastInDim S4x4096 ![] bcast_S_S4x4096 : (⟨S_, .f32⟩ : BufTy).Contents (Elt F) → (⟨S4x4096, .f32⟩ : BufTy).Contents (Elt F)),
    binary main_v27 main_v28 main_v29 (mulf : (⟨S4x4096, .f32⟩ : BufTy).Contents (Elt F) → (⟨S4x4096, .f32⟩ : BufTy).Contents (Elt F) → (⟨S4x4096, .f32⟩ : BufTy).Contents (Elt F)),
    nullary main_c (constantI S_ 1 0#1),
    unary main_c main_v30 (broadcastInDim S4 ![] bcast_S_S4 : (⟨S_, .i1⟩ : BufTy).Contents (Elt F) → (⟨S4, .i1⟩ : BufTy).Contents (Elt F)),
    nullary main_c_5 (constantI S_ 32 5#32),
    unary main_c_5 main_v31 (broadcastInDim S4x4096 ![] bcast_S_S4x4096 : (⟨S_, .i32⟩ : BufTy).Contents (Elt F) → (⟨S4x4096, .i32⟩ : BufTy).Contents (Elt F)),
    binary main_arg2 main_v31 main_v32 (cmpi .eq : (⟨S4x4096, .i32⟩ : BufTy).Contents (Elt F) → (⟨S4x4096, .i32⟩ : BufTy).Contents (Elt F) → (⟨S4x4096, .i1⟩ : BufTy).Contents (Elt F)),
    nullary main_c_6 (constantI S_ 1 0#1),
    binary main_v32 main_c_6 main_v33 ((fun x v => Host.reduce IntOp.ori x v reducesTo_S4x4096_S4_d1 h_S_) : (⟨S4x4096, .i1⟩ : BufTy).Contents (Elt F) → (⟨S_, .i1⟩ : BufTy).Contents (Elt F) → (⟨S4, .i1⟩ : BufTy).Contents (Elt F)),
    binary main_v30 main_v33 main_v34 (ori : (⟨S4, .i1⟩ : BufTy).Contents (Elt F) → (⟨S4, .i1⟩ : BufTy).Contents (Elt F) → (⟨S4, .i1⟩ : BufTy).Contents (Elt F)),
    nullary main_c_7 (constantI S_ 32 7#32),
    unary main_c_7 main_v35 (broadcastInDim S4x4096 ![] bcast_S_S4x4096 : (⟨S_, .i32⟩ : BufTy).Contents (Elt F) → (⟨S4x4096, .i32⟩ : BufTy).Contents (Elt F)),
    binary main_arg2 main_v35 main_v36 (cmpi .eq : (⟨S4x4096, .i32⟩ : BufTy).Contents (Elt F) → (⟨S4x4096, .i32⟩ : BufTy).Contents (Elt F) → (⟨S4x4096, .i1⟩ : BufTy).Contents (Elt F)),
    nullary main_c_8 (constantI S_ 1 0#1),
    binary main_v36 main_c_8 main_v37 ((fun x v => Host.reduce IntOp.ori x v reducesTo_S4x4096_S4_d1 h_S_) : (⟨S4x4096, .i1⟩ : BufTy).Contents (Elt F) → (⟨S_, .i1⟩ : BufTy).Contents (Elt F) → (⟨S4, .i1⟩ : BufTy).Contents (Elt F)),
    binary main_v34 main_v37 main_v38 (ori : (⟨S4, .i1⟩ : BufTy).Contents (Elt F) → (⟨S4, .i1⟩ : BufTy).Contents (Elt F) → (⟨S4, .i1⟩ : BufTy).Contents (Elt F)),
    nullary main_c_9 (constantI S_ 32 0#32),
    binary main_arg3 main_c_9 main_v39 ((fun x v => Host.reduce IntOp.addi x v reducesTo_S4x4096_S4_d1 h_S_) : (⟨S4x4096, .i32⟩ : BufTy).Contents (Elt F) → (⟨S_, .i32⟩ : BufTy).Contents (Elt F) → (⟨S4, .i32⟩ : BufTy).Contents (Elt F)),
    nullary main_c_10 (constantI S_ 32 1#32),
    TRef.unary (TRef.of (T := ⟨S_, .i32⟩) main_c_10) (TRef.of (T := ⟨S_, .i32⟩) main_call0_v0) id,
    TRef.unary (TRef.of (T := ⟨S_, .i32⟩) main_call0_v0) (TRef.of (T := ⟨S4, .i32⟩) main_call0_v1) (broadcastInDim S4 ![] bcast_S_S4),
    TRef.binary (TRef.of (T := ⟨S4, .i32⟩) main_call0_v1) (TRef.of (T := ⟨S4, .i32⟩) main_v39) (TRef.of (T := ⟨S4, .i32⟩) main_v40) maxsi,
    nullary main_c_11 (constantI S_ 32 1#32),
    unary main_c_11 main_v41 (broadcastInDim S4 ![] bcast_S_S4 : (⟨S_, .i32⟩ : BufTy).Contents (Elt F) → (⟨S4, .i32⟩ : BufTy).Contents (Elt F)),
    binary main_v40 main_v41 main_v42 (subi : (⟨S4, .i32⟩ : BufTy).Contents (Elt F) → (⟨S4, .i32⟩ : BufTy).Contents (Elt F) → (⟨S4, .i32⟩ : BufTy).Contents (Elt F)),
    nullary main_v43 (iotaInDim S4 32 0),
    unary main_v38 main_v44 (broadcastInDim S4x1 ![0] bcast_S4_S4x1_0 : (⟨S4, .i1⟩ : BufTy).Contents (Elt F) → (⟨S4x1, .i1⟩ : BufTy).Contents (Elt F)),
    unary main_v44 main_v45 (uitofp .f32 : (⟨S4x1, .i1⟩ : BufTy).Contents (Elt F) → (⟨S4x1, .f32⟩ : BufTy).Contents (Elt F)),
    unary main_v45 main_v46 (broadcastInDim S4x4096 ![0, 1] bcast_S4x1_S4x4096_0_1 : (⟨S4x1, .f32⟩ : BufTy).Contents (Elt F) → (⟨S4x4096, .f32⟩ : BufTy).Contents (Elt F)),
    binary main_v29 main_v46 main_v47 (mulf : (⟨S4x4096, .f32⟩ : BufTy).Contents (Elt F) → (⟨S4x4096, .f32⟩ : BufTy).Contents (Elt F) → (⟨S4x4096, .f32⟩ : BufTy).Contents (Elt F)),
    nullary main_c_12 (constantI S_ 32 0#32),
    unary main_c_12 main_v48 (broadcastInDim S4 ![] bcast_S_S4 : (⟨S_, .i32⟩ : BufTy).Contents (Elt F) → (⟨S4, .i32⟩ : BufTy).Contents (Elt F)),
    binary main_v43 main_v48 main_v49 (cmpi .slt : (⟨S4, .i32⟩ : BufTy).Contents (Elt F) → (⟨S4, .i32⟩ : BufTy).Contents (Elt F) → (⟨S4, .i1⟩ : BufTy).Contents (Elt F)),
    nullary main_c_13 (constantI S_ 32 4#32),
    unary main_c_13 main_v50 (broadcastInDim S4 ![] bcast_S_S4 : (⟨S_, .i32⟩ : BufTy).Contents (Elt F) → (⟨S4, .i32⟩ : BufTy).Contents (Elt F)),
    binary main_v43 main_v50 main_v51 (addi : (⟨S4, .i32⟩ : BufTy).Contents (Elt F) → (⟨S4, .i32⟩ : BufTy).Contents (Elt F) → (⟨S4, .i32⟩ : BufTy).Contents (Elt F)),
    ternary main_v49 main_v51 main_v43 main_v52 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_14 (constantI S_ 32 0#32),
    unary main_c_14 main_v53 (broadcastInDim S4 ![] bcast_S_S4 : (⟨S_, .i32⟩ : BufTy).Contents (Elt F) → (⟨S4, .i32⟩ : BufTy).Contents (Elt F)),
    binary main_v42 main_v53 main_v54 (cmpi .slt : (⟨S4, .i32⟩ : BufTy).Contents (Elt F) → (⟨S4, .i32⟩ : BufTy).Contents (Elt F) → (⟨S4, .i1⟩ : BufTy).Contents (Elt F)),
    nullary main_c_15 (constantI S_ 32 4096#32),
    unary main_c_15 main_v55 (broadcastInDim S4 ![] bcast_S_S4 : (⟨S_, .i32⟩ : BufTy).Contents (Elt F) → (⟨S4, .i32⟩ : BufTy).Contents (Elt F)),
    binary main_v42 main_v55 main_v56 (addi : (⟨S4, .i32⟩ : BufTy).Contents (Elt F) → (⟨S4, .i32⟩ : BufTy).Contents (Elt F) → (⟨S4, .i32⟩ : BufTy).Contents (Elt F)),
    ternary main_v54 main_v56 main_v42 main_v57 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v52 main_v58 (broadcastInDim S4x1 ![0] bcast_S4_S4x1_0 : (⟨S4, .i32⟩ : BufTy).Contents (Elt F) → (⟨S4x1, .i32⟩ : BufTy).Contents (Elt F)),
    unary main_v57 main_v59 (broadcastInDim S4x1 ![0] bcast_S4_S4x1_0 : (⟨S4, .i32⟩ : BufTy).Contents (Elt F) → (⟨S4x1, .i32⟩ : BufTy).Contents (Elt F)) ]

/-- The join of the index columns and the scatter-add. -/
abbrev opsB : List (HloOp τ sig (Elt F)) :=
  [ binary main_v58 main_v59 main_v60 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    ternary main_arg0 main_v60 main_v47 main_v61 ((fun x i u => Host.scatterAdd scatter_S4x4096x4096_S4x2_S4x4096_1_01_01_1 x i u) : (⟨S4x4096x4096, .f32⟩ : BufTy).Contents (Elt F) → (⟨S4x2, .i32⟩ : BufTy).Contents (Elt F) → (⟨S4x4096, .f32⟩ : BufTy).Contents (Elt F) → (⟨S4x4096x4096, .f32⟩ : BufTy).Contents (Elt F)) ]

/-- @main's 82 operations, in order. -/
abbrev ops : List (HloOp τ sig (Elt F)) :=
  [ nullary main_cst (constant S_ .f32 0x00000000#32),
    binary main_arg1 main_cst main_v0 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    unary main_v0 main_v1 (broadcastInDim S4x1 ![0] bcast_S4_S4x1_0 : (⟨S4, .f32⟩ : BufTy).Contents (Elt F) → (⟨S4x1, .f32⟩ : BufTy).Contents (Elt F)),
    nullary main_cst_0 (constant S_ .f32 0x43800000#32),
    unary main_cst_0 main_v2 (broadcastInDim S4x1 ![] bcast_S_S4x1 : (⟨S_, .f32⟩ : BufTy).Contents (Elt F) → (⟨S4x1, .f32⟩ : BufTy).Contents (Elt F)),
    binary main_v1 main_v2 main_v3 (Host.divf : (⟨S4x1, .f32⟩ : BufTy).Contents (Elt F) → (⟨S4x1, .f32⟩ : BufTy).Contents (Elt F) → (⟨S4x1, .f32⟩ : BufTy).Contents (Elt F)),
    unary main_v3 main_v4 (broadcastInDim S4x256 ![0, 1] bcast_S4x1_S4x256_0_1 : (⟨S4x1, .f32⟩ : BufTy).Contents (Elt F) → (⟨S4x256, .f32⟩ : BufTy).Contents (Elt F)),
    binary main_arg1 main_v4 main_v5 (subf : (⟨S4x256, .f32⟩ : BufTy).Contents (Elt F) → (⟨S4x256, .f32⟩ : BufTy).Contents (Elt F) → (⟨S4x256, .f32⟩ : BufTy).Contents (Elt F)),
    binary main_v5 main_v5 main_v6 (mulf : (⟨S4x256, .f32⟩ : BufTy).Contents (Elt F) → (⟨S4x256, .f32⟩ : BufTy).Contents (Elt F) → (⟨S4x256, .f32⟩ : BufTy).Contents (Elt F)),
    nullary main_cst_1 (constant S_ .f32 0x00000000#32),
    binary main_v6 main_cst_1 main_v7 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    unary main_v7 main_v8 (broadcastInDim S4x1 ![0] bcast_S4_S4x1_0 : (⟨S4, .f32⟩ : BufTy).Contents (Elt F) → (⟨S4x1, .f32⟩ : BufTy).Contents (Elt F)),
    nullary main_cst_2 (constant S_ .f32 0x43800000#32),
    unary main_cst_2 main_v9 (broadcastInDim S4x1 ![] bcast_S_S4x1 : (⟨S_, .f32⟩ : BufTy).Contents (Elt F) → (⟨S4x1, .f32⟩ : BufTy).Contents (Elt F)),
    binary main_v8 main_v9 main_v10 (Host.divf : (⟨S4x1, .f32⟩ : BufTy).Contents (Elt F) → (⟨S4x1, .f32⟩ : BufTy).Contents (Elt F) → (⟨S4x1, .f32⟩ : BufTy).Contents (Elt F)),
    unary main_v3 main_v11 (broadcastInDim S4x256 ![0, 1] bcast_S4x1_S4x256_0_1 : (⟨S4x1, .f32⟩ : BufTy).Contents (Elt F) → (⟨S4x256, .f32⟩ : BufTy).Contents (Elt F)),
    binary main_arg1 main_v11 main_v12 (subf : (⟨S4x256, .f32⟩ : BufTy).Contents (Elt F) → (⟨S4x256, .f32⟩ : BufTy).Contents (Elt F) → (⟨S4x256, .f32⟩ : BufTy).Contents (Elt F)),
    nullary main_cst_3 (constant S_ .f32 0x3727C5AC#32),
    unary main_cst_3 main_v13 (broadcastInDim S4x1 ![] bcast_S_S4x1 : (⟨S_, .f32⟩ : BufTy).Contents (Elt F) → (⟨S4x1, .f32⟩ : BufTy).Contents (Elt F)),
    binary main_v10 main_v13 main_v14 (addf : (⟨S4x1, .f32⟩ : BufTy).Contents (Elt F) → (⟨S4x1, .f32⟩ : BufTy).Contents (Elt F) → (⟨S4x1, .f32⟩ : BufTy).Contents (Elt F)),
    unary main_v14 main_v15 (Host.rsqrt : (⟨S4x1, .f32⟩ : BufTy).Contents (Elt F) → (⟨S4x1, .f32⟩ : BufTy).Contents (Elt F)),
    unary main_v15 main_v16 (broadcastInDim S4x256 ![0, 1] bcast_S4x1_S4x256_0_1 : (⟨S4x1, .f32⟩ : BufTy).Contents (Elt F) → (⟨S4x256, .f32⟩ : BufTy).Contents (Elt F)),
    binary main_v12 main_v16 main_v17 (mulf : (⟨S4x256, .f32⟩ : BufTy).Contents (Elt F) → (⟨S4x256, .f32⟩ : BufTy).Contents (Elt F) → (⟨S4x256, .f32⟩ : BufTy).Contents (Elt F)),
    unary main_arg4 main_v18 (broadcastInDim S1x256 ![1] bcast_S256_S1x256_1 : (⟨S256, .f32⟩ : BufTy).Contents (Elt F) → (⟨S1x256, .f32⟩ : BufTy).Contents (Elt F)),
    unary main_v18 main_v19 (broadcastInDim S4x256 ![0, 1] bcast_S1x256_S4x256_0_1 : (⟨S1x256, .f32⟩ : BufTy).Contents (Elt F) → (⟨S4x256, .f32⟩ : BufTy).Contents (Elt F)),
    binary main_v17 main_v19 main_v20 (mulf : (⟨S4x256, .f32⟩ : BufTy).Contents (Elt F) → (⟨S4x256, .f32⟩ : BufTy).Contents (Elt F) → (⟨S4x256, .f32⟩ : BufTy).Contents (Elt F)),
    unary main_arg5 main_v21 (broadcastInDim S1x256 ![1] bcast_S256_S1x256_1 : (⟨S256, .f32⟩ : BufTy).Contents (Elt F) → (⟨S1x256, .f32⟩ : BufTy).Contents (Elt F)),
    unary main_v21 main_v22 (broadcastInDim S4x256 ![0, 1] bcast_S1x256_S4x256_0_1 : (⟨S1x256, .f32⟩ : BufTy).Contents (Elt F) → (⟨S4x256, .f32⟩ : BufTy).Contents (Elt F)),
    binary main_v20 main_v22 main_v23 (addf : (⟨S4x256, .f32⟩ : BufTy).Contents (Elt F) → (⟨S4x256, .f32⟩ : BufTy).Contents (Elt F) → (⟨S4x256, .f32⟩ : BufTy).Contents (Elt F)),
    binary main_v23 main_arg6 main_v24 ((fun l r => Host.dotGeneral dot_S4x256_S4096x256_S4x4096_1_1_0_0_n_n none l r) : (⟨S4x256, .f32⟩ : BufTy).Contents (Elt F) → (⟨S4096x256, .f32⟩ : BufTy).Contents (Elt F) → (⟨S4x4096, .f32⟩ : BufTy).Contents (Elt F)),
    unary main_arg7 main_v25 (broadcastInDim S1x4096 ![1] bcast_S4096_S1x4096_1 : (⟨S4096, .f32⟩ : BufTy).Contents (Elt F) → (⟨S1x4096, .f32⟩ : BufTy).Contents (Elt F)),
    unary main_v25 main_v26 (broadcastInDim S4x4096 ![0, 1] bcast_S1x4096_S4x4096_0_1 : (⟨S1x4096, .f32⟩ : BufTy).Contents (Elt F) → (⟨S4x4096, .f32⟩ : BufTy).Contents (Elt F)),
    binary main_v24 main_v26 main_v27 (addf : (⟨S4x4096, .f32⟩ : BufTy).Contents (Elt F) → (⟨S4x4096, .f32⟩ : BufTy).Contents (Elt F) → (⟨S4x4096, .f32⟩ : BufTy).Contents (Elt F)),
    nullary main_cst_4 (constant S_ .f32 0x3F800000#32),
    unary main_cst_4 main_v28 (broadcastInDim S4x4096 ![] bcast_S_S4x4096 : (⟨S_, .f32⟩ : BufTy).Contents (Elt F) → (⟨S4x4096, .f32⟩ : BufTy).Contents (Elt F)),
    binary main_v27 main_v28 main_v29 (mulf : (⟨S4x4096, .f32⟩ : BufTy).Contents (Elt F) → (⟨S4x4096, .f32⟩ : BufTy).Contents (Elt F) → (⟨S4x4096, .f32⟩ : BufTy).Contents (Elt F)),
    nullary main_c (constantI S_ 1 0#1),
    unary main_c main_v30 (broadcastInDim S4 ![] bcast_S_S4 : (⟨S_, .i1⟩ : BufTy).Contents (Elt F) → (⟨S4, .i1⟩ : BufTy).Contents (Elt F)),
    nullary main_c_5 (constantI S_ 32 5#32),
    unary main_c_5 main_v31 (broadcastInDim S4x4096 ![] bcast_S_S4x4096 : (⟨S_, .i32⟩ : BufTy).Contents (Elt F) → (⟨S4x4096, .i32⟩ : BufTy).Contents (Elt F)),
    binary main_arg2 main_v31 main_v32 (cmpi .eq : (⟨S4x4096, .i32⟩ : BufTy).Contents (Elt F) → (⟨S4x4096, .i32⟩ : BufTy).Contents (Elt F) → (⟨S4x4096, .i1⟩ : BufTy).Contents (Elt F)),
    nullary main_c_6 (constantI S_ 1 0#1),
    binary main_v32 main_c_6 main_v33 ((fun x v => Host.reduce IntOp.ori x v reducesTo_S4x4096_S4_d1 h_S_) : (⟨S4x4096, .i1⟩ : BufTy).Contents (Elt F) → (⟨S_, .i1⟩ : BufTy).Contents (Elt F) → (⟨S4, .i1⟩ : BufTy).Contents (Elt F)),
    binary main_v30 main_v33 main_v34 (ori : (⟨S4, .i1⟩ : BufTy).Contents (Elt F) → (⟨S4, .i1⟩ : BufTy).Contents (Elt F) → (⟨S4, .i1⟩ : BufTy).Contents (Elt F)),
    nullary main_c_7 (constantI S_ 32 7#32),
    unary main_c_7 main_v35 (broadcastInDim S4x4096 ![] bcast_S_S4x4096 : (⟨S_, .i32⟩ : BufTy).Contents (Elt F) → (⟨S4x4096, .i32⟩ : BufTy).Contents (Elt F)),
    binary main_arg2 main_v35 main_v36 (cmpi .eq : (⟨S4x4096, .i32⟩ : BufTy).Contents (Elt F) → (⟨S4x4096, .i32⟩ : BufTy).Contents (Elt F) → (⟨S4x4096, .i1⟩ : BufTy).Contents (Elt F)),
    nullary main_c_8 (constantI S_ 1 0#1),
    binary main_v36 main_c_8 main_v37 ((fun x v => Host.reduce IntOp.ori x v reducesTo_S4x4096_S4_d1 h_S_) : (⟨S4x4096, .i1⟩ : BufTy).Contents (Elt F) → (⟨S_, .i1⟩ : BufTy).Contents (Elt F) → (⟨S4, .i1⟩ : BufTy).Contents (Elt F)),
    binary main_v34 main_v37 main_v38 (ori : (⟨S4, .i1⟩ : BufTy).Contents (Elt F) → (⟨S4, .i1⟩ : BufTy).Contents (Elt F) → (⟨S4, .i1⟩ : BufTy).Contents (Elt F)),
    nullary main_c_9 (constantI S_ 32 0#32),
    binary main_arg3 main_c_9 main_v39 ((fun x v => Host.reduce IntOp.addi x v reducesTo_S4x4096_S4_d1 h_S_) : (⟨S4x4096, .i32⟩ : BufTy).Contents (Elt F) → (⟨S_, .i32⟩ : BufTy).Contents (Elt F) → (⟨S4, .i32⟩ : BufTy).Contents (Elt F)),
    nullary main_c_10 (constantI S_ 32 1#32),
    TRef.unary (TRef.of (T := ⟨S_, .i32⟩) main_c_10) (TRef.of (T := ⟨S_, .i32⟩) main_call0_v0) id,
    TRef.unary (TRef.of (T := ⟨S_, .i32⟩) main_call0_v0) (TRef.of (T := ⟨S4, .i32⟩) main_call0_v1) (broadcastInDim S4 ![] bcast_S_S4),
    TRef.binary (TRef.of (T := ⟨S4, .i32⟩) main_call0_v1) (TRef.of (T := ⟨S4, .i32⟩) main_v39) (TRef.of (T := ⟨S4, .i32⟩) main_v40) maxsi,
    nullary main_c_11 (constantI S_ 32 1#32),
    unary main_c_11 main_v41 (broadcastInDim S4 ![] bcast_S_S4 : (⟨S_, .i32⟩ : BufTy).Contents (Elt F) → (⟨S4, .i32⟩ : BufTy).Contents (Elt F)),
    binary main_v40 main_v41 main_v42 (subi : (⟨S4, .i32⟩ : BufTy).Contents (Elt F) → (⟨S4, .i32⟩ : BufTy).Contents (Elt F) → (⟨S4, .i32⟩ : BufTy).Contents (Elt F)),
    nullary main_v43 (iotaInDim S4 32 0),
    unary main_v38 main_v44 (broadcastInDim S4x1 ![0] bcast_S4_S4x1_0 : (⟨S4, .i1⟩ : BufTy).Contents (Elt F) → (⟨S4x1, .i1⟩ : BufTy).Contents (Elt F)),
    unary main_v44 main_v45 (uitofp .f32 : (⟨S4x1, .i1⟩ : BufTy).Contents (Elt F) → (⟨S4x1, .f32⟩ : BufTy).Contents (Elt F)),
    unary main_v45 main_v46 (broadcastInDim S4x4096 ![0, 1] bcast_S4x1_S4x4096_0_1 : (⟨S4x1, .f32⟩ : BufTy).Contents (Elt F) → (⟨S4x4096, .f32⟩ : BufTy).Contents (Elt F)),
    binary main_v29 main_v46 main_v47 (mulf : (⟨S4x4096, .f32⟩ : BufTy).Contents (Elt F) → (⟨S4x4096, .f32⟩ : BufTy).Contents (Elt F) → (⟨S4x4096, .f32⟩ : BufTy).Contents (Elt F)),
    nullary main_c_12 (constantI S_ 32 0#32),
    unary main_c_12 main_v48 (broadcastInDim S4 ![] bcast_S_S4 : (⟨S_, .i32⟩ : BufTy).Contents (Elt F) → (⟨S4, .i32⟩ : BufTy).Contents (Elt F)),
    binary main_v43 main_v48 main_v49 (cmpi .slt : (⟨S4, .i32⟩ : BufTy).Contents (Elt F) → (⟨S4, .i32⟩ : BufTy).Contents (Elt F) → (⟨S4, .i1⟩ : BufTy).Contents (Elt F)),
    nullary main_c_13 (constantI S_ 32 4#32),
    unary main_c_13 main_v50 (broadcastInDim S4 ![] bcast_S_S4 : (⟨S_, .i32⟩ : BufTy).Contents (Elt F) → (⟨S4, .i32⟩ : BufTy).Contents (Elt F)),
    binary main_v43 main_v50 main_v51 (addi : (⟨S4, .i32⟩ : BufTy).Contents (Elt F) → (⟨S4, .i32⟩ : BufTy).Contents (Elt F) → (⟨S4, .i32⟩ : BufTy).Contents (Elt F)),
    ternary main_v49 main_v51 main_v43 main_v52 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_14 (constantI S_ 32 0#32),
    unary main_c_14 main_v53 (broadcastInDim S4 ![] bcast_S_S4 : (⟨S_, .i32⟩ : BufTy).Contents (Elt F) → (⟨S4, .i32⟩ : BufTy).Contents (Elt F)),
    binary main_v42 main_v53 main_v54 (cmpi .slt : (⟨S4, .i32⟩ : BufTy).Contents (Elt F) → (⟨S4, .i32⟩ : BufTy).Contents (Elt F) → (⟨S4, .i1⟩ : BufTy).Contents (Elt F)),
    nullary main_c_15 (constantI S_ 32 4096#32),
    unary main_c_15 main_v55 (broadcastInDim S4 ![] bcast_S_S4 : (⟨S_, .i32⟩ : BufTy).Contents (Elt F) → (⟨S4, .i32⟩ : BufTy).Contents (Elt F)),
    binary main_v42 main_v55 main_v56 (addi : (⟨S4, .i32⟩ : BufTy).Contents (Elt F) → (⟨S4, .i32⟩ : BufTy).Contents (Elt F) → (⟨S4, .i32⟩ : BufTy).Contents (Elt F)),
    ternary main_v54 main_v56 main_v42 main_v57 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v52 main_v58 (broadcastInDim S4x1 ![0] bcast_S4_S4x1_0 : (⟨S4, .i32⟩ : BufTy).Contents (Elt F) → (⟨S4x1, .i32⟩ : BufTy).Contents (Elt F)),
    unary main_v57 main_v59 (broadcastInDim S4x1 ![0] bcast_S4_S4x1_0 : (⟨S4, .i32⟩ : BufTy).Contents (Elt F) → (⟨S4x1, .i32⟩ : BufTy).Contents (Elt F)),
    binary main_v58 main_v59 main_v60 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    ternary main_arg0 main_v60 main_v47 main_v61 ((fun x i u => Host.scatterAdd scatter_S4x4096x4096_S4x2_S4x4096_1_01_01_1 x i u) : (⟨S4x4096x4096, .f32⟩ : BufTy).Contents (Elt F) → (⟨S4x2, .i32⟩ : BufTy).Contents (Elt F) → (⟨S4x4096, .f32⟩ : BufTy).Contents (Elt F) → (⟨S4x4096x4096, .f32⟩ : BufTy).Contents (Elt F)) ]

theorem ops_split : (ops : List (HloOp τ sig (Elt F))) = opsA ++ opsB := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., binary_bufs_sub .., binary_bufs_sub .., nullary_bufs_sub .., unary_bufs_sub .., binary_bufs_sub .., nullary_bufs_sub .., binary_bufs_sub .., binary_bufs_sub .., nullary_bufs_sub .., binary_bufs_sub .., nullary_bufs_sub .., unary_bufs_sub .., unary_bufs_sub .., binary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- The buffers after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The last two operations over any buffer contents before them. -/
theorem afterB (W : Valuation τ sig (Elt F)) :
    after opsB W (Proc.devRef .tc main_v61)
      = Host.scatterAdd scatter_S4x4096x4096_S4x2_S4x4096_1_01_01_1 (W (Proc.devRef .tc main_arg0) : (⟨S4x4096x4096, .f32⟩ : BufTy).Contents (Elt F))
          (concatenate S4x2 1 [⟨S4x1, (W (Proc.devRef .tc main_v58) : (⟨S4x1, .i32⟩ : BufTy).Contents (Elt F))⟩,
            ⟨S4x1, (W (Proc.devRef .tc main_v59) : (⟨S4x1, .i32⟩ : BufTy).Contents (Elt F))⟩] concatenates_S4x1_S4x1_S4x2_d1)
          (W (Proc.devRef .tc main_v47) : (⟨S4x4096, .f32⟩ : BufTy).Contents (Elt F)) := by
  after_results <;> rfl

section
variable (m : (ℓ : Loc nD τ sig) → Buf (Elt F) ℓ) (c : Dev nD)

set_option maxRecDepth 8192 in
set_option maxHeartbeats 8000000 in
/-- Before the join, x is as launched; -/
theorem afterA_x : after opsA (launchContents m c) (Proc.devRef .tc main_arg0) = m ((c.tc : Thread nD τ).loc main_arg0) := by
  after_results_simp <;> rfl

set_option maxRecDepth 8192 in
set_option maxHeartbeats 8000000 in
/-- the column of row numbers is its stage; -/
theorem afterA_rows : after opsA (launchContents m c) (Proc.devRef .tc main_v58) = val_main_v58 (F := F) := by
  after_results_simp <;> (try simp only [TRef.ofBuf, TRef.toBuf, cast_eq]) <;> rfl

set_option maxRecDepth 8192 in
set_option maxHeartbeats 8000000 in
/-- the column of last words is its stage of the attention mask; -/
theorem afterA_last : after opsA (launchContents m c) (Proc.devRef .tc main_v59)
    = val_main_v59 (F := F) (m ((c.tc : Thread nD τ).loc main_arg3)) := by
  after_results_simp <;> (try simp only [TRef.ofBuf, TRef.toBuf, cast_eq]) <;> rfl

set_option maxRecDepth 8192 in
set_option maxHeartbeats 16000000 in
/-- the update array is its stage of the features, the tokens, γ, β, W and the bias. -/
theorem afterA_upd : after opsA (launchContents m c) (Proc.devRef .tc main_v47)
    = val_main_v47 (F := F) (m ((c.tc : Thread nD τ).loc main_arg1)) (m ((c.tc : Thread nD τ).loc main_arg2)) (m ((c.tc : Thread nD τ).loc main_arg4))
        (m ((c.tc : Thread nD τ).loc main_arg5)) (m ((c.tc : Thread nD τ).loc main_arg6)) (m ((c.tc : Thread nD τ).loc main_arg7)) := by
  after_results_simp <;> (try simp only [TRef.ofBuf, TRef.toBuf, cast_eq]) <;> rfl

/-- THE RESULT BUFFER after all 82 operations: the last stage of the arguments. -/
theorem after_result : after ops (launchContents m c) (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, after_app, afterB, afterA_x, afterA_rows, afterA_last, afterA_upd]
  rfl
end

set_option maxRecDepth 8192 in
set_option maxHeartbeats 32800000 in
/-- On every device, for any float values, from any memory with zero counters: every weakly fair execution of @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v61).trans (after_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HandRun

end
-- ==== Proof.lean ====
/-
  The certificate of a feature-vector graft: layer norm of four feature rows, their projection through W plus a bias,
  masked by a per-batch trigger bit, added into ONE row (the last attended position) of each batch of x.
  The kernel does it in two launches (the small projection; a tiled copy of x that adds the projected row where a tile
  holds the named row), the reference with a scatter-add. At the ideal float instance both are x with
  delta(b, ·) · a(b) added into row last(b) of batch b: the kernel's row mask is 1 exactly in the row the scatter names
  (and nowhere when last(b) is past the array, where the scatter drops the update), x + 0 · y = x and x + 1 · y = x + y on the
  extended reals, and the two orders of the factors a(b) and 1 agree by commutativity. No finiteness is used.
  The three frames: the kernel's two launches as segments of @main between its host stretches, at both instances;
  the reference's run (one line of host operations, read back) with its result dropped. The idealization rewrote nothing, so `preserves` is trivial.
-/
import proofs.«402860_j88510686036004_2_alg».proof.Defs
import proofs.«402860_j88510686036004_2_alg».proof.Proof.Kernel.Run
import proofs.«402860_j88510686036004_2_alg».proof.Proof.KernelIdeal.Run
import proofs.«402860_j88510686036004_2_alg».proof.Proof.Bridge
import proofs.«402860_j88510686036004_2_alg».proof.Proof.RefRunHand
import proofs.«402860_j88510686036004_2_alg».proof.Proof.Gen.Kernel
import proofs.«402860_j88510686036004_2_alg».proof.Proof.Gen.KernelIdeal
import proofs.«402860_j88510686036004_2_alg».proof.Proof.Gen.ReferenceIdeal
import proofs.«402860_j88510686036004_2_alg».proof.Proof.Gen.Pre_finite_inputs

noncomputable section

namespace Cert.Proof

open Idealize.ShloMosaic Idealize.SL.Sem

theorem frame_k : Cert.frame_Kernel := fun m ρ _ => Cert.Kernel.Graft.frame m ρ
theorem frame_ki : Cert.frame_KernelIdeal := fun m ρ _ => Cert.KernelIdeal.Graft.frame m ρ
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both idealized programs run, and end with one result array. -/
theorem algebraic : Cert.algebraic_KernelIdeal_ReferenceIdeal := by
  intro m ρ m' ρ' _ hagree
  refine ⟨fun c => Cert.KernelIdeal.Graft.kResult m c, Cert.KernelIdeal.Graft.kernel_run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7⟩ := hagree c
  exact Cert.Proof.Bridge.result_eq m m' c h0 h1 h2 h3 h4 h5 h6 h7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
